-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x512 : Shape := ⟨3, ![4, 16, 512]⟩
abbrev S31999x512 : Shape := ⟨2, ![31999, 512]⟩
abbrev S576000 : Shape := ⟨1, ![576000]⟩
abbrev S_ : Shape := ⟨0, ![]⟩

class Facts : Prop where
  bcast_S_S4x16x512 : S_.BroadcastsInDim S4x16x512 (![] : Fin 0 → Fin S4x16x512.rank)
  reducesTo_S4x16x512_S_d0_1_2 : S4x16x512.ReducesTo [0, 1, 2] S_
  h_S_ : 0 < S_.numel
  bcast_S_S31999x512 : S_.BroadcastsInDim S31999x512 (![] : Fin 0 → Fin S31999x512.rank)
  reducesTo_S31999x512_S_d0_1 : S31999x512.ReducesTo [0, 1] S_
  bcast_S_S576000 : S_.BroadcastsInDim S576000 (![] : Fin 0 → Fin S576000.rank)
  reducesTo_S576000_S_d0 : S576000.ReducesTo [0] S_

variable [Facts]

def fn_part1 {F : FTy → Type} [FloatOps F] (main_arg2 : IVec S576000 32) (main_v13 : IVec S_ 1) (main_v16 : IVec S576000 1) : IVec S_ 1 :=
  let main_c_5 : IVec S_ 1 := constantI S_ 1 1#1
  let main_v17 : IVec S_ 1 := (fun x v => Host.reduce IntOp.andi x v reducesTo_S576000_S_d0 h_S_) main_v16 main_c_5
  let main_v18 : IVec S_ 1 := andi main_v13 main_v17
  let main_c_6 : IVec S_ 32 := constantI S_ 32 0#32
  let main_v19 : IVec S576000 32 := broadcastInDim S576000 ![] bcast_S_S576000 main_c_6
  let main_v20 : IVec S576000 1 := cmpi .sge main_arg2 main_v19
  let main_c_7 : IVec S_ 32 := constantI S_ 32 31999#32
  let main_v21 : IVec S576000 32 := broadcastInDim S576000 ![] bcast_S_S576000 main_c_7
  let main_v22 : IVec S576000 1 := cmpi .slt main_arg2 main_v21
  let main_v23 : IVec S576000 1 := andi main_v20 main_v22
  let main_c_8 : IVec S_ 1 := constantI S_ 1 1#1
  let main_v24 : IVec S_ 1 := (fun x v => Host.reduce IntOp.andi x v reducesTo_S576000_S_d0 h_S_) main_v23 main_c_8
  let main_v25 : IVec S_ 1 := andi main_v18 main_v24
  main_v25

def fn {F : FTy → Type} [FloatOps F] (main_arg0 : FVec F S4x16x512 .f32) (main_arg1 : FVec F S31999x512 .f32) (main_arg2 : IVec S576000 32) (main_arg3 : FVec F S576000 .f32) (main_arg4 : FVec F S576000 .f32) : IVec S_ 1 :=
  let main_v0 : FVec F S4x16x512 .f32 := Host.absf main_arg0
  let main_cst : FVec F S_ .f32 := constant S_ .f32 0x7F800000#32
  let main_v1 : FVec F S4x16x512 .f32 := broadcastInDim S4x16x512 ![] bcast_S_S4x16x512 main_cst
  let main_v2 : IVec S4x16x512 1 := cmpf .olt main_v0 main_v1
  let main_c : IVec S_ 1 := constantI S_ 1 1#1
  let main_v3 : IVec S_ 1 := (fun x v => Host.reduce IntOp.andi x v reducesTo_S4x16x512_S_d0_1_2 h_S_) main_v2 main_c
  let main_v4 : FVec F S31999x512 .f32 := Host.absf main_arg1
  let main_cst_0 : FVec F S_ .f32 := constant S_ .f32 0x7F800000#32
  let main_v5 : FVec F S31999x512 .f32 := broadcastInDim S31999x512 ![] bcast_S_S31999x512 main_cst_0
  let main_v6 : IVec S31999x512 1 := cmpf .olt main_v4 main_v5
  let main_c_1 : IVec S_ 1 := constantI S_ 1 1#1
  let main_v7 : IVec S_ 1 := (fun x v => Host.reduce IntOp.andi x v reducesTo_S31999x512_S_d0_1 h_S_) main_v6 main_c_1
  let main_v8 : IVec S_ 1 := andi main_v3 main_v7
  let main_v9 : FVec F S576000 .f32 := Host.absf main_arg3
  let main_cst_2 : FVec F S_ .f32 := constant S_ .f32 0x7F800000#32
  let main_v10 : FVec F S576000 .f32 := broadcastInDim S576000 ![] bcast_S_S576000 main_cst_2
  let main_v11 : IVec S576000 1 := cmpf .olt main_v9 main_v10
  let main_c_3 : IVec S_ 1 := constantI S_ 1 1#1
  let main_v12 : IVec S_ 1 := (fun x v => Host.reduce IntOp.andi x v reducesTo_S576000_S_d0 h_S_) main_v11 main_c_3
  let main_v13 : IVec S_ 1 := andi main_v8 main_v12
  let main_v14 : FVec F S576000 .f32 := Host.absf main_arg4
  let main_cst_4 : FVec F S_ .f32 := constant S_ .f32 0x7F800000#32
  let main_v15 : FVec F S576000 .f32 := broadcastInDim S576000 ![] bcast_S_S576000 main_cst_4
  let main_v16 : IVec S576000 1 := cmpf .olt main_v14 main_v15
  fn_part1 (F := F) main_arg2 main_v13 main_v16
-- ==== Kernel.lean ====
abbrev S4x16x512 : Shape := ⟨3, ![4, 16, 512]⟩
abbrev S31999x512 : Shape := ⟨2, ![31999, 512]⟩
abbrev S576000 : Shape := ⟨1, ![576000]⟩
abbrev S64x512 : Shape := ⟨2, ![64, 512]⟩
abbrev S_ : Shape := ⟨0, ![]⟩
abbrev S32000x512 : Shape := ⟨2, ![32000, 512]⟩
abbrev S64x32000 : Shape := ⟨2, ![64, 32000]⟩
abbrev S3200x512 : Shape := ⟨2, ![3200, 512]⟩
abbrev S64x3200 : Shape := ⟨2, ![64, 3200]⟩
abbrev S125x1x4608 : Shape := ⟨3, ![125, 1, 4608]⟩
abbrev S64x1280 : Shape := ⟨2, ![64, 1280]⟩
abbrev S1x1x4608 : Shape := ⟨3, ![1, 1, 4608]⟩
abbrev S64x256 : Shape := ⟨2, ![64, 256]⟩
abbrev S64x4608 : Shape := ⟨2, ![64, 4608]⟩
abbrev S1280x4608 : Shape := ⟨2, ![1280, 4608]⟩
abbrev S1x4608 : Shape := ⟨2, ![1, 4608]⟩
abbrev S4608x256 : Shape := ⟨2, ![4608, 256]⟩
abbrev S4x16x32000 : Shape := ⟨3, ![4, 16, 32000]⟩

abbrev nBuf : Space → Nat
  | .hbm => 17
  | .vmem => 16
  | .smem => 0
  | _ => 0

abbrev bufTy : (tb : Table) → Fin (tcTables nBuf tb) → BufTy
  | .hbm, ⟨0, _⟩ => ⟨S4x16x512, .f32⟩
  | .hbm, ⟨1, _⟩ => ⟨S31999x512, .f32⟩
  | .hbm, ⟨2, _⟩ => ⟨S576000, .i32⟩
  | .hbm, ⟨3, _⟩ => ⟨S576000, .f32⟩
  | .hbm, ⟨4, _⟩ => ⟨S576000, .f32⟩
  | .hbm, ⟨5, _⟩ => ⟨S64x512, .f32⟩
  | .hbm, ⟨6, _⟩ => ⟨S64x512, .bf16⟩
  | .hbm, ⟨7, _⟩ => ⟨S_, .i32⟩
  | .hbm, ⟨8, _⟩ => ⟨S_, .f32⟩
  | .hbm, ⟨9, _⟩ => ⟨S32000x512, .f32⟩
  | .hbm, ⟨10, _⟩ => ⟨S32000x512, .bf16⟩
  | .hbm, ⟨11, _⟩ => ⟨S64x32000, .bf16⟩
  | .hbm, ⟨12, _⟩ => ⟨S125x1x4608, .i32⟩
  | .hbm, ⟨13, _⟩ => ⟨S125x1x4608, .f32⟩
  | .hbm, ⟨14, _⟩ => ⟨S125x1x4608, .f32⟩
  | .hbm, ⟨15, _⟩ => ⟨S64x32000, .f32⟩
  | .hbm, ⟨16, _⟩ => ⟨S4x16x32000, .f32⟩
  | .local _ .vmem, ⟨0, _⟩ => ⟨S64x512, .bf16⟩
  | .local _ .vmem, ⟨1, _⟩ => ⟨S3200x512, .bf16⟩
  | .local _ .vmem, ⟨2, _⟩ => ⟨S3200x512, .bf16⟩
  | .local _ .vmem, ⟨3, _⟩ => ⟨S64x3200, .bf16⟩
  | .local _ .vmem, ⟨4, _⟩ => ⟨S64x3200, .bf16⟩
  | .local _ .vmem, ⟨5, _⟩ => ⟨S64x1280, .bf16⟩
  | .local _ .vmem, ⟨6, _⟩ => ⟨S64x1280, .bf16⟩
  | .local _ .vmem, ⟨7, _⟩ => ⟨S1x1x4608, .i32⟩
  | .local _ .vmem, ⟨8, _⟩ => ⟨S1x1x4608, .i32⟩
  | .local _ .vmem, ⟨9, _⟩ => ⟨S1x1x4608, .f32⟩
  | .local _ .vmem, ⟨10, _⟩ => ⟨S1x1x4608, .f32⟩
  | .local _ .vmem, ⟨11, _⟩ => ⟨S1x1x4608, .f32⟩
  | .local _ .vmem, ⟨12, _⟩ => ⟨S1x1x4608, .f32⟩
  | .local _ .vmem, ⟨13, _⟩ => ⟨S64x256, .f32⟩
  | .local _ .vmem, ⟨14, _⟩ => ⟨S64x256, .f32⟩
  | .local _ .vmem, ⟨15, _⟩ => ⟨S64x4608, .f32⟩
  | _, _ => ⟨S4x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![125, 25], ![false, false]⟩

def k1_cond2 (i : grid1.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_11 : BitVec 32 := 0#32
  let v25 : BitVec 1 := Scalar.cmpi .ne v24 c0_i32_11
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x4608 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4608 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x4608 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S64x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4x16x512_S64x512 : S4x16x512.ShapeCasts S64x512
  bitsLt_bf16_f32 : FTy.bits .bf16 < FTy.bits .f32
  pads_S31999x512_S32000x512_010_000 : S31999x512.Pads (![0, 0] : Fin 2 → Nat) ![1, 0] ![0, 0] S32000x512
  h_S_ : 0 < S_.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  inb_S64x3200_S64x3200_0_0 : ∀ a, (![0, 0] : Fin 2 → Nat) a + S64x3200.size a ≤ S64x3200.size a
  h_S64x3200 : 0 < S64x3200.numel
  packedbf16_S64x3200_S64x3200_0_0 : (Rect.unit (s := S64x3200) ![0, 0] S64x3200.size inb_S64x3200_S64x3200_0_0).PackedRows (EltTy.packing .bf16)
  shapeCasts_S576000_S125x1x4608 : S576000.ShapeCasts S125x1x4608
  inb_S64x4608_S64x4608_0_0 : ∀ a, (![0, 0] : Fin 2 → Nat) a + S64x4608.size a ≤ S64x4608.size a
  h_S64x4608 : 0 < S64x4608.numel
  shapeCasts_S64x4608_S64x4608 : S64x4608.ShapeCasts S64x4608
  iota_S1280x4608_d0_w32 : S1280x4608.Iotas .tc 32 [0]
  inb_S1x1x4608_S1x1x4608_0_0_0 : ∀ a, (![0, 0, 0] : Fin 3 → Nat) a + S1x1x4608.size a ≤ S1x1x4608.size a
  h_S1x1x4608 : 0 < S1x1x4608.numel
  shapeCasts_S1x1x4608_S1x4608 : S1x1x4608.ShapeCasts S1x4608
  broadcasts_S1x4608_S1280x4608 : S1x4608.Broadcasts S1280x4608
  inb_S64x1280_S64x1280_0_0 : ∀ a, (![0, 0] : Fin 2 → Nat) a + S64x1280.size a ≤ S64x1280.size a
  h_S64x1280 : 0 < S64x1280.numel
  shapeCasts_S64x1280_S64x1280 : S64x1280.ShapeCasts S64x1280
  broadcasts_S1x4608_S64x4608 : S1x4608.Broadcasts S64x4608
  iota_S4608x256_d0_w32 : S4608x256.Iotas .tc 32 [0]
  iota_S4608x256_d1_w32 : S4608x256.Iotas .tc 32 [1]
  natLt_1_32 : 1 < 32
  inb_S64x256_S64x256_0_0 : ∀ a, (![0, 0] : Fin 2 → Nat) a + S64x256.size a ≤ S64x256.size a
  h_S64x256 : 0 < S64x256.numel
  shapeCasts_S64x32000_S4x16x32000 : S64x32000.ShapeCasts S4x16x32000
  dot_S64x512_S3200x512_S64x3200_1_1_0_0_n_n_wf : DotDims.WF S64x512 S3200x512 S64x3200 [1] [1] [0] [0] [] []
  dot_S64x1280_S1280x4608_S64x4608_1_0_0_1_n_n_wf : DotDims.WF S64x1280 S1280x4608 S64x4608 [1] [0] [0] [1] [] []
  dot_S64x4608_S4608x256_S64x256_1_0_0_1_n_n_wf : DotDims.WF S64x4608 S4608x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .bf16 = 32 ∨ (Rect.block (s := S64x512) S64x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x512.size a ≤ S32000x512.size a
  hwx0_1 : ∀ i : grid0.Coords, EltTy.bits .bf16 = 32 ∨ (Rect.block (s := S32000x512) S3200x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x3200.size a ≤ S64x32000.size a
  hwx0_2 : ∀ i : grid0.Coords, EltTy.bits .bf16 = 32 ∨ (Rect.block (s := S64x32000) S64x3200.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1280.size a ≤ S64x32000.size a
  hwx1_0 : ∀ i : grid1.Coords, EltTy.bits .bf16 = 32 ∨ (Rect.block (s := S64x32000) S64x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4608.size a ≤ S125x1x4608.size a
  hwx1_1 : ∀ i : grid1.Coords, EltTy.bits .i32 = 32 ∨ (Rect.block (s := S125x1x4608) S1x1x4608.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4608.size a ≤ S125x1x4608.size a
  hwx1_2 : ∀ i : grid1.Coords, EltTy.bits .f32 = 32 ∨ (Rect.block (s := S125x1x4608) S1x1x4608.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4608.size a ≤ S125x1x4608.size a
  hwx1_3 : ∀ i : grid1.Coords, EltTy.bits .f32 = 32 ∨ (Rect.block (s := S125x1x4608) S1x1x4608.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S64x32000.size a
  hwx1_4 : ∀ i : grid1.Coords, EltTy.bits .f32 = 32 ∨ (Rect.block (s := S64x32000) S64x256.size (cc1_transform_4 i) (hinb1_4 i)).WholeWords (EltTy.packing .f32)

variable [Facts₀]

def dot_S64x512_S3200x512_S64x3200_1_1_0_0_n_n : DotDims S64x512 S3200x512 S64x3200 where
  lhsContracting := [1]
  rhsContracting := [1]
  lhsNonContracting := [0]
  rhsNonContracting := [0]
  lhsBatch := []
  rhsBatch := []
  wf := dot_S64x512_S3200x512_S64x3200_1_1_0_0_n_n_wf
def dot_S64x1280_S1280x4608_S64x4608_1_0_0_1_n_n : DotDims S64x1280 S1280x4608 S64x4608 where
  lhsContracting := [1]
  rhsContracting := [0]
  lhsNonContracting := [0]
  rhsNonContracting := [1]
  lhsBatch := []
  rhsBatch := []
  wf := dot_S64x1280_S1280x4608_S64x4608_1_0_0_1_n_n_wf
def dot_S64x4608_S4608x256_S64x256_1_0_0_1_n_n : DotDims S64x4608 S4608x256 S64x256 where
  lhsContracting := [1]
  rhsContracting := [0]
  lhsNonContracting := [0]
  rhsNonContracting := [1]
  lhsBatch := []
  rhsBatch := []
  wf := dot_S64x4608_S4608x256_S64x256_1_0_0_1_n_n_wf

abbrev win0_0 : Pipeline.Window sig grid0 :=
  Pipeline.Window.ofSpec (Memref.whole main_v1) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3200x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x3200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S64x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1x4608.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x4608.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x4608.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S64x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x16x512 : Shape := ⟨3, ![4, 16, 512]⟩
abbrev S31999x512 : Shape := ⟨2, ![31999, 512]⟩
abbrev S576000 : Shape := ⟨1, ![576000]⟩
abbrev S4x16x31999 : Shape := ⟨3, ![4, 16, 31999]⟩
abbrev S_ : Shape := ⟨0, ![]⟩
abbrev S576000x1 : Shape := ⟨2, ![576000, 1]⟩
abbrev S1 : Shape := ⟨1, ![1]⟩
abbrev S1x1 : Shape := ⟨2, ![1, 1]⟩
abbrev S4x16x576000 : Shape := ⟨3, ![4, 16, 576000]⟩
abbrev S1x1x576000 : Shape := ⟨3, ![1, 1, 576000]⟩
abbrev S4x16x32000x18 : Shape := ⟨4, ![4, 16, 32000, 18]⟩
abbrev S4x16x32000 : Shape := ⟨3, ![4, 16, 32000]⟩

abbrev nBuf : Space → Nat
  | .hbm => 55
  | .vmem => 0
  | .smem => 0
  | _ => 0

abbrev bufTy : (tb : Table) → Fin (tcTables nBuf tb) → BufTy
  | .hbm, ⟨0, _⟩ => ⟨S4x16x512, .f32⟩
  | .hbm, ⟨1, _⟩ => ⟨S31999x512, .f32⟩
  | .hbm, ⟨2, _⟩ => ⟨S576000, .i32⟩
  | .hbm, ⟨3, _⟩ => ⟨S576000, .f32⟩
  | .hbm, ⟨4, _⟩ => ⟨S576000, .f32⟩
  | .hbm, ⟨5, _⟩ => ⟨S4x16x31999, .f32⟩
  | .hbm, ⟨6, _⟩ => ⟨S4x16x31999, .f32⟩
  | .hbm, ⟨7, _⟩ => ⟨S4x16x31999, .f32⟩
  | .hbm, ⟨8, _⟩ => ⟨S_, .f32⟩
  | .hbm, ⟨9, _⟩ => ⟨S4x16x31999, .f32⟩
  | .hbm, ⟨10, _⟩ => ⟨S4x16x31999, .f32⟩
  | .hbm, ⟨11, _⟩ => ⟨S_, .f32⟩
  | .hbm, ⟨12, _⟩ => ⟨S4x16x31999, .f32⟩
  | .hbm, ⟨13, _⟩ => ⟨S4x16x31999, .f32⟩
  | .hbm, ⟨14, _⟩ => ⟨S_, .i32⟩
  | .hbm, ⟨15, _⟩ => ⟨S576000, .i32⟩
  | .hbm, ⟨16, _⟩ => ⟨S576000, .i1⟩
  | .hbm, ⟨17, _⟩ => ⟨S_, .i32⟩
  | .hbm, ⟨18, _⟩ => ⟨S576000, .i32⟩
  | .hbm, ⟨19, _⟩ => ⟨S576000, .i32⟩
  | .hbm, ⟨20, _⟩ => ⟨S576000, .i32⟩
  | .hbm, ⟨21, _⟩ => ⟨S576000x1, .i32⟩
  | .hbm, ⟨22, _⟩ => ⟨S1, .i32⟩
  | .hbm, ⟨23, _⟩ => ⟨S_, .i32⟩
  | .hbm, ⟨24, _⟩ => ⟨S576000x1, .i32⟩
  | .hbm, ⟨25, _⟩ => ⟨S576000x1, .i1⟩
  | .hbm, ⟨26, _⟩ => ⟨S1x1, .i32⟩
  | .hbm, ⟨27, _⟩ => ⟨S576000x1, .i32⟩
  | .hbm, ⟨28, _⟩ => ⟨S576000x1, .i1⟩
  | .hbm, ⟨29, _⟩ => ⟨S576000x1, .i1⟩
  | .hbm, ⟨30, _⟩ => ⟨S_, .i1⟩
  | .hbm, ⟨31, _⟩ => ⟨S576000, .i1⟩
  | .hbm, ⟨32, _⟩ => ⟨S4x16x576000, .f32⟩
  | .hbm, ⟨33, _⟩ => ⟨S4x16x576000, .i1⟩
  | .hbm, ⟨34, _⟩ => ⟨S_, .f32⟩
  | .hbm, ⟨35, _⟩ => ⟨S4x16x576000, .f32⟩
  | .hbm, ⟨36, _⟩ => ⟨S4x16x576000, .f32⟩
  | .hbm, ⟨37, _⟩ => ⟨S1x1x576000, .f32⟩
  | .hbm, ⟨38, _⟩ => ⟨S4x16x576000, .f32⟩
  | .hbm, ⟨39, _⟩ => ⟨S4x16x576000, .f32⟩
  | .hbm, ⟨40, _⟩ => ⟨S1x1x576000, .f32⟩
  | .hbm, ⟨41, _⟩ => ⟨S4x16x576000, .f32⟩
  | .hbm, ⟨42, _⟩ => ⟨S4x16x576000, .f32⟩
  | .hbm, ⟨43, _⟩ => ⟨S4x16x32000x18, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x16x32000x18, .f32⟩
  | .hbm, ⟨48, _⟩ => ⟨S4x16x32000x18, .f32⟩
  | .hbm, ⟨49, _⟩ => ⟨S_, .f32⟩
  | .hbm, ⟨50, _⟩ => ⟨S4x16x32000x18, .f32⟩
  | .hbm, ⟨51, _⟩ => ⟨S4x16x32000x18, .f32⟩
  | .hbm, ⟨52, _⟩ => ⟨S4x16x32000x18, .f32⟩
  | .hbm, ⟨53, _⟩ => ⟨S_, .f32⟩
  | .hbm, ⟨54, _⟩ => ⟨S4x16x32000, .f32⟩
  | _, _ => ⟨S4x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v15 : Ref sig .tc := ⟨.hbm, 51, rfl⟩
abbrev main_v16 : Ref sig .tc := ⟨.hbm, 52, rfl⟩
abbrev main_cst_3 : Ref sig .tc := ⟨.hbm, 53, rfl⟩
abbrev main_v17 : Ref sig .tc := ⟨.hbm, 54, rfl⟩

abbrev nD : Nat := 1
abbrev τ : Topo := Topo.v7x

variable {F : FTy → Type} [FloatOps F]

class Facts₀ : Prop where
  bcast_S_S4x16x31999 : S_.BroadcastsInDim S4x16x31999 (![] : Fin 0 → Fin S4x16x31999.rank)
  bcast_S_S576000 : S_.BroadcastsInDim S576000 (![] : Fin 0 → Fin S576000.rank)
  bcast_S576000_S576000x1_0 : S576000.BroadcastsInDim S576000x1 (![0] : Fin 1 → Fin S576000x1.rank)
  bcast_S_S576000x1 : S_.BroadcastsInDim S576000x1 (![] : Fin 0 → Fin S576000x1.rank)
  bcast_S1_S1x1_1 : S1.BroadcastsInDim S1x1 (![1] : Fin 1 → Fin S1x1.rank)
  bcast_S1x1_S576000x1_0_1 : S1x1.BroadcastsInDim S576000x1 (![0, 1] : Fin 2 → Fin S576000x1.rank)
  reducesTo_S576000x1_S576000_d1 : S576000x1.ReducesTo [1] S576000
  h_S_ : 0 < S_.numel
  bcast_S576000_S4x16x576000_2 : S576000.BroadcastsInDim S4x16x576000 (![2] : Fin 1 → Fin S4x16x576000.rank)
  bcast_S_S4x16x576000 : S_.BroadcastsInDim S4x16x576000 (![] : Fin 0 → Fin S4x16x576000.rank)
  bcast_S576000_S1x1x576000_2 : S576000.BroadcastsInDim S1x1x576000 (![2] : Fin 1 → Fin S1x1x576000.rank)
  bcast_S1x1x576000_S4x16x576000_0_1_2 : S1x1x576000.BroadcastsInDim S4x16x576000 (![0, 1, 2] : Fin 3 → Fin S4x16x576000.rank)
  shapeCasts_S4x16x576000_S4x16x32000x18 : S4x16x576000.ShapeCasts S4x16x32000x18
  bcast_S_S4x16x32000x18 : S_.BroadcastsInDim S4x16x32000x18 (![] : Fin 0 → Fin S4x16x32000x18.rank)
  reducesTo_S4x16x32000x18_S4x16x32000_d3 : S4x16x32000x18.ReducesTo [3] S4x16x32000
  dot_S4x16x512_S31999x512_S4x16x31999_2_1_01_0_n_n_wf : DotDims.WF S4x16x512 S31999x512 S4x16x31999 [2] [1] [0, 1] [0] [] []
  gather_S4x16x31999_S576000x1_S4x16x576000_01_2_n_n_2_1_4161_wf : GatherDims.WF S4x16x31999 S576000x1 S4x16x576000 [0, 1] [2] [] [2] [] 1 ![4, 16, 1]

variable [Facts₀]

def dot_S4x16x512_S31999x512_S4x16x31999_2_1_01_0_n_n : DotDims S4x16x512 S31999x512 S4x16x31999 where
  lhsContracting := [2]
  rhsContracting := [1]
  lhsNonContracting := [0, 1]
  rhsNonContracting := [0]
  lhsBatch := []
  rhsBatch := []
  wf := dot_S4x16x512_S31999x512_S4x16x31999_2_1_01_0_n_n_wf
def gather_S4x16x31999_S576000x1_S4x16x576000_01_2_n_n_2_1_4161 : GatherDims S4x16x31999 S576000x1 S4x16x576000 where
  offsetDims := [0, 1]
  collapsedSliceDims := [2]
  operandBatchingDims := []
  startIndicesBatchingDims := []
  startIndexMap := [2]
  indexVectorDim := 1
  sliceSizes := ![4, 16, 1]
  wf := gather_S4x16x31999_S576000x1_S4x16x576000_01_2_n_n_2_1_4161_wf

class Facts : Prop extends Facts₀ where

variable [Facts]
-- ==== Proof.Blocks.lean ====
/-
  What the two kernel regions compute, as pure terms over the contents `V` a region finds in the
  TensorCore's buffers when it is entered.

  A window's block at a grid point is the window's rectangle of its array read off `V`.
  Region 0 (ten points) stores, at point `t`, the product of the whole activation block with the
  `t`-th slab of 3200 weight rows: `hblock`.
  Region 1 runs over 125 × 25 points, point `n` being vocabulary chunk `n / 25` and table chunk `n % 25`.
  Its scratch is an accumulator: at table chunk 0 it is reset to zero and then, at every point, the
  product of the logits' 1280-column chunk with the indicator "column = path index" is added to it:
  `acc1` is the scratch after point `n`, by recursion on `n`.  At table chunk 24 the point also stores the
  output block `fin1`: the logistic of the accumulator, times sign, plus bias, clipped, its logarithm,
  and the sum over each vocabulary entry's 18 consecutive columns (a product with a 0/1 matrix).
-/
import proofs.«403175_j63316407877909_2_alg».proof.Proof.Gen.KernelIdeal.Launch
import proofs.«403175_j63316407877909_2_alg».proof.Proof.Gen.KernelIdeal.Skeleton
import proofs.«403175_j63316407877909_2_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (V : (c : Dev nD) → (b : Ref sig .tc) → Buf (Elt F) ((c : Thread nD τ).loc b))

/-- Region 0, window `w`'s block at point `t`: the window's rectangle of its array, read off `V`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Region 1, window `w`'s block at point `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- What region 0's body stores: activations [64, 512] times the transposed weight slab [3200, 512]. -/
def hblock (x : Vec F S64x512 .bf16) (w : Vec F S3200x512 .bf16) : Vec F S64x3200 .bf16 := k0_pay1 x w

/-- Region 1's scratch accumulator after point `n`: the point's one-hot product added to zero at table
    chunk 0, to what the point before left otherwise. -/
def acc1 (c : Dev nD) : (n : ℕ) → n < cfg1.N → Vec F S64x4608 .f32
  | 0, hn => k1_pay2 (grid1.coords ⟨0, hn⟩) (iblk1 V c 1 ⟨0, hn⟩) (iblk1 V c 0 ⟨0, hn⟩) k1_pay1
  | n + 1, hn => k1_pay2 (grid1.coords ⟨n + 1, hn⟩) (iblk1 V c 1 ⟨n + 1, hn⟩) (iblk1 V c 0 ⟨n + 1, hn⟩)
      (if (n + 1) % 25 = 0 then k1_pay1 else acc1 c n (Nat.lt_of_succ_lt hn))

/-- The output block region 1's body stores at a point of table chunk 24, from the accumulator there. -/
def fin1 (c : Dev nD) (t : Fin cfg1.N) : Vec F S64x256 .f32 :=
  k1_pay3 (k1_pay4 (acc1 V c t.val t.isLt) (iblk1 V c 2 t) (iblk1 V c 3 t)) k1_pay5 (Scalar.ofBits .f32 0x3F800000#32)

theorem acc1_zero (c : Dev nD) (hn : 0 < cfg1.N) :
    acc1 V c 0 hn = k1_pay2 (grid1.coords ⟨0, hn⟩) (iblk1 V c 1 ⟨0, hn⟩) (iblk1 V c 0 ⟨0, hn⟩) k1_pay1 := rfl

theorem acc1_succ (c : Dev nD) (n : ℕ) (hn : n + 1 < cfg1.N) :
    acc1 V c (n + 1) hn = k1_pay2 (grid1.coords ⟨n + 1, hn⟩) (iblk1 V c 1 ⟨n + 1, hn⟩) (iblk1 V c 0 ⟨n + 1, hn⟩)
      (if (n + 1) % 25 = 0 then k1_pay1 else acc1 V c n (Nat.lt_of_succ_lt hn)) := rfl

end Cert.KernelIdeal.Hand

end
-- ==== Proof.Region0.lean ====
/-
  Region 0 (the linear stage): the proof data of its pipeline and the body's obligation, at any contents `V`
  the region finds.  After the body at point `t` the two input windows hold their blocks and the output window
  holds `hblock` of them.
-/
import proofs.«403175_j63316407877909_2_alg».proof.Proof.Blocks
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hblock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = hblock (iblk0 V c 0 t) (iblk0 V c 1 t) := by dsimp only [dat0]

/-! ## What the body finds in the input windows

Neither input window is cut and neither has an idle point, and the body leaves an input's block where it
found it.  So at every point the current staging buffer of an input holds the window's block there: where
the window is fetched the fetch has put it there, and where it is not (window 0 after the first point) the
block index has not moved since the last fetch. -/

private theorem before0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := by
    intro s
    rw [after0_0]
    unfold Dat.blockOf iblk0
    rw [A_eq0]
  rw [(dat0 V c).before_in_eq_fetched 0 rfl (fun _ => rfl) (fun _ _ _ => rfl) keep t d]
  unfold Dat.fetched Dat.blockOf iblk0
  rw [A_eq0]
  -- the window is not cut: what the fetch fills in is the whole block
  rfl

private theorem before0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := by
    intro s
    rw [after0_1]
    unfold Dat.blockOf iblk0
    rw [A_eq0]
  rw [(dat0 V c).before_in_eq_fetched 1 rfl (fun _ => rfl) (fun _ _ _ => rfl) keep t d]
  unfold Dat.fetched Dat.blockOf iblk0
  rw [A_eq0]
  -- the window is not cut: what the fetch fills in is the whole block
  rfl

/-! ## The body on whole buffers

The body loads the activations and the weight slab whole, loads the output buffer (a value nothing reads),
and stores `k0_pay1` of the two loads over the whole output buffer.  One store through the whole-shape
rectangle covers the buffer, so the buffer reads back as the stored value; and a load through the
whole-shape rectangle reads the contents themselves. -/

/-- The offsets of the whole-shape rectangle of a rank-two shape are zero on both axes. -/
private theorem zero_offsets : (![0, 0] : Fin 2 → ℕ) = fun _ => 0 := by
  funext a; fin_cases a <;> rfl

/-- The one store, through the whole-shape rectangle, covers the output buffer. -/
private theorem store_covers (p : Vec F S64x3200 .bf16) (y : S64x3200.Idx) :
    ∃ pc ∈ ([⟨Rect.unit (s := S64x3200) ![0, 0] S64x3200.size inb_S64x3200_S64x3200_0_0, p⟩] :
      List (View.Piece (Elt F) S64x3200 .bf16)), y ∈ pc.1.set :=
  ⟨_, List.mem_singleton_self _, View.mem_set_unit_zero zero_offsets inb_S64x3200_S64x3200_0_0 y⟩

set_option maxHeartbeats 1000000 in
/-- On whole memrefs, the inputs owned at `x0`, `x1` and the output at anything, the body runs to the
    continuation with the inputs as they were and the output at `hblock x0 x1`. -/
private theorem sound_kernel0 (c : Dev nD) (E : Set ℕ) (i : grid0.Coords)
    (a0 : Memref sig .tc .vmem S64x512 .bf16) (h0 : a0.IsWhole)
    (a1 : Memref sig .tc .vmem S3200x512 .bf16) (h1 : a1.IsWhole)
    (a2 : Memref sig .tc .vmem S64x3200 .bf16) (h2 : a2.IsWhole)
    (x0 : Vec F S64x512 .bf16) (x1 : Vec F S3200x512 .bf16) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (hblock x0 x1)) -∗ K ⟨⟩))
      ⊢ wp frame (wpE (defs₀ (F := F)) Variants.none c none) E (cc0__linear_kernel i a0 h0 a1 h1 a2 h2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0
    isplitr
    · ipureintro; rfl
    · iexact H0
  isplitl [H1]
  · iexists f1
    isplitr
    · ipureintro; rfl
    · iexact H1
  iexists _
  isplitr
  -- the ownership first: it names the output buffer's contents, the store's writes over what was there
  swap
  · iexact H2
  ipureintro
  -- those contents read, after the one covering store, as the stored value; and the two whole loads read the
  -- inputs' contents
  rw [View.read_writes_eq_canon _ _ _ (store_covers _), View.canon_unit_zero (S := S64x3200) zero_offsets,
    View.readAt_eq_ld, View.readAt_eq_ld, View.ld_unit_zero (S := S64x512) zero_offsets,
    View.ld_unit_zero (S := S3200x512) zero_offsets]
  rfl

/-! ## The body at a grid point

At point `t` the two input buffers hold the windows' blocks there, so the body leaves them in place and the
output buffer at `hblock` of them, which is what the proof data say it leaves.  The invariant and what the
core owes are not touched by the body and are the same before and after the point. -/

/-- What the body is handed at point `t`, window by window. -/
private def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
private def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

private theorem sound_body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

/-- The library's body obligation for region 0, at every point. -/
theorem body_obligation0 (c : Dev nD) :
    BodyObligation (dat0 (F := F) V c) (defs₀ (F := F)) Variants.none () Set.univ := by
  intro t
  rw [bigSep_W0, bigSep_W0]
  exact sound_body0 V c t

end Cert.KernelIdeal.Hand

end
-- ==== Proof.Region1Runs.lean ====
/-
  Region 1's kernel body on whole memrefs, in its three control cases.  The body resets the accumulator when the
  table-chunk coordinate is 0, adds the point's one-hot product to it at every point, and at table chunk 24 also
  stores the output block computed from the accumulator.  In each case: the four input memrefs come back as
  they were, the accumulator ends at `k1_pay2` of the inputs and of what it held (zero after a reset), and the
  output memref is either handed back untouched or holds `k1_pay3 (k1_pay4 …) k1_pay5 1`.
-/
import proofs.«403175_j63316407877909_2_alg».proof.Proof.Blocks
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The table-chunk coordinate is 0: the accumulator is reset at this point. -/
abbrev condReset (i : grid1.Coords) : Prop :=
  (Scalar.cmpi .ne (Scalar.extui (Scalar.cmpi .eq (BitVec.ofNat 32 (i 1).val) 0#32)) 0#32) = 1#1
/-- The table-chunk coordinate is 24: the output block is stored at this point. -/
abbrev condFin (i : grid1.Coords) : Prop := k1_cond2 i = 1#1

/-- The zero offsets of a rank-2 whole-buffer access, as the constant function. -/
private theorem off2 : (![0, 0] : Fin 2 → ℕ) = fun _ => 0 := by funext a; fin_cases a <;> rfl
/-- The zero offsets of a rank-3 whole-buffer access, as the constant function. -/
private theorem off3 : (![0, 0, 0] : Fin 3 → ℕ) = fun _ => 0 := by funext a; fin_cases a <;> rfl

/-- A load of the whole shape at zero offsets, through a whole memref held at the contents that read `X`, reads `X`. -/
private theorem readAt_unit_unread {κ : Kind} {sp : Space} {s : Shape} {e : EltTy} {m : Memref sig κ sp s e} (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread, View.ld_unit_zero ho]

/-- A buffer whose LAST store was of the whole shape at zero offsets reads that store's payload, whatever the earlier
    stores and the prior contents were. -/
private theorem read_writes_unit_head {κ : Kind} {sp : Space} {s : Shape} {e : EltTy} (v : View sig κ sp s e)
    (f : v.ty.Contents (Elt F)) {off : Fin s.rank → ℕ} (ho : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self .., View.mem_set_unit_zero ho inb y⟩),
    View.canon_cons_unit_zero ho]

set_option maxHeartbeats 1000000 in
/-- First table chunk: the accumulator, at anything, is reset and ends at the point's product added to zero;
    the output memref is not touched. -/
theorem sound_kernel1_A (c : Dev nD) (E : Set ℕ) (i : grid1.Coords) (hc1 : condReset i) (hc2 : ¬condFin i)
    (arg2 : Memref sig .tc .vmem S64x1280 .bf16) (harg2 : arg2.IsWhole) (arg3 : Memref sig .tc .vmem S1x1x4608 .i32) (harg3 : arg3.IsWhole) (arg4 : Memref sig .tc .vmem S1x1x4608 .f32) (harg4 : arg4.IsWhole) (arg5 : Memref sig .tc .vmem S1x1x4608 .f32) (harg5 : arg5.IsWhole) (arg6 : Memref sig .tc .vmem S64x256 .f32) (harg6 : arg6.IsWhole) (arg7 : Memref sig .tc .vmem S64x4608 .f32) (harg7 : arg7.IsWhole)
    (x0 : Vec F S64x1280 .bf16) (x1 : Vec F S1x1x4608 .i32) (x2 : Vec F S1x1x4608 .f32) (x3 : Vec F S1x1x4608 .f32) (xo : Vec F S64x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare (k1_pay2 i x1 x0 k1_pay1)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hfo
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr
  swap; · iexact HS
  ipureintro
  -- the accumulator's last store was of the whole block: it reads that store's payload, whose loads read the inputs'
  -- contents and, from the accumulator, the zero block the reset stored
  sl_unfold_run_names
  rw [read_writes_unit_head _ _ off2, View.readCov_unit_zero _ off2, readAt_unit_unread harg3 x1 off3,
    readAt_unit_unread harg2 x0 off2]

set_option maxHeartbeats 1000000 in
/-- A middle table chunk: the accumulator at `xs` ends at the point's product added to `xs`; the output memref is
    not touched. -/
theorem sound_kernel1_B (c : Dev nD) (E : Set ℕ) (i : grid1.Coords) (hc1 : ¬condReset i) (hc2 : ¬condFin i)
    (arg2 : Memref sig .tc .vmem S64x1280 .bf16) (harg2 : arg2.IsWhole) (arg3 : Memref sig .tc .vmem S1x1x4608 .i32) (harg3 : arg3.IsWhole) (arg4 : Memref sig .tc .vmem S1x1x4608 .f32) (harg4 : arg4.IsWhole) (arg5 : Memref sig .tc .vmem S1x1x4608 .f32) (harg5 : arg5.IsWhole) (arg6 : Memref sig .tc .vmem S64x256 .f32) (harg6 : arg6.IsWhole) (arg7 : Memref sig .tc .vmem S64x4608 .f32) (harg7 : arg7.IsWhole)
    (x0 : Vec F S64x1280 .bf16) (x1 : Vec F S1x1x4608 .i32) (x2 : Vec F S1x1x4608 .f32) (x3 : Vec F S1x1x4608 .f32) (xo : Vec F S64x256 .f32) (xs : Vec F S64x4608 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare (k1_pay2 i x1 x0 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr
  swap; · iexact HS
  ipureintro
  -- the accumulator's one store was of the whole block: it reads that store's payload, whose loads read the inputs'
  -- contents and what the accumulator held
  sl_unfold_run_names
  rw [read_writes_unit_head _ _ off2, readAt_unit_unread harg3 x1 off3, readAt_unit_unread harg2 x0 off2,
    readAt_unit_unread harg7 xs off2]

set_option maxHeartbeats 1000000 in
/-- Last table chunk: the accumulator at `xs` ends at the point's product added to `xs`, and the output memref,
    at anything, ends at the block computed from that accumulator. -/
theorem sound_kernel1_C (c : Dev nD) (E : Set ℕ) (i : grid1.Coords) (hc1 : ¬condReset i) (hc2 : condFin i)
    (arg2 : Memref sig .tc .vmem S64x1280 .bf16) (harg2 : arg2.IsWhole) (arg3 : Memref sig .tc .vmem S1x1x4608 .i32) (harg3 : arg3.IsWhole) (arg4 : Memref sig .tc .vmem S1x1x4608 .f32) (harg4 : arg4.IsWhole) (arg5 : Memref sig .tc .vmem S1x1x4608 .f32) (harg5 : arg5.IsWhole) (arg6 : Memref sig .tc .vmem S64x256 .f32) (harg6 : arg6.IsWhole) (arg7 : Memref sig .tc .vmem S64x4608 .f32) (harg7 : arg7.IsWhole)
    (x0 : Vec F S64x1280 .bf16) (x1 : Vec F S1x1x4608 .i32) (x2 : Vec F S1x1x4608 .f32) (x3 : Vec F S1x1x4608 .f32) (xs : Vec F S64x4608 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay3 (k1_pay4 (k1_pay2 i x1 x0 xs) x2 x3) k1_pay5 (Scalar.ofBits .f32 0x3F800000#32))
            ∗ owns (c : Thread nD τ) arg7 fullShare (k1_pay2 i x1 x0 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%do_, %fo, -, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr
    swap; · iexact Ho
    ipureintro
    -- the output's one store was of the whole block; its payload is over the accumulator read back after its own
    -- whole-block store, and over the third and fourth inputs' blocks as loaded
    sl_unfold_run_names
    rw [read_writes_unit_head _ _ off2, View.readCov_unit_zero _ off2, readAt_unit_unread harg3 x1 off3,
      readAt_unit_unread harg2 x0 off2, readAt_unit_unread harg7 xs off2, readAt_unit_unread harg4 x2 off3,
      readAt_unit_unread harg5 x3 off3]
  iexists _; isplitr
  swap; · iexact HS
  ipureintro
  sl_unfold_run_names
  rw [read_writes_unit_head _ _ off2, readAt_unit_unread harg3 x1 off3, readAt_unit_unread harg2 x0 off2,
    readAt_unit_unread harg7 xs off2]

end Cert.KernelIdeal.Hand

end
-- ==== Proof.Region1.lean ====
/-
  Region 1 (gather, clip, log, depth sum): the proof data of its pipeline, the invariant that carries the
  accumulator scratch from point to point, and the body's obligation, at any contents `V` the region finds.
  Before the first point the invariant is the class's (every scoped buffer no window stages at anything, the
  generator register at some state); after point `n` the scratch holds `acc1 V c n`.  After the body at point
  `t` the four input windows hold their blocks; the output window holds `fin1 V c t` at the points of table
  chunk 24 and is idle elsewhere.
-/
import proofs.«403175_j63316407877909_2_alg».proof.Proof.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch operand: the whole scoped buffer the kernel accumulates in. -/
abbrev scM1 : Memref sig .tc .vmem S64x4608 .f32 := Memref.whole cc1_scratch0

/-- The scoped buffers of the other region's staging, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region invariant before position `n`. -/
def PhiS1 (c : Dev nD) : (n : ℕ) → n ≤ cfg1.N → sProp 𝕄
  | 0, _ => Pipeline.ΦA spec1 c
  | n + 1, hn => iprop(others1 (F := F) c ∗ owns (c : Thread nD τ) scM1 fullShare (acc1 V c n hn) ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fin1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = fin1 V c t := by dsimp only [dat1]

/-! ## The two conditions over the grid, and where the output window is idle -/

/-- The two conditions in closed form: the table-chunk coordinate of point t is t mod 25. -/
theorem hcond1 : ∀ t : Fin cfg1.N, (condReset (grid1.coords t) ↔ t.val % 25 = 0) ∧ (condFin (grid1.coords t) ↔ t.val % 25 = 24) :=
  (by decide +kernel : ∀ t : Fin grid1.N, (condReset (grid1.coords t) ↔ t.val % 25 = 0) ∧ (condFin (grid1.coords t) ↔ t.val % 25 = 24))

theorem hcondReset (t : Fin cfg1.N) : condReset (grid1.coords t) ↔ t.val % 25 = 0 := (hcond1 t).1
theorem hcondFin (t : Fin cfg1.N) : condFin (grid1.coords t) ↔ t.val % 25 = 24 := (hcond1 t).2

/-- The input windows are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

/-- Away from table chunk 24 the output window is idle, -/
theorem idleAt1_4 (t : Fin cfg1.N) (h : ¬condFin (grid1.coords t)) : cfg1.idle 4 (grid1.coords t) = true := by
  show (!(k1_cond2 (grid1.coords t) == 1#1)) = true
  rw [Bool.not_eq_true', beq_eq_false_iff_ne]
  exact h

/-- and is not written back; -/
theorem noFlush1_4 (t : Fin cfg1.N) (h : ¬t.val % 25 = 24) : (cfg1.win 4).flush t = false :=
  Bool.eq_false_iff.mpr fun hf => h ((flush1_4 t).mp hf)

/-- at table chunk 24 it is live. -/
theorem liveAt1_4 (t : Fin cfg1.N) (h : condFin (grid1.coords t)) : cfg1.idle 4 (grid1.coords t) = false := by
  show (!(k1_cond2 (grid1.coords t) == 1#1)) = false
  rw [Bool.not_eq_false', beq_iff_eq]
  exact h

/-! ## The class's invariant with the accumulator apart -/

/-- The class's invariant: the other region's staging buffers, the accumulator at some contents, the
    generator register at some state. -/
theorem PhiA1_split (c : Dev nD) :
    (Pipeline.ΦA spec1 c : sProp 𝕄)
      ⊢ iprop(others1 (F := F) c ∗ (∃ d, owns (c : Thread nD τ) scM1 fullShare d) ∗ (∃ r, prngReg c r)) := by
  unfold Pipeline.ΦA others1; rw [scopedRest1_eq]; simp only [scM1, owns_whole]
  iintro ⟨⟨H0, H1, H2, H3, H4, HS⟩, Hg⟩
  isplitl [H0 H1 H2 H3 H4]
  · isplitl [H0]; · iexact H0
    isplitl [H1]; · iexact H1
    isplitl [H2]; · iexact H2
    isplitl [H3]; · iexact H3
    iexact H4
  isplitl [HS]; · iexact HS
  iexact Hg

theorem PhiA1_join (c : Dev nD) :
    iprop(others1 (F := F) c ∗ (∃ d, owns (c : Thread nD τ) scM1 fullShare d) ∗ (∃ r, prngReg c r))
      ⊢ (Pipeline.ΦA spec1 c : sProp 𝕄) := by
  unfold Pipeline.ΦA others1; rw [scopedRest1_eq]; simp only [scM1, owns_whole]
  iintro ⟨⟨H0, H1, H2, H3, H4⟩, HS, Hg⟩
  isplitl [H0 H1 H2 H3 H4 HS]
  · isplitl [H0]; · iexact H0
    isplitl [H1]; · iexact H1
    isplitl [H2]; · iexact H2
    isplitl [H3]; · iexact H3
    isplitl [H4]; · iexact H4
    iexact HS
  iexact Hg

theorem PhiA1_eq (c : Dev nD) :
    (Pipeline.ΦA spec1 c : sProp 𝕄)
      = iprop(others1 (F := F) c ∗ (∃ d, owns (c : Thread nD τ) scM1 fullShare d) ∗ (∃ r, prngReg c r)) :=
  BI.equiv_iff.mp ⟨PhiA1_split c, PhiA1_join c⟩

/-! ## The input windows' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The invariant, position by position -/

theorem PhiS1_zero (c : Dev nD) (n : ℕ) (h : n ≤ cfg1.N) (hz : n = 0) : PhiS1 V c n h = Pipeline.ΦA spec1 c := by
  subst hz; rfl

/-- After point n: the accumulator at that point's contents. -/
theorem PhiS1_succ (c : Dev nD) (n : ℕ) (hn : n < cfg1.N) :
    PhiS1 V c (n + 1) hn = iprop(others1 (F := F) c ∗ owns (c : Thread nD τ) scM1 fullShare (acc1 V c n hn) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(others1 (F := F) c ∗ owns (c : Thread nD τ) scM1 fullShare (acc1 V c (n - 1) (by omega)) ∗ (∃ r, prngReg c r)) := by
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- At a point of table chunk 0 the accumulator ends at the point's product added to zero. -/
theorem acc1_reset (c : Dev nD) (t : Fin cfg1.N) (h0 : t.val % 25 = 0) :
    acc1 V c t.val t.isLt = k1_pay2 (grid1.coords t) (iblk1 V c 1 t) (iblk1 V c 0 t) k1_pay1 := by
  obtain ⟨n, hn⟩ := t
  cases n with
  | zero => exact acc1_zero V c hn
  | succ n =>
    dsimp only at h0
    exact (acc1_succ V c n hn).trans (by rw [if_pos h0])

/-- At any other point it ends at the point's product added to what the point before left. -/
theorem acc1_step (c : Dev nD) (t : Fin cfg1.N) (h0 : ¬t.val % 25 = 0) :
    acc1 V c t.val t.isLt = k1_pay2 (grid1.coords t) (iblk1 V c 1 t) (iblk1 V c 0 t)
      (acc1 V c (t.val - 1) (Nat.lt_of_le_of_lt (Nat.sub_le _ _) t.isLt)) := by
  obtain ⟨n, hn⟩ := t
  cases n with
  | zero => exact absurd (Nat.zero_mod _) h0
  | succ n =>
    dsimp only at h0
    exact (acc1_succ V c n hn).trans (by rw [if_neg h0]; rfl)

/-! ## The body obligation at a generic point -/

/-- Each window's current staging memref at point t, as the pipeline passes it, and its wholeness. -/
abbrev ms1_0 (t : Fin cfg1.N) : Memref sig .tc .vmem S64x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4608 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4608 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x4608 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x256 .f32 := win1_4.stage (cfg1.slots t 4)
abbrev hs1_4 (t : Fin cfg1.N) : (ms1_4 t).IsWhole := hstage1_4 ((cfg1.slots t 4).cast nbuf1_4)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the input memrefs hold their blocks; the closed forms say which of the three control
    cases the point is in; the invariant hands the body the accumulator at what the point before left (at
    anything before the first point) and takes it back at this point's contents; the output memref comes back
    as found away from table chunk 24 and at the stored block there; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 25 = 0
  · have hR : condReset (grid1.coords t) := (hcondReset t).mpr h0
    have h24 : ¬t.val % 25 = 24 := by omega
    have hF : ¬condFin (grid1.coords t) := fun h => h24 ((hcondFin t).mp h)
    rw [Dat.leavesExact_idle (dat1 V c) 4 t (idleAt1_4 t hF) (noFlush1_4 t h24)]
    rw [acc1_reset V c t h0]
    by_cases hz : t.val = 0
    · rw [PhiS1_castSucc V c t, PhiS1_zero V c _ _ hz, PhiA1_eq]
      iintro ⟨⟨Hoth, HS, Hg⟩, Ho, ⟨%d0, H0⟩, ⟨%d1, H1⟩, ⟨%d2, H2⟩, ⟨%d3, H3⟩, ⟨%d4, H4⟩⟩
      iapply (sound_kernel1_A c Set.univ (grid1.coords t) hR hF (ms1_0 t) (hs1_0 t) (ms1_1 t) (hs1_1 t) (ms1_2 t) (hs1_2 t) (ms1_3 t) (hs1_3 t) (ms1_4 t) (hs1_4 t) scM1 (Memref.isWhole_whole _)
        (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply (sound_kernel1_A c Set.univ (grid1.coords t) hR hF (ms1_0 t) (hs1_0 t) (ms1_1 t) (hs1_1 t) (ms1_2 t) (hs1_2 t) (ms1_3 t) (hs1_3 t) (ms1_4 t) (hs1_4 t) scM1 (Memref.isWhole_whole _)
        (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hR : ¬condReset (grid1.coords t) := fun h => h0 ((hcondReset t).mp h)
    have hz : t.val ≠ 0 := by omega
    by_cases h24 : t.val % 25 = 24
    · have hF : condFin (grid1.coords t) := (hcondFin t).mpr h24
      rw [show (dat1 V c).leavesExact 4 t = owns (c : Thread nD τ) (ms1_4 t) fullShare ((dat1 V c).after 4 t) from by
        unfold Dat.leavesExact; rw [liveAt1_4 t hF], after1_4]
      unfold fin1
      rw [acc1_step V c t h0]
      rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply (sound_kernel1_C c Set.univ (grid1.coords t) hR hF (ms1_0 t) (hs1_0 t) (ms1_1 t) (hs1_1 t) (ms1_2 t) (hs1_2 t) (ms1_3 t) (hs1_3 t) (ms1_4 t) (hs1_4 t) scM1 (Memref.isWhole_whole _)
        (iblk1 V c 0 t) (iblk1 V c 1 t) (iblk1 V c 2 t) (iblk1 V c 3 t) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexact H4
    · have hF : ¬condFin (grid1.coords t) := fun h => h24 ((hcondFin t).mp h)
      rw [Dat.leavesExact_idle (dat1 V c) 4 t (idleAt1_4 t hF) (noFlush1_4 t h24)]
      rw [acc1_step V c t h0]
      rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply (sound_kernel1_B c Set.univ (grid1.coords t) hR hF (ms1_0 t) (hs1_0 t) (ms1_1 t) (hs1_1 t) (ms1_2 t) (hs1_2 t) (ms1_3 t) (hs1_3 t) (ms1_4 t) (hs1_4 t) scM1 (Memref.isWhole_whole _)
        (iblk1 V c 0 t) (iblk1 V c 1 t) (iblk1 V c 2 t) (iblk1 V c 3 t) ((dat1 V c).before 4 t d4) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The library's body obligation for region 1, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hoth, HS, Hg⟩
  isplitl [Hoth]; · iexact Hoth
  isplitl [HS]; · iexists _; iexact HS
  iexact Hg

/-- After the last point the invariant gives the class's back: the accumulator's contents are forgotten. -/
theorem hout1 (c : Dev nD) : (dat1 V c).Φ (Fin.last cfg1.N) ⊢ Pipeline.ΦA spec1 c :=
  Phi_out1 V c _ (by rw [Fin.val_last]; have : cfg1.N = 3125 := N_1; omega)

end Cert.KernelIdeal.Hand

end
-- ==== Proof.Vals.lean ====
/-
  The contents of the TensorCore's unscoped buffers at every boundary between two items of the program, as a fold
  from the launch memory `m`: a stretch of host operations applies its operations; a kernel region leaves its
  windows' arrays at what its write-backs leave and every other buffer as it found it.
  `W3` is what region 0 is entered from, `W4` what it leaves; `W5` what region 1 is entered from, `W6` what it
  leaves; `W7` the contents when the program returns.
-/
import proofs.«403175_j63316407877909_2_alg».proof.Proof.Region0
import proofs.«403175_j63316407877909_2_alg».proof.Proof.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the reshape and rounding of the activations. -/
abbrev W1 (c : Dev nD) : Valuation τ sig (Elt F) := StableHlo.after hostOps0 (W0 m c)
/-- After the padding of the weight table by one zero row. -/
abbrev W2 (c : Dev nD) : Valuation τ sig (Elt F) := StableHlo.after hostOps0_1 (W1 m c)
/-- After the rounding of the padded table: region 0's entry. -/
abbrev W3 (c : Dev nD) : Valuation τ sig (Elt F) := StableHlo.after hostOps0_2 (W2 m c)
/-- The same read at the TensorCore's references. -/
abbrev V3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- After the three reshapes of the path arrays: region 1's entry. -/
abbrev W5 (c : Dev nD) : Valuation τ sig (Elt F) := StableHlo.after hostOps1 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- After the final reshape: the contents at the return. -/
abbrev W7 (c : Dev nD) : Valuation τ sig (Elt F) := StableHlo.after hostOps2 (W6 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

end Cert.KernelIdeal.Hand

end
-- ==== Proof.Run.lean ====
/-
  The whole program's run: the program as seven segments in order — three stretches of host operations, region 0,
  a stretch, region 1, a stretch — each region entered from the contents the segment before it left and left at its
  arrays' final contents, every other unscoped buffer as entered.  Every weakly fair execution terminates and the
  final memory holds every unscoped buffer at the last boundary's contents `W7`; the argument arrays are read back
  through the fold to their launch contents, since no host operation and no region writes one.
-/
import proofs.«403175_j63316407877909_2_alg».proof.Proof.Vals
import proofs.«403175_j63316407877909_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of both pipelines and what rides beside the buffers -/

/-- Both pipelines' proof data, each at the contents its region is entered from. -/
private def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c

private abbrev 𝒱₀ : Variants := Variants.none
/-- No core owes another anything: no pair carries a level. -/
private abbrev L : GSem nD τ sig → Finset Unit := fun _ => ∅
private abbrev lv : GSem nD τ sig → Unit → ℕ := fun _ _ => 0

/-- Beside the unscoped buffers every segment carries the core's generator register at some state and the core
    owing nothing. -/
private abbrev R (c : Dev nD) : sProp 𝕄 :=
  iprop((∃ r, prngReg c r) ∗ ∃ W, owes (c : Thread nD τ) (0 : CellTallies nD τ sig Unit) W)

/-- A stretch of host operations run from the contents W: it leaves the unscoped buffers at the operations' fold
    over W, the riding state untouched. -/
private abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what is owed: every unscoped buffer at the contents at the return, the generator
    register at some state. -/
private abbrev Tₙ (c : Dev nD) : sProp 𝕄 :=
  iprop(StableHlo.held (c : Thread nD τ) (Pipeline.ucRefs τ sig) (W7 m c) ∗ ∃ r, prngReg c r)

/-- What the last host stretch leaves is the last thread state beside the core owing nothing: the same three
    conjuncts, bracketed the other way. -/
private theorem post_last (c : Dev nD) :
    iprop(StableHlo.held (c : Thread nD τ) (Pipeline.ucRefs τ sig) (W7 m c)
        ∗ (∃ r, prngReg c r) ∗ ∃ W, owes (c : Thread nD τ) (0 : CellTallies nD τ sig Unit) W)
      ⊢ (iprop((StableHlo.held (c : Thread nD τ) (Pipeline.ucRefs τ sig) (W7 m c) ∗ ∃ r, prngReg c r)
        ∗ ∃ W, owes (c : Thread nD τ) (0 : CellTallies nD τ sig Unit) W) : sProp 𝕄) := by
  iintro ⟨Hh, Hp, HO⟩
  isplitl [Hh Hp]
  · isplitl [Hh] <;> iassumption
  iexact HO

/-! ## The two regions as segments -/

set_option backward.isDefEq.respectTransparency.types false in
/-- Region 0, entered from every unscoped buffer at W3 and left at W4.  Its three arrays are split out of the
    unscoped buffers at entry and put back at their final contents at exit; the generator register goes into the
    invariant and comes back; nothing is owed. -/
private def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at W5 and left at W6.  As region 0, except that its invariant
    carries the accumulator from point to point: what the entry makes is the invariant before the first point, and
    the invariant after the last point forgets the accumulator's contents. -/
private def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (show Pipeline.ΦA spec1 c ⊢ (pdats m 1 c).Φ 0 from hin1 (V5 m) c)
    unfold Pipeline.ΦA
    iintro ⟨Hp, -, Hr⟩
    isplitl [Hr]; · iexact Hr
    iexact Hp
  hout c := by
    refine (show (pdats m 1 c).Φ (Fin.last _) ⊢ Pipeline.ΦA spec1 c from hout1 (V5 m) c).trans (?_ : Pipeline.ΦA spec1 c ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven segments, and the launch -/

/-- The seven segments in order: each host stretch run from the contents at its boundary, each region between the
    contents it is entered from and those it leaves. -/
private abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]

set_option backward.isDefEq.respectTransparency.types false in
/-- THE RUN: every weakly fair execution of the program terminates, nothing faulting, with every unscoped buffer of
    every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => post_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched

No host operation writes an argument array and neither region has one among its windows' arrays, so the fold at an
argument's buffer walks back, boundary by boundary, to the launch memory. -/

/-- A buffer that is written by no host stretch and is no window's array of either region holds at the return what
    it held at launch. -/
private theorem W7_of_untouched (c : Dev nD) (r : Ref sig .tc)
    (h6 : r ∉ hostOps2_W) (h5 : ∀ w, Pipeline.arrRef spec1 w ≠ r) (h4 : r ∉ hostOps1_W)
    (h3 : ∀ w, Pipeline.arrRef spec0 w ≠ r) (h2 : r ∉ hostOps0_2_W) (h1 : r ∉ hostOps0_1_W) (h0 : r ∉ hostOps0_W) :
    W7 m c (Proc.devRef .tc r) = m ((c : Thread nD τ).loc r) :=
  calc W7 m c (Proc.devRef .tc r)
    _ = W6 m c (Proc.devRef .tc r) := StableHlo.after_of_writes_sub hostOps2 _ hostOps2_writes h6
    _ = W5 m c (Proc.devRef .tc r) := W6_of_ne m c r h5
    _ = W4 m c (Proc.devRef .tc r) := StableHlo.after_of_writes_sub hostOps1 _ hostOps1_writes h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W7_main_arg0 (c : Dev nD) : W7 m c (Proc.devRef .tc main_arg0) = m ((c : Thread nD τ).loc main_arg0) :=
  W7_of_untouched m c main_arg0 (by decide) (by decide) (by decide) (by decide) (by decide) (by decide) (by decide)
theorem W7_main_arg1 (c : Dev nD) : W7 m c (Proc.devRef .tc main_arg1) = m ((c : Thread nD τ).loc main_arg1) :=
  W7_of_untouched m c main_arg1 (by decide) (by decide) (by decide) (by decide) (by decide) (by decide) (by decide)
theorem W7_main_arg2 (c : Dev nD) : W7 m c (Proc.devRef .tc main_arg2) = m ((c : Thread nD τ).loc main_arg2) :=
  W7_of_untouched m c main_arg2 (by decide) (by decide) (by decide) (by decide) (by decide) (by decide) (by decide)
theorem W7_main_arg3 (c : Dev nD) : W7 m c (Proc.devRef .tc main_arg3) = m ((c : Thread nD τ).loc main_arg3) :=
  W7_of_untouched m c main_arg3 (by decide) (by decide) (by decide) (by decide) (by decide) (by decide) (by decide)
theorem W7_main_arg4 (c : Dev nD) : W7 m c (Proc.devRef .tc main_arg4) = m ((c : Thread nD τ).loc main_arg4) :=
  W7_of_untouched m c main_arg4 (by decide) (by decide) (by decide) (by decide) (by decide) (by decide) (by decide)

end Cert.KernelIdeal.Hand

end
-- ==== Proof.KernelBits.Blocks.lean ====
/-
  What the two kernel regions compute, as pure terms over the contents `V` a region finds in the
  TensorCore's buffers when it is entered.

  A window's block at a grid point is the window's rectangle of its array read off `V`.
  Region 0 (ten points) stores, at point `t`, the product of the whole activation block with the
  `t`-th slab of 3200 weight rows: `hblock`.
  Region 1 runs over 125 × 25 points, point `n` being vocabulary chunk `n / 25` and table chunk `n % 25`.
  Its scratch is an accumulator: at table chunk 0 it is reset to zero and then, at every point, the
  product of the logits' 1280-column chunk with the indicator "column = path index" is added to it:
  `acc1` is the scratch after point `n`, by recursion on `n`.  At table chunk 24 the point also stores the
  output block `fin1`: the logistic of the accumulator, times sign, plus bias, clipped, its logarithm,
  and the sum over each vocabulary entry's 18 consecutive columns (a product with a 0/1 matrix).
-/
import proofs.«403175_j63316407877909_2_alg».proof.Proof.Gen.Kernel.Launch
import proofs.«403175_j63316407877909_2_alg».proof.Proof.Gen.Kernel.Skeleton
import proofs.«403175_j63316407877909_2_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]
variable (V : (c : Dev nD) → (b : Ref sig .tc) → Buf (Elt F) ((c : Thread nD τ).loc b))

/-- Region 0, window `w`'s block at point `t`: the window's rectangle of its array, read off `V`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Region 1, window `w`'s block at point `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- What region 0's body stores: activations [64, 512] times the transposed weight slab [3200, 512]. -/
def hblock (x : Vec F S64x512 .bf16) (w : Vec F S3200x512 .bf16) : Vec F S64x3200 .bf16 := k0_pay1 x w

/-- Region 1's scratch accumulator after point `n`: the point's one-hot product added to zero at table
    chunk 0, to what the point before left otherwise. -/
def acc1 (c : Dev nD) : (n : ℕ) → n < cfg1.N → Vec F S64x4608 .f32
  | 0, hn => k1_pay2 (grid1.coords ⟨0, hn⟩) (iblk1 V c 1 ⟨0, hn⟩) (iblk1 V c 0 ⟨0, hn⟩) k1_pay1
  | n + 1, hn => k1_pay2 (grid1.coords ⟨n + 1, hn⟩) (iblk1 V c 1 ⟨n + 1, hn⟩) (iblk1 V c 0 ⟨n + 1, hn⟩)
      (if (n + 1) % 25 = 0 then k1_pay1 else acc1 c n (Nat.lt_of_succ_lt hn))

/-- The output block region 1's body stores at a point of table chunk 24, from the accumulator there. -/
def fin1 (c : Dev nD) (t : Fin cfg1.N) : Vec F S64x256 .f32 :=
  k1_pay3 (k1_pay4 (acc1 V c t.val t.isLt) (iblk1 V c 2 t) (iblk1 V c 3 t)) k1_pay5 (Scalar.ofBits .f32 0x3F800000#32)

theorem acc1_zero (c : Dev nD) (hn : 0 < cfg1.N) :
    acc1 V c 0 hn = k1_pay2 (grid1.coords ⟨0, hn⟩) (iblk1 V c 1 ⟨0, hn⟩) (iblk1 V c 0 ⟨0, hn⟩) k1_pay1 := rfl

theorem acc1_succ (c : Dev nD) (n : ℕ) (hn : n + 1 < cfg1.N) :
    acc1 V c (n + 1) hn = k1_pay2 (grid1.coords ⟨n + 1, hn⟩) (iblk1 V c 1 ⟨n + 1, hn⟩) (iblk1 V c 0 ⟨n + 1, hn⟩)
      (if (n + 1) % 25 = 0 then k1_pay1 else acc1 V c n (Nat.lt_of_succ_lt hn)) := rfl

end Cert.Kernel.Hand

end
-- ==== Proof.KernelBits.Region0.lean ====
/-
  Region 0 (the linear stage): the proof data of its pipeline and the body's obligation, at any contents `V`
  the region finds.  After the body at point `t` the two input windows hold their blocks and the output window
  holds `hblock` of them.
-/
import proofs.«403175_j63316407877909_2_alg».proof.Proof.KernelBits.Blocks
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hblock (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = hblock (iblk0 V c 0 t) (iblk0 V c 1 t) := by dsimp only [dat0]

/-! ## What the body finds in the input windows

Neither input window is cut and neither has an idle point, and the body leaves an input's block where it
found it.  So at every point the current staging buffer of an input holds the window's block there: where
the window is fetched the fetch has put it there, and where it is not (window 0 after the first point) the
block index has not moved since the last fetch. -/

private theorem before0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := by
    intro s
    rw [after0_0]
    unfold Dat.blockOf iblk0
    rw [A_eq0]
  rw [(dat0 V c).before_in_eq_fetched 0 rfl (fun _ => rfl) (fun _ _ _ => rfl) keep t d]
  unfold Dat.fetched Dat.blockOf iblk0
  rw [A_eq0]
  -- the window is not cut: what the fetch fills in is the whole block
  rfl

private theorem before0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := by
    intro s
    rw [after0_1]
    unfold Dat.blockOf iblk0
    rw [A_eq0]
  rw [(dat0 V c).before_in_eq_fetched 1 rfl (fun _ => rfl) (fun _ _ _ => rfl) keep t d]
  unfold Dat.fetched Dat.blockOf iblk0
  rw [A_eq0]
  -- the window is not cut: what the fetch fills in is the whole block
  rfl

/-! ## The body on whole buffers

The body loads the activations and the weight slab whole, loads the output buffer (a value nothing reads),
and stores `k0_pay1` of the two loads over the whole output buffer.  One store through the whole-shape
rectangle covers the buffer, so the buffer reads back as the stored value; and a load through the
whole-shape rectangle reads the contents themselves. -/

/-- The offsets of the whole-shape rectangle of a rank-two shape are zero on both axes. -/
private theorem zero_offsets : (![0, 0] : Fin 2 → ℕ) = fun _ => 0 := by
  funext a; fin_cases a <;> rfl

/-- The one store, through the whole-shape rectangle, covers the output buffer. -/
private theorem store_covers (p : Vec F S64x3200 .bf16) (y : S64x3200.Idx) :
    ∃ pc ∈ ([⟨Rect.unit (s := S64x3200) ![0, 0] S64x3200.size inb_S64x3200_S64x3200_0_0, p⟩] :
      List (View.Piece (Elt F) S64x3200 .bf16)), y ∈ pc.1.set :=
  ⟨_, List.mem_singleton_self _, View.mem_set_unit_zero zero_offsets inb_S64x3200_S64x3200_0_0 y⟩

set_option maxHeartbeats 1000000 in
/-- On whole memrefs, the inputs owned at `x0`, `x1` and the output at anything, the body runs to the
    continuation with the inputs as they were and the output at `hblock x0 x1`. -/
private theorem sound_kernel0 (c : Dev nD) (E : Set ℕ) (i : grid0.Coords)
    (a0 : Memref sig .tc .vmem S64x512 .bf16) (h0 : a0.IsWhole)
    (a1 : Memref sig .tc .vmem S3200x512 .bf16) (h1 : a1.IsWhole)
    (a2 : Memref sig .tc .vmem S64x3200 .bf16) (h2 : a2.IsWhole)
    (x0 : Vec F S64x512 .bf16) (x1 : Vec F S3200x512 .bf16) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (hblock x0 x1)) -∗ K ⟨⟩))
      ⊢ wp frame (wpE (defs₀ (F := F)) Variants.none c none) E (cc0__linear_kernel i a0 h0 a1 h1 a2 h2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0
    isplitr
    · ipureintro; rfl
    · iexact H0
  isplitl [H1]
  · iexists f1
    isplitr
    · ipureintro; rfl
    · iexact H1
  iexists _
  isplitr
  -- the ownership first: it names the output buffer's contents, the store's writes over what was there
  swap
  · iexact H2
  ipureintro
  -- those contents read, after the one covering store, as the stored value; and the two whole loads read the
  -- inputs' contents
  rw [View.read_writes_eq_canon _ _ _ (store_covers _), View.canon_unit_zero (S := S64x3200) zero_offsets,
    View.readAt_eq_ld, View.readAt_eq_ld, View.ld_unit_zero (S := S64x512) zero_offsets,
    View.ld_unit_zero (S := S3200x512) zero_offsets]
  rfl

/-! ## The body at a grid point

At point `t` the two input buffers hold the windows' blocks there, so the body leaves them in place and the
output buffer at `hblock` of them, which is what the proof data say it leaves.  The invariant and what the
core owes are not touched by the body and are the same before and after the point. -/

/-- What the body is handed at point `t`, window by window. -/
private def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
private def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

private theorem sound_body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

/-- The library's body obligation for region 0, at every point. -/
theorem body_obligation0 (c : Dev nD) :
    BodyObligation (dat0 (F := F) V c) (defs₀ (F := F)) Variants.none () Set.univ := by
  intro t
  rw [bigSep_W0, bigSep_W0]
  exact sound_body0 V c t

end Cert.Kernel.Hand

end
-- ==== Proof.KernelBits.Region1Runs.lean ====
/-
  Region 1's kernel body on whole memrefs, in its three control cases.  The body resets the accumulator when the
  table-chunk coordinate is 0, adds the point's one-hot product to it at every point, and at table chunk 24 also
  stores the output block computed from the accumulator.  In each case: the four input memrefs come back as
  they were, the accumulator ends at `k1_pay2` of the inputs and of what it held (zero after a reset), and the
  output memref is either handed back untouched or holds `k1_pay3 (k1_pay4 …) k1_pay5 1`.
-/
import proofs.«403175_j63316407877909_2_alg».proof.Proof.KernelBits.Blocks
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The table-chunk coordinate is 0: the accumulator is reset at this point. -/
abbrev condReset (i : grid1.Coords) : Prop :=
  (Scalar.cmpi .ne (Scalar.extui (Scalar.cmpi .eq (BitVec.ofNat 32 (i 1).val) 0#32)) 0#32) = 1#1
/-- The table-chunk coordinate is 24: the output block is stored at this point. -/
abbrev condFin (i : grid1.Coords) : Prop := k1_cond2 i = 1#1

/-- The zero offsets of a rank-2 whole-buffer access, as the constant function. -/
private theorem off2 : (![0, 0] : Fin 2 → ℕ) = fun _ => 0 := by funext a; fin_cases a <;> rfl
/-- The zero offsets of a rank-3 whole-buffer access, as the constant function. -/
private theorem off3 : (![0, 0, 0] : Fin 3 → ℕ) = fun _ => 0 := by funext a; fin_cases a <;> rfl

/-- A load of the whole shape at zero offsets, through a whole memref held at the contents that read `X`, reads `X`. -/
private theorem readAt_unit_unread {κ : Kind} {sp : Space} {s : Shape} {e : EltTy} {m : Memref sig κ sp s e} (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread, View.ld_unit_zero ho]

/-- A buffer whose LAST store was of the whole shape at zero offsets reads that store's payload, whatever the earlier
    stores and the prior contents were. -/
private theorem read_writes_unit_head {κ : Kind} {sp : Space} {s : Shape} {e : EltTy} (v : View sig κ sp s e)
    (f : v.ty.Contents (Elt F)) {off : Fin s.rank → ℕ} (ho : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self .., View.mem_set_unit_zero ho inb y⟩),
    View.canon_cons_unit_zero ho]

set_option maxHeartbeats 1000000 in
/-- First table chunk: the accumulator, at anything, is reset and ends at the point's product added to zero;
    the output memref is not touched. -/
theorem sound_kernel1_A (c : Dev nD) (E : Set ℕ) (i : grid1.Coords) (hc1 : condReset i) (hc2 : ¬condFin i)
    (arg2 : Memref sig .tc .vmem S64x1280 .bf16) (harg2 : arg2.IsWhole) (arg3 : Memref sig .tc .vmem S1x1x4608 .i32) (harg3 : arg3.IsWhole) (arg4 : Memref sig .tc .vmem S1x1x4608 .f32) (harg4 : arg4.IsWhole) (arg5 : Memref sig .tc .vmem S1x1x4608 .f32) (harg5 : arg5.IsWhole) (arg6 : Memref sig .tc .vmem S64x256 .f32) (harg6 : arg6.IsWhole) (arg7 : Memref sig .tc .vmem S64x4608 .f32) (harg7 : arg7.IsWhole)
    (x0 : Vec F S64x1280 .bf16) (x1 : Vec F S1x1x4608 .i32) (x2 : Vec F S1x1x4608 .f32) (x3 : Vec F S1x1x4608 .f32) (xo : Vec F S64x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare (k1_pay2 i x1 x0 k1_pay1)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hfo
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr
  swap; · iexact HS
  ipureintro
  -- the accumulator's last store was of the whole block: it reads that store's payload, whose loads read the inputs'
  -- contents and, from the accumulator, the zero block the reset stored
  sl_unfold_run_names
  rw [read_writes_unit_head _ _ off2, View.readCov_unit_zero _ off2, readAt_unit_unread harg3 x1 off3,
    readAt_unit_unread harg2 x0 off2]

set_option maxHeartbeats 1000000 in
/-- A middle table chunk: the accumulator at `xs` ends at the point's product added to `xs`; the output memref is
    not touched. -/
theorem sound_kernel1_B (c : Dev nD) (E : Set ℕ) (i : grid1.Coords) (hc1 : ¬condReset i) (hc2 : ¬condFin i)
    (arg2 : Memref sig .tc .vmem S64x1280 .bf16) (harg2 : arg2.IsWhole) (arg3 : Memref sig .tc .vmem S1x1x4608 .i32) (harg3 : arg3.IsWhole) (arg4 : Memref sig .tc .vmem S1x1x4608 .f32) (harg4 : arg4.IsWhole) (arg5 : Memref sig .tc .vmem S1x1x4608 .f32) (harg5 : arg5.IsWhole) (arg6 : Memref sig .tc .vmem S64x256 .f32) (harg6 : arg6.IsWhole) (arg7 : Memref sig .tc .vmem S64x4608 .f32) (harg7 : arg7.IsWhole)
    (x0 : Vec F S64x1280 .bf16) (x1 : Vec F S1x1x4608 .i32) (x2 : Vec F S1x1x4608 .f32) (x3 : Vec F S1x1x4608 .f32) (xo : Vec F S64x256 .f32) (xs : Vec F S64x4608 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare (k1_pay2 i x1 x0 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfo; obtain rfl := harg7.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr; · ipureintro; exact harg6.read_unread _
    iexact Ho
  iexists _; isplitr
  swap; · iexact HS
  ipureintro
  -- the accumulator's one store was of the whole block: it reads that store's payload, whose loads read the inputs'
  -- contents and what the accumulator held
  sl_unfold_run_names
  rw [read_writes_unit_head _ _ off2, readAt_unit_unread harg3 x1 off3, readAt_unit_unread harg2 x0 off2,
    readAt_unit_unread harg7 xs off2]

set_option maxHeartbeats 1000000 in
/-- Last table chunk: the accumulator at `xs` ends at the point's product added to `xs`, and the output memref,
    at anything, ends at the block computed from that accumulator. -/
theorem sound_kernel1_C (c : Dev nD) (E : Set ℕ) (i : grid1.Coords) (hc1 : ¬condReset i) (hc2 : condFin i)
    (arg2 : Memref sig .tc .vmem S64x1280 .bf16) (harg2 : arg2.IsWhole) (arg3 : Memref sig .tc .vmem S1x1x4608 .i32) (harg3 : arg3.IsWhole) (arg4 : Memref sig .tc .vmem S1x1x4608 .f32) (harg4 : arg4.IsWhole) (arg5 : Memref sig .tc .vmem S1x1x4608 .f32) (harg5 : arg5.IsWhole) (arg6 : Memref sig .tc .vmem S64x256 .f32) (harg6 : arg6.IsWhole) (arg7 : Memref sig .tc .vmem S64x4608 .f32) (harg7 : arg7.IsWhole)
    (x0 : Vec F S64x1280 .bf16) (x1 : Vec F S1x1x4608 .i32) (x2 : Vec F S1x1x4608 .f32) (x3 : Vec F S1x1x4608 .f32) (xs : Vec F S64x4608 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay3 (k1_pay4 (k1_pay2 i x1 x0 xs) x2 x3) k1_pay5 (Scalar.ofBits .f32 0x3F800000#32))
            ∗ owns (c : Thread nD τ) arg7 fullShare (k1_pay2 i x1 x0 xs)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, ⟨%do_, %fo, -, Ho⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [Ho]
  · iexists _; isplitr
    swap; · iexact Ho
    ipureintro
    -- the output's one store was of the whole block; its payload is over the accumulator read back after its own
    -- whole-block store, and over the third and fourth inputs' blocks as loaded
    sl_unfold_run_names
    rw [read_writes_unit_head _ _ off2, View.readCov_unit_zero _ off2, readAt_unit_unread harg3 x1 off3,
      readAt_unit_unread harg2 x0 off2, readAt_unit_unread harg7 xs off2, readAt_unit_unread harg4 x2 off3,
      readAt_unit_unread harg5 x3 off3]
  iexists _; isplitr
  swap; · iexact HS
  ipureintro
  sl_unfold_run_names
  rw [read_writes_unit_head _ _ off2, readAt_unit_unread harg3 x1 off3, readAt_unit_unread harg2 x0 off2,
    readAt_unit_unread harg7 xs off2]

end Cert.Kernel.Hand

end
-- ==== Proof.KernelBits.Region1.lean ====
/-
  Region 1 (gather, clip, log, depth sum): the proof data of its pipeline, the invariant that carries the
  accumulator scratch from point to point, and the body's obligation, at any contents `V` the region finds.
  Before the first point the invariant is the class's (every scoped buffer no window stages at anything, the
  generator register at some state); after point `n` the scratch holds `acc1 V c n`.  After the body at point
  `t` the four input windows hold their blocks; the output window holds `fin1 V c t` at the points of table
  chunk 24 and is idle elsewhere.
-/
import proofs.«403175_j63316407877909_2_alg».proof.Proof.KernelBits.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch operand: the whole scoped buffer the kernel accumulates in. -/
abbrev scM1 : Memref sig .tc .vmem S64x4608 .f32 := Memref.whole cc1_scratch0

/-- The scoped buffers of the other region's staging, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region invariant before position `n`. -/
def PhiS1 (c : Dev nD) : (n : ℕ) → n ≤ cfg1.N → sProp 𝕄
  | 0, _ => Pipeline.ΦA spec1 c
  | n + 1, hn => iprop(others1 (F := F) c ∗ owns (c : Thread nD τ) scM1 fullShare (acc1 V c n hn) ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fin1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = fin1 V c t := by dsimp only [dat1]

/-! ## The two conditions over the grid, and where the output window is idle -/

/-- The two conditions in closed form: the table-chunk coordinate of point t is t mod 25. -/
theorem hcond1 : ∀ t : Fin cfg1.N, (condReset (grid1.coords t) ↔ t.val % 25 = 0) ∧ (condFin (grid1.coords t) ↔ t.val % 25 = 24) :=
  (by decide +kernel : ∀ t : Fin grid1.N, (condReset (grid1.coords t) ↔ t.val % 25 = 0) ∧ (condFin (grid1.coords t) ↔ t.val % 25 = 24))

theorem hcondReset (t : Fin cfg1.N) : condReset (grid1.coords t) ↔ t.val % 25 = 0 := (hcond1 t).1
theorem hcondFin (t : Fin cfg1.N) : condFin (grid1.coords t) ↔ t.val % 25 = 24 := (hcond1 t).2

/-- The input windows are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

/-- Away from table chunk 24 the output window is idle, -/
theorem idleAt1_4 (t : Fin cfg1.N) (h : ¬condFin (grid1.coords t)) : cfg1.idle 4 (grid1.coords t) = true := by
  show (!(k1_cond2 (grid1.coords t) == 1#1)) = true
  rw [Bool.not_eq_true', beq_eq_false_iff_ne]
  exact h

/-- and is not written back; -/
theorem noFlush1_4 (t : Fin cfg1.N) (h : ¬t.val % 25 = 24) : (cfg1.win 4).flush t = false :=
  Bool.eq_false_iff.mpr fun hf => h ((flush1_4 t).mp hf)

/-- at table chunk 24 it is live. -/
theorem liveAt1_4 (t : Fin cfg1.N) (h : condFin (grid1.coords t)) : cfg1.idle 4 (grid1.coords t) = false := by
  show (!(k1_cond2 (grid1.coords t) == 1#1)) = false
  rw [Bool.not_eq_false', beq_iff_eq]
  exact h

/-! ## The class's invariant with the accumulator apart -/

/-- The class's invariant: the other region's staging buffers, the accumulator at some contents, the
    generator register at some state. -/
theorem PhiA1_split (c : Dev nD) :
    (Pipeline.ΦA spec1 c : sProp 𝕄)
      ⊢ iprop(others1 (F := F) c ∗ (∃ d, owns (c : Thread nD τ) scM1 fullShare d) ∗ (∃ r, prngReg c r)) := by
  unfold Pipeline.ΦA others1; rw [scopedRest1_eq]; simp only [scM1, owns_whole]
  iintro ⟨⟨H0, H1, H2, H3, H4, HS⟩, Hg⟩
  isplitl [H0 H1 H2 H3 H4]
  · isplitl [H0]; · iexact H0
    isplitl [H1]; · iexact H1
    isplitl [H2]; · iexact H2
    isplitl [H3]; · iexact H3
    iexact H4
  isplitl [HS]; · iexact HS
  iexact Hg

theorem PhiA1_join (c : Dev nD) :
    iprop(others1 (F := F) c ∗ (∃ d, owns (c : Thread nD τ) scM1 fullShare d) ∗ (∃ r, prngReg c r))
      ⊢ (Pipeline.ΦA spec1 c : sProp 𝕄) := by
  unfold Pipeline.ΦA others1; rw [scopedRest1_eq]; simp only [scM1, owns_whole]
  iintro ⟨⟨H0, H1, H2, H3, H4⟩, HS, Hg⟩
  isplitl [H0 H1 H2 H3 H4 HS]
  · isplitl [H0]; · iexact H0
    isplitl [H1]; · iexact H1
    isplitl [H2]; · iexact H2
    isplitl [H3]; · iexact H3
    isplitl [H4]; · iexact H4
    iexact HS
  iexact Hg

theorem PhiA1_eq (c : Dev nD) :
    (Pipeline.ΦA spec1 c : sProp 𝕄)
      = iprop(others1 (F := F) c ∗ (∃ d, owns (c : Thread nD τ) scM1 fullShare d) ∗ (∃ r, prngReg c r)) :=
  BI.equiv_iff.mp ⟨PhiA1_split c, PhiA1_join c⟩

/-! ## The input windows' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The invariant, position by position -/

theorem PhiS1_zero (c : Dev nD) (n : ℕ) (h : n ≤ cfg1.N) (hz : n = 0) : PhiS1 V c n h = Pipeline.ΦA spec1 c := by
  subst hz; rfl

/-- After point n: the accumulator at that point's contents. -/
theorem PhiS1_succ (c : Dev nD) (n : ℕ) (hn : n < cfg1.N) :
    PhiS1 V c (n + 1) hn = iprop(others1 (F := F) c ∗ owns (c : Thread nD τ) scM1 fullShare (acc1 V c n hn) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(others1 (F := F) c ∗ owns (c : Thread nD τ) scM1 fullShare (acc1 V c (n - 1) (by omega)) ∗ (∃ r, prngReg c r)) := by
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- At a point of table chunk 0 the accumulator ends at the point's product added to zero. -/
theorem acc1_reset (c : Dev nD) (t : Fin cfg1.N) (h0 : t.val % 25 = 0) :
    acc1 V c t.val t.isLt = k1_pay2 (grid1.coords t) (iblk1 V c 1 t) (iblk1 V c 0 t) k1_pay1 := by
  obtain ⟨n, hn⟩ := t
  cases n with
  | zero => exact acc1_zero V c hn
  | succ n =>
    dsimp only at h0
    exact (acc1_succ V c n hn).trans (by rw [if_pos h0])

/-- At any other point it ends at the point's product added to what the point before left. -/
theorem acc1_step (c : Dev nD) (t : Fin cfg1.N) (h0 : ¬t.val % 25 = 0) :
    acc1 V c t.val t.isLt = k1_pay2 (grid1.coords t) (iblk1 V c 1 t) (iblk1 V c 0 t)
      (acc1 V c (t.val - 1) (Nat.lt_of_le_of_lt (Nat.sub_le _ _) t.isLt)) := by
  obtain ⟨n, hn⟩ := t
  cases n with
  | zero => exact absurd (Nat.zero_mod _) h0
  | succ n =>
    dsimp only at h0
    exact (acc1_succ V c n hn).trans (by rw [if_neg h0]; rfl)

/-! ## The body obligation at a generic point -/

/-- Each window's current staging memref at point t, as the pipeline passes it, and its wholeness. -/
abbrev ms1_0 (t : Fin cfg1.N) : Memref sig .tc .vmem S64x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4608 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4608 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x4608 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x256 .f32 := win1_4.stage (cfg1.slots t 4)
abbrev hs1_4 (t : Fin cfg1.N) : (ms1_4 t).IsWhole := hstage1_4 ((cfg1.slots t 4).cast nbuf1_4)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the input memrefs hold their blocks; the closed forms say which of the three control
    cases the point is in; the invariant hands the body the accumulator at what the point before left (at
    anything before the first point) and takes it back at this point's contents; the output memref comes back
    as found away from table chunk 24 and at the stored block there; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 25 = 0
  · have hR : condReset (grid1.coords t) := (hcondReset t).mpr h0
    have h24 : ¬t.val % 25 = 24 := by omega
    have hF : ¬condFin (grid1.coords t) := fun h => h24 ((hcondFin t).mp h)
    rw [Dat.leavesExact_idle (dat1 V c) 4 t (idleAt1_4 t hF) (noFlush1_4 t h24)]
    rw [acc1_reset V c t h0]
    by_cases hz : t.val = 0
    · rw [PhiS1_castSucc V c t, PhiS1_zero V c _ _ hz, PhiA1_eq]
      iintro ⟨⟨Hoth, HS, Hg⟩, Ho, ⟨%d0, H0⟩, ⟨%d1, H1⟩, ⟨%d2, H2⟩, ⟨%d3, H3⟩, ⟨%d4, H4⟩⟩
      iapply (sound_kernel1_A c Set.univ (grid1.coords t) hR hF (ms1_0 t) (hs1_0 t) (ms1_1 t) (hs1_1 t) (ms1_2 t) (hs1_2 t) (ms1_3 t) (hs1_3 t) (ms1_4 t) (hs1_4 t) scM1 (Memref.isWhole_whole _)
        (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply (sound_kernel1_A c Set.univ (grid1.coords t) hR hF (ms1_0 t) (hs1_0 t) (ms1_1 t) (hs1_1 t) (ms1_2 t) (hs1_2 t) (ms1_3 t) (hs1_3 t) (ms1_4 t) (hs1_4 t) scM1 (Memref.isWhole_whole _)
        (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hR : ¬condReset (grid1.coords t) := fun h => h0 ((hcondReset t).mp h)
    have hz : t.val ≠ 0 := by omega
    by_cases h24 : t.val % 25 = 24
    · have hF : condFin (grid1.coords t) := (hcondFin t).mpr h24
      rw [show (dat1 V c).leavesExact 4 t = owns (c : Thread nD τ) (ms1_4 t) fullShare ((dat1 V c).after 4 t) from by
        unfold Dat.leavesExact; rw [liveAt1_4 t hF], after1_4]
      unfold fin1
      rw [acc1_step V c t h0]
      rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply (sound_kernel1_C c Set.univ (grid1.coords t) hR hF (ms1_0 t) (hs1_0 t) (ms1_1 t) (hs1_1 t) (ms1_2 t) (hs1_2 t) (ms1_3 t) (hs1_3 t) (ms1_4 t) (hs1_4 t) scM1 (Memref.isWhole_whole _)
        (iblk1 V c 0 t) (iblk1 V c 1 t) (iblk1 V c 2 t) (iblk1 V c 3 t) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexact H4
    · have hF : ¬condFin (grid1.coords t) := fun h => h24 ((hcondFin t).mp h)
      rw [Dat.leavesExact_idle (dat1 V c) 4 t (idleAt1_4 t hF) (noFlush1_4 t h24)]
      rw [acc1_step V c t h0]
      rw [PhiS1_castSucc V c t, PhiS1_pos V c _ _ hz]
      iintro ⟨⟨Hoth, HS, Hg⟩, Ho, ⟨%d0, H0⟩, ⟨%d1, H1⟩, ⟨%d2, H2⟩, ⟨%d3, H3⟩, ⟨%d4, H4⟩⟩
      iapply (sound_kernel1_B c Set.univ (grid1.coords t) hR hF (ms1_0 t) (hs1_0 t) (ms1_1 t) (hs1_1 t) (ms1_2 t) (hs1_2 t) (ms1_3 t) (hs1_3 t) (ms1_4 t) (hs1_4 t) scM1 (Memref.isWhole_whole _)
        (iblk1 V c 0 t) (iblk1 V c 1 t) (iblk1 V c 2 t) (iblk1 V c 3 t) ((dat1 V c).before 4 t d4) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The library's body obligation for region 1, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hoth, HS, Hg⟩
  isplitl [Hoth]; · iexact Hoth
  isplitl [HS]; · iexists _; iexact HS
  iexact Hg

/-- After the last point the invariant gives the class's back: the accumulator's contents are forgotten. -/
theorem hout1 (c : Dev nD) : (dat1 V c).Φ (Fin.last cfg1.N) ⊢ Pipeline.ΦA spec1 c :=
  Phi_out1 V c _ (by rw [Fin.val_last]; have : cfg1.N = 3125 := N_1; omega)

end Cert.Kernel.Hand

end
-- ==== Proof.KernelBits.Vals.lean ====
/-
  The contents of the TensorCore's unscoped buffers at every boundary between two items of the program, as a fold
  from the launch memory `m`: a stretch of host operations applies its operations; a kernel region leaves its
  windows' arrays at what its write-backs leave and every other buffer as it found it.
  `W3` is what region 0 is entered from, `W4` what it leaves; `W5` what region 1 is entered from, `W6` what it
  leaves; `W7` the contents when the program returns.
-/
import proofs.«403175_j63316407877909_2_alg».proof.Proof.KernelBits.Region0
import proofs.«403175_j63316407877909_2_alg».proof.Proof.KernelBits.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the reshape and rounding of the activations. -/
abbrev W1 (c : Dev nD) : Valuation τ sig (Elt F) := StableHlo.after hostOps0 (W0 m c)
/-- After the padding of the weight table by one zero row. -/
abbrev W2 (c : Dev nD) : Valuation τ sig (Elt F) := StableHlo.after hostOps0_1 (W1 m c)
/-- After the rounding of the padded table: region 0's entry. -/
abbrev W3 (c : Dev nD) : Valuation τ sig (Elt F) := StableHlo.after hostOps0_2 (W2 m c)
/-- The same read at the TensorCore's references. -/
abbrev V3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- After the three reshapes of the path arrays: region 1's entry. -/
abbrev W5 (c : Dev nD) : Valuation τ sig (Elt F) := StableHlo.after hostOps1 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- After the final reshape: the contents at the return. -/
abbrev W7 (c : Dev nD) : Valuation τ sig (Elt F) := StableHlo.after hostOps2 (W6 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

end Cert.Kernel.Hand

end
-- ==== Proof.KernelBits.Run.lean ====
/-
  The whole program's run: the program as seven segments in order — three stretches of host operations, region 0,
  a stretch, region 1, a stretch — each region entered from the contents the segment before it left and left at its
  arrays' final contents, every other unscoped buffer as entered.  Every weakly fair execution terminates and the
  final memory holds every unscoped buffer at the last boundary's contents `W7`; the argument arrays are read back
  through the fold to their launch contents, since no host operation and no region writes one.
-/
import proofs.«403175_j63316407877909_2_alg».proof.Proof.KernelBits.Vals
import proofs.«403175_j63316407877909_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the final state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of both pipelines and what rides beside the buffers -/

/-- Both pipelines' proof data, each at the contents its region is entered from. -/
private def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c

private abbrev 𝒱₀ : Variants := Variants.none
/-- No core owes another anything: no pair carries a level. -/
private abbrev L : GSem nD τ sig → Finset Unit := fun _ => ∅
private abbrev lv : GSem nD τ sig → Unit → ℕ := fun _ _ => 0

/-- Beside the unscoped buffers every segment carries the core's generator register at some state and the core
    owing nothing. -/
private abbrev R (c : Dev nD) : sProp 𝕄 :=
  iprop((∃ r, prngReg c r) ∗ ∃ W, owes (c : Thread nD τ) (0 : CellTallies nD τ sig Unit) W)

/-- A stretch of host operations run from the contents W: it leaves the unscoped buffers at the operations' fold
    over W, the riding state untouched. -/
private abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what is owed: every unscoped buffer at the contents at the return, the generator
    register at some state. -/
private abbrev Tₙ (c : Dev nD) : sProp 𝕄 :=
  iprop(StableHlo.held (c : Thread nD τ) (Pipeline.ucRefs τ sig) (W7 m c) ∗ ∃ r, prngReg c r)

/-- What the last host stretch leaves is the last thread state beside the core owing nothing: the same three
    conjuncts, bracketed the other way. -/
private theorem post_last (c : Dev nD) :
    iprop(StableHlo.held (c : Thread nD τ) (Pipeline.ucRefs τ sig) (W7 m c)
        ∗ (∃ r, prngReg c r) ∗ ∃ W, owes (c : Thread nD τ) (0 : CellTallies nD τ sig Unit) W)
      ⊢ (iprop((StableHlo.held (c : Thread nD τ) (Pipeline.ucRefs τ sig) (W7 m c) ∗ ∃ r, prngReg c r)
        ∗ ∃ W, owes (c : Thread nD τ) (0 : CellTallies nD τ sig Unit) W) : sProp 𝕄) := by
  iintro ⟨Hh, Hp, HO⟩
  isplitl [Hh Hp]
  · isplitl [Hh] <;> iassumption
  iexact HO

/-! ## The two regions as segments -/

set_option backward.isDefEq.respectTransparency.types false in
/-- Region 0, entered from every unscoped buffer at W3 and left at W4.  Its three arrays are split out of the
    unscoped buffers at entry and put back at their final contents at exit; the generator register goes into the
    invariant and comes back; nothing is owed. -/
private def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at W5 and left at W6.  As region 0, except that its invariant
    carries the accumulator from point to point: what the entry makes is the invariant before the first point, and
    the invariant after the last point forgets the accumulator's contents. -/
private def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (show Pipeline.ΦA spec1 c ⊢ (pdats m 1 c).Φ 0 from hin1 (V5 m) c)
    unfold Pipeline.ΦA
    iintro ⟨Hp, -, Hr⟩
    isplitl [Hr]; · iexact Hr
    iexact Hp
  hout c := by
    refine (show (pdats m 1 c).Φ (Fin.last _) ⊢ Pipeline.ΦA spec1 c from hout1 (V5 m) c).trans (?_ : Pipeline.ΦA spec1 c ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven segments, and the launch -/

/-- The seven segments in order: each host stretch run from the contents at its boundary, each region between the
    contents it is entered from and those it leaves. -/
private abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]

set_option backward.isDefEq.respectTransparency.types false in
/-- THE RUN: every weakly fair execution of the program terminates, nothing faulting, with every unscoped buffer of
    every core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => post_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched

No host operation writes an argument array and neither region has one among its windows' arrays, so the fold at an
argument's buffer walks back, boundary by boundary, to the launch memory. -/

/-- A buffer that is written by no host stretch and is no window's array of either region holds at the return what
    it held at launch. -/
private theorem W7_of_untouched (c : Dev nD) (r : Ref sig .tc)
    (h6 : r ∉ hostOps2_W) (h5 : ∀ w, Pipeline.arrRef spec1 w ≠ r) (h4 : r ∉ hostOps1_W)
    (h3 : ∀ w, Pipeline.arrRef spec0 w ≠ r) (h2 : r ∉ hostOps0_2_W) (h1 : r ∉ hostOps0_1_W) (h0 : r ∉ hostOps0_W) :
    W7 m c (Proc.devRef .tc r) = m ((c : Thread nD τ).loc r) :=
  calc W7 m c (Proc.devRef .tc r)
    _ = W6 m c (Proc.devRef .tc r) := StableHlo.after_of_writes_sub hostOps2 _ hostOps2_writes h6
    _ = W5 m c (Proc.devRef .tc r) := W6_of_ne m c r h5
    _ = W4 m c (Proc.devRef .tc r) := StableHlo.after_of_writes_sub hostOps1 _ hostOps1_writes h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W7_main_arg0 (c : Dev nD) : W7 m c (Proc.devRef .tc main_arg0) = m ((c : Thread nD τ).loc main_arg0) :=
  W7_of_untouched m c main_arg0 (by decide) (by decide) (by decide) (by decide) (by decide) (by decide) (by decide)
theorem W7_main_arg1 (c : Dev nD) : W7 m c (Proc.devRef .tc main_arg1) = m ((c : Thread nD τ).loc main_arg1) :=
  W7_of_untouched m c main_arg1 (by decide) (by decide) (by decide) (by decide) (by decide) (by decide) (by decide)
theorem W7_main_arg2 (c : Dev nD) : W7 m c (Proc.devRef .tc main_arg2) = m ((c : Thread nD τ).loc main_arg2) :=
  W7_of_untouched m c main_arg2 (by decide) (by decide) (by decide) (by decide) (by decide) (by decide) (by decide)
theorem W7_main_arg3 (c : Dev nD) : W7 m c (Proc.devRef .tc main_arg3) = m ((c : Thread nD τ).loc main_arg3) :=
  W7_of_untouched m c main_arg3 (by decide) (by decide) (by decide) (by decide) (by decide) (by decide) (by decide)
theorem W7_main_arg4 (c : Dev nD) : W7 m c (Proc.devRef .tc main_arg4) = m ((c : Thread nD τ).loc main_arg4) :=
  W7_of_untouched m c main_arg4 (by decide) (by decide) (by decide) (by decide) (by decide) (by decide) (by decide)

end Cert.Kernel.Hand

end
-- ==== Proof.Spec.lean ====
/-
  The function both programs compute, index by index, on the extended reals.

  For a row (b, t) of the activations and an inner node n of the tree, the logit is the inner product of the
  row with the node's weight row.  A vocabulary entry v has 18 path positions p = 18 v + d; position p names an
  inner node `idx p`, a sign and a bias.  The result at (b, t, v) is the sum over d of
  log (min 1 (max ε (logistic (logit at idx p) · sign p + bias p))).
-/
import Idealize.ShloMosaic.PureOps.Ideal
import Idealize.ShloMosaic.Lib.ValueIdx

noncomputable section

namespace Cert.Spec

open Idealize.ShloMosaic Idealize.ShloMosaic.ValueIdx

abbrev SAtt : Shape := ⟨3, ![4, 16, 512]⟩
abbrev SW : Shape := ⟨2, ![31999, 512]⟩
abbrev SPath : Shape := ⟨1, ![576000]⟩
abbrev SOut : Shape := ⟨3, ![4, 16, 32000]⟩

/-- The clip's lower bound (the f32 word of 1e-9) and its upper bound (the f32 word of 1). -/
def lo : EReal := Ideal.ofBits .f32 0x3089705F#32
def hi : EReal := Ideal.ofBits .f32 0x3F800000#32

/-- Row (b, t) of the activations against weight row `n`. -/
def logit (att : SAtt.Idx → EReal) (W : SW.Idx → EReal) (b : Fin 4) (t : Fin 16) (n : Fin 31999) : EReal :=
  ∑ e : Fin 512, att (ix3 b t e) * W (ix2 n e)

/-- The same at a natural number: zero outside the table (never met where the path indices are in range). -/
def logitAt (att : SAtt.Idx → EReal) (W : SW.Idx → EReal) (b : Fin 4) (t : Fin 16) (k : ℕ) : EReal :=
  if h : k < 31999 then logit att W b t ⟨k, h⟩ else 0

/-- Path position `d` of vocabulary entry `v`. -/
def pos (v : Fin 32000) (d : Fin 18) : Fin 576000 := ⟨v.val * 18 + d.val, by omega⟩

/-- One path position's term: log of the clipped signed probability. -/
def term (att : SAtt.Idx → EReal) (W : SW.Idx → EReal) (idx : SPath.Idx → BitVec 32) (sgn bias : SPath.Idx → EReal)
    (b : Fin 4) (t : Fin 16) (p : Fin 576000) : EReal :=
  Ideal.log (min hi (max lo (Ideal.logistic (logitAt att W b t (idx (ix1 p)).toNat) * sgn (ix1 p) + bias (ix1 p))))

/-- The result at (b, t, v). -/
def val (att : SAtt.Idx → EReal) (W : SW.Idx → EReal) (idx : SPath.Idx → BitVec 32) (sgn bias : SPath.Idx → EReal)
    (b : Fin 4) (t : Fin 16) (v : Fin 32000) : EReal :=
  ∑ d : Fin 18, term att W idx sgn bias b t (pos v d)

/-- The result array. -/
def G (att : SAtt.Idx → EReal) (W : SW.Idx → EReal) (idx : SPath.Idx → BitVec 32) (sgn bias : SPath.Idx → EReal) :
    SOut.Idx → EReal :=
  fun j => val att W idx sgn bias (j 0) (j 1) (j 2)

/-- The path indices are inside the weight table. -/
def InRange (idx : SPath.Idx → BitVec 32) : Prop := ∀ p : Fin 576000, (idx (ix1 p)).toNat < 31999

end Cert.Spec

end
-- ==== Proof.ValDefs.lean ====
/-
  Closed forms of what the two kernel regions leave in their output arrays, on the extended reals.
  Region 0 leaves the logits: row r of the activations against row n of the padded weight table.
  Region 1 reads, for column n of its output and path position d, entry (n / 256, 0, (n % 256) · 18 + d) of the
  path arrays laid out as [125, 1, 4608]; the accumulated one-hot products pick column `idx` of the logits
  (zero when no column matches), and the rest is the path term's arithmetic summed over d.
-/
import proofs.«403175_j63316407877909_2_alg».proof.Proof.Spec

noncomputable section

namespace Cert.Spec

open Idealize.ShloMosaic Idealize.ShloMosaic.ValueIdx

abbrev SX : Shape := ⟨2, ![64, 512]⟩
abbrev SWp : Shape := ⟨2, ![32000, 512]⟩
abbrev SH : Shape := ⟨2, ![64, 32000]⟩
abbrev SP3 : Shape := ⟨3, ![125, 1, 4608]⟩

/-- The logits: activation row `j 0` against padded weight row `j 1`. -/
def logits0 (x : SX.Idx → EReal) (w : SWp.Idx → EReal) : SH.Idx → EReal :=
  fun j => ∑ e : Fin 512, x (ix2 (⟨(j 0).val, idx2_lt0 j⟩ : Fin 64) e) * w (ix2 (⟨(j 1).val, idx2_lt1 j⟩ : Fin 32000) e)

/-- Column `k` of row `r` of the logits; zero when `k` is no column. -/
def hAt (h : SH.Idx → EReal) (r : Fin 64) (k : ℕ) : EReal := if hk : k < 32000 then h (ix2 r ⟨k, hk⟩) else 0

/-- Where path position `d` of output column `n` sits in the [125, 1, 4608] layout. -/
def pos3 (n : Fin 32000) (d : Fin 18) : SP3.Idx :=
  ix3 (⟨n.val / 256, by omega⟩ : Fin 125) (0 : Fin 1) (⟨(n.val % 256) * 18 + d.val, by omega⟩ : Fin 4608)

/-- One path position's term from the logits. -/
def term1 (h : SH.Idx → EReal) (idx : SP3.Idx → BitVec 32) (sg bi : SP3.Idx → EReal) (r : Fin 64) (n : Fin 32000) (d : Fin 18) : EReal :=
  Ideal.log (min hi (max lo (Ideal.logistic (hAt h r (idx (pos3 n d)).toNat) * sg (pos3 n d) + bi (pos3 n d))))

/-- What region 1 leaves in its output array. -/
def out1 (h : SH.Idx → EReal) (idx : SP3.Idx → BitVec 32) (sg bi : SP3.Idx → EReal) : SH.Idx → EReal :=
  fun j => ∑ d : Fin 18, term1 h idx sg bi ⟨(j 0).val, idx2_lt0 j⟩ ⟨(j 1).val, idx2_lt1 j⟩ d

end Cert.Spec

end
-- ==== Proof.Value0.lean ====
/-
  Region 0's output array after the region, at the ideal instance: block `t` of the logits is written back at
  point `t`, the ten blocks of 3200 columns cover the array, and each block is the matrix product of the
  activation block with the `t`-th slab of weight rows: a plain sum over the 512 contracted entries.
-/
import proofs.«403175_j63316407877909_2_alg».proof.Proof.Region0
import proofs.«403175_j63316407877909_2_alg».proof.Proof.ValDefs
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The product's operand indices

The product contracts axis 1 of the activations [64, 512] with axis 1 of the weight slab [3200, 512]: at output
index (r, q) and contraction position k the left operand is read at (r, k) and the right one at (q, k). -/

/-- The left operand's row is the output's row. -/
private theorem lhs_row (j : S64x3200.Idx) (k : dot_S64x512_S3200x512_S64x3200_1_1_0_0_n_n.contr.Idx) :
    (dot_S64x512_S3200x512_S64x3200_1_1_0_0_n_n.lhsIdx j k 0 : ℕ) = j 0 := by
  simp [DotDims.lhsIdx, dot_S64x512_S3200x512_S64x3200_1_1_0_0_n_n]; rfl

/-- The left operand's column is the contraction position. -/
private theorem lhs_col (j : S64x3200.Idx) (k : dot_S64x512_S3200x512_S64x3200_1_1_0_0_n_n.contr.Idx) :
    (dot_S64x512_S3200x512_S64x3200_1_1_0_0_n_n.lhsIdx j k 1 : ℕ) = k ⟨0, by decide⟩ :=
  dot_S64x512_S3200x512_S64x3200_1_1_0_0_n_n.lhsIdx_val_of_single rfl j k

/-- The right operand's row is the output's column. -/
private theorem rhs_row (j : S64x3200.Idx) (k : dot_S64x512_S3200x512_S64x3200_1_1_0_0_n_n.contr.Idx) :
    (dot_S64x512_S3200x512_S64x3200_1_1_0_0_n_n.rhsIdx j k 0 : ℕ) = j 1 := by
  simp [DotDims.rhsIdx, dot_S64x512_S3200x512_S64x3200_1_1_0_0_n_n]; rfl

/-- The right operand's column is the contraction position. -/
private theorem rhs_col (j : S64x3200.Idx) (k : dot_S64x512_S3200x512_S64x3200_1_1_0_0_n_n.contr.Idx) :
    (dot_S64x512_S3200x512_S64x3200_1_1_0_0_n_n.rhsIdx j k 1 : ℕ) = k ⟨0, by decide⟩ :=
  dot_S64x512_S3200x512_S64x3200_1_1_0_0_n_n.rhsIdx_val_of_single rfl j k

/-! ## The stored block at an index -/

/-- Entry (r, q) of the block a point stores: row r of the activations against row q of the weight slab. -/
private theorem hblock_apply (x : Vec Ideal S64x512 .bf16) (w : Vec Ideal S3200x512 .bf16) (r : Fin 64) (q : Fin 3200) :
    hblock x w (ix2 r q) = ∑ e : Fin 512, x (ix2 r e) * w (ix2 q e) := by
  unfold hblock k0_pay1
  show FloatOps.matmul (F := Ideal) (φ₁ := .bf16) (φ₂ := .bf16) dot_S64x512_S3200x512_S64x3200_1_1_0_0_n_n none
      (shapeCast S64x512 (x : FVec Ideal S64x512 .bf16) shapeCasts_S64x512_S64x512)
      (shapeCast S3200x512 (w : FVec Ideal S3200x512 .bf16) shapeCasts_S3200x512_S3200x512)
      (constant S64x3200 .f32 0x00000000#32) (ix2 r q) = _
  rw [shapeCast_self, shapeCast_self, Ideal.matmul_constant_zero_apply,
    ← Equiv.sum_comp (contrEquiv1 dot_S64x512_S3200x512_S64x3200_1_1_0_0_n_n 512 rfl rfl).symm]
  refine Finset.sum_congr rfl fun e _ => ?_
  have ce := contrEquiv1_symm_val dot_S64x512_S3200x512_S64x3200_1_1_0_0_n_n 512 rfl rfl e
  have hl : dot_S64x512_S3200x512_S64x3200_1_1_0_0_n_n.lhsIdx (ix2 r q)
      ((contrEquiv1 dot_S64x512_S3200x512_S64x3200_1_1_0_0_n_n 512 rfl rfl).symm e) = ix2 r e := by
    funext a; apply Fin.ext
    match a with
    | ⟨0, _⟩ => exact lhs_row _ _
    | ⟨1, _⟩ => exact (lhs_col _ _).trans ce
  have hr : dot_S64x512_S3200x512_S64x3200_1_1_0_0_n_n.rhsIdx (ix2 r q)
      ((contrEquiv1 dot_S64x512_S3200x512_S64x3200_1_1_0_0_n_n 512 rfl rfl).symm e) = ix2 q e := by
    funext a; apply Fin.ext
    match a with
    | ⟨0, _⟩ => exact rhs_row _ _
    | ⟨1, _⟩ => exact (rhs_col _ _).trans ce
  rw [hl, hr]

variable (V : (c : Dev nD) → (b : Ref sig .tc) → Buf (Elt Ideal) ((c : Thread nD τ).loc b))

/-! ## Where the three windows' blocks sit

At point `t` the activations' block is the whole array, the weight block starts at row 3200 t, and the output's
block starts at column 3200 t: decided once over the ten points. -/

private theorem block_indices0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The activations' block at any point, entry (r, e): entry (r, e) of the array. -/
private theorem xblock_apply (c : Dev nD) (t : Fin cfg0.N) (r : Fin 64) (e : Fin 512) :
    (iblk0 V c 0 t : Vec Ideal S64x512 .bf16) (ix2 r e) = (V c main_v1 : S64x512.Idx → EReal) (ix2 r e) := by
  obtain ⟨e00, e01, -⟩ := block_indices0 t
  show (V c main_v1 : S64x512.Idx → EReal) (((cfg0.win 0).blk t).view.emb (ix2 r e)) = _
  refine congrArg (V c main_v1 : S64x512.Idx → EReal) ?_
  funext a; apply Fin.ext
  match a with
  | ⟨0, _⟩ => show win0_0.index t (0 : Fin 2) * 64 + 1 * r.val = r.val; omega
  | ⟨1, _⟩ => show win0_0.index t (1 : Fin 2) * 512 + 1 * e.val = e.val; omega

/-- The weight block at point `t`, entry (q, e): entry (3200 t + q, e) of the array. -/
private theorem wblock_apply (c : Dev nD) (t : Fin cfg0.N) (q : Fin 3200) (e : Fin 512) (n : Fin 32000)
    (hn : n.val = 3200 * t.val + q.val) :
    (iblk0 V c 1 t : Vec Ideal S3200x512 .bf16) (ix2 q e) = (V c main_v3 : S32000x512.Idx → EReal) (ix2 n e) := by
  obtain ⟨-, -, e10, e11, -⟩ := block_indices0 t
  show (V c main_v3 : S32000x512.Idx → EReal) (((cfg0.win 1).blk t).view.emb (ix2 q e)) = _
  refine congrArg (V c main_v3 : S32000x512.Idx → EReal) ?_
  funext a; apply Fin.ext
  match a with
  | ⟨0, _⟩ => show win0_1.index t (0 : Fin 2) * 3200 + 1 * q.val = n.val; omega
  | ⟨1, _⟩ => show win0_1.index t (1 : Fin 2) * 512 + 1 * e.val = e.val; omega

/-- What point `t` writes back is block `t` of the logits. -/
private theorem flushed0_eq (c : Dev nD) (t : Fin cfg0.N) :
    (dat0 (F := Ideal) V c).flushed 2 t
      = ((cfg0.win 2).blk t).view.read (Elt Ideal) (Cert.Spec.logits0 (V c main_v1) (V c main_v3)) := by
  show (cfg0.win 2).cut (grid0.coords t) ((dat0 (F := Ideal) V c).after 2 t) = _
  rw [after0_2]
  obtain ⟨-, -, -, -, e20, e21⟩ := block_indices0 t
  funext j
  have hj0 : (j 0).val < 64 := (j 0).isLt
  have hj1 : (j 1).val < 3200 := (j 1).isLt
  have ht : t.val < 10 := t.isLt
  have hx : (cfg0.win 2).xinj (grid0.coords t) j = ix2 (⟨(j 0).val, hj0⟩ : Fin 64) (⟨(j 1).val, hj1⟩ : Fin 3200) :=
    funext fun a => by match a with | ⟨0, _⟩ => rfl | ⟨1, _⟩ => rfl
  refine (congrArg (hblock (iblk0 V c 0 t) (iblk0 V c 1 t)) hx).trans ?_
  refine (hblock_apply (iblk0 V c 0 t) (iblk0 V c 1 t) ⟨(j 0).val, hj0⟩ ⟨(j 1).val, hj1⟩).trans ?_
  show _ = Cert.Spec.logits0 (V c main_v1) (V c main_v3) (((cfg0.win 2).blk t).view.emb j)
  have c0 : ((((cfg0.win 2).blk t).view.emb j) 0).val = (j 0).val := by
    show win0_2.index t (0 : Fin 2) * 64 + 1 * (j 0).val = (j 0).val; omega
  have c1 : ((((cfg0.win 2).blk t).view.emb j) 1).val = 3200 * t.val + (j 1).val := by
    show win0_2.index t (1 : Fin 2) * 3200 + 1 * (j 1).val = 3200 * t.val + (j 1).val; omega
  unfold Cert.Spec.logits0
  refine Finset.sum_congr rfl fun e _ => ?_
  rw [xblock_apply V c t ⟨(j 0).val, hj0⟩ e,
    wblock_apply V c t ⟨(j 1).val, hj1⟩ e ⟨3200 * t.val + (j 1).val, by omega⟩ rfl]
  congr 2
  · exact congrArg (fun r => ix2 r e) (Fin.ext c0.symm)
  · exact congrArg (fun n => ix2 n e) (Fin.ext c1.symm)

/-! ## The ten blocks cover the array -/

/-- An index of the output array is in point `t`'s block when each coordinate is in the block's range on its axis. -/
private theorem mem_block0 (t : Fin cfg0.N) (i : S64x32000.Idx) :
    i ∈ ((cfg0.win 2).blk t).view.set ↔ ∀ a : Fin 2, win0_2.index t a * S64x3200.size a ≤ (i a).val
      ∧ (i a).val < win0_2.index t a * S64x3200.size a + S64x3200.size a := by
  show i ∈ ((View.whole main_v4).slice (win0_2.rect t)).set ↔ _
  rw [View.set_slice_whole, Rect.mem_set_unit]
  exact Iff.rfl

/-- Column `n` of the output array lies in the block of point `n / 3200`, which is written back. -/
private theorem cover0 (i : S64x32000.Idx) :
    ∃ t : Fin cfg0.N, (cfg0.win 2).flush t = true ∧ i ∈ ((cfg0.win 2).blk t).view.set := by
  have hi0 : (i 0).val < 64 := (i 0).isLt
  have hi1 : (i 1).val < 32000 := (i 1).isLt
  have hN : cfg0.N = 10 := N_0
  have hlt : (i 1).val / 3200 < cfg0.N := by rw [hN]; omega
  obtain ⟨-, -, -, -, e20, e21⟩ := block_indices0 ⟨(i 1).val / 3200, hlt⟩
  have e21' : win0_2.index ⟨(i 1).val / 3200, hlt⟩ (1 : Fin 2) = (i 1).val / 3200 := e21
  refine ⟨⟨(i 1).val / 3200, hlt⟩, flush0_2 _, ?_⟩
  rw [mem_block0]
  intro a
  match a with
  | ⟨0, _⟩ =>
    show win0_2.index ⟨(i 1).val / 3200, hlt⟩ (0 : Fin 2) * 64 ≤ (i 0).val
      ∧ (i 0).val < win0_2.index ⟨(i 1).val / 3200, hlt⟩ (0 : Fin 2) * 64 + 64
    omega
  | ⟨1, _⟩ =>
    show win0_2.index ⟨(i 1).val / 3200, hlt⟩ (1 : Fin 2) * 3200 ≤ (i 1).val
      ∧ (i 1).val < win0_2.index ⟨(i 1).val / 3200, hlt⟩ (1 : Fin 2) * 3200 + 3200
    omega

/-- After region 0 its output array holds the logits of the two input arrays as the region found them. -/
theorem final0 (c : Dev nD) :
    (dat0 (F := Ideal) V c).arrAt 2 cfg0.N = Cert.Spec.logits0 (V c main_v1) (V c main_v3) := by
  exact (dat0 (F := Ideal) V c).arrAt_eq_of_cover 2 (Cert.Spec.logits0 (V c main_v1) (V c main_v3))
    (fun t _ => flushed0_eq V c t) cover0

end Cert.KernelIdeal.Hand

end
-- ==== Proof.SegSum.lean ====
/-
  The last stage of region 1 sums, for each vocabulary entry, its 18 consecutive columns.  The kernel writes
  this as a matrix product with the 0/1 matrix whose entry (m, v) says "column m belongs to entry v", that is
  m / 18 = v, the quotient computed over 32-bit words by the signed floor-division sequence.  Here that matrix
  is read entry by entry, and the product at (r, v) is shown to be the sum of the 18 columns 18 v, …, 18 v + 17
  of row r.
-/
import proofs.«403175_j63316407877909_2_alg».proof.Proof.Blocks
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

noncomputable section

namespace Cert.KernelIdeal.Hand

open Idealize.ShloMosaic Idealize.ShloMosaic.ValueIdx
open Idealize.ShloMosaic.StableHlo.Predicate (sgt_iff_toNat slt_iff_toNat cmpi_eq_iff)
open Cert.KernelIdeal Cert.KernelIdeal.Gen
open scoped BigOperators

/-! ## Words below 4608

A row number `a < 4608` is a 32-bit word far below 2³¹: it is non-negative read signed, its signed quotient and
remainder by 18 are the quotient and remainder of naturals, and the floor-division sequence's correction (taken
when the operands' signs differ and the remainder is not zero) is never taken. -/

/-- A number below 4608 is the value of its 32-bit word. -/
private theorem toNat_small (a : ℕ) (ha : a < 4608) : (BitVec.ofNat 32 a).toNat = a := by
  rw [BitVec.toNat_ofNat]; exact Nat.mod_eq_of_lt (by omega)

/-- Signed division by 18 of such a word meets no corner and is the division of naturals. -/
private theorem divsi_18 (a : ℕ) (ha : a < 4608) :
    IntOp.divsi .vector (BitVec.ofNat 32 a) 18#32 = BitVec.ofNat 32 (a / 18) := by
  have hx := toNat_small a ha
  have hcorner : ¬ IntOp.SDivCorner (BitVec.ofNat 32 a) 18#32 := by
    intro hc
    rcases hc with hc | ⟨_, hc⟩ <;> exact absurd hc (by decide)
  have hm : (BitVec.ofNat 32 a).msb = false := BitVec.msb_eq_false_iff_two_mul_lt.mpr (by omega)
  apply BitVec.eq_of_toNat_eq
  rw [IntOp.divsi, if_neg hcorner, BitVec.sdiv_eq, hm, show (18#32 : BitVec 32).msb = false from by decide]
  simp only [BitVec.udiv_eq, BitVec.toNat_udiv, hx, toNat_small (a / 18) (by omega)]
  rfl

/-- The correction of the floor division is not taken: for `a = 0` the remainder is zero, and for `a > 0` the
    dividend's sign is the divisor's. -/
private theorem no_correction (a : ℕ) (ha : a < 4608) :
    IntOp.andi
      (IntOp.cmpi .ne
        (IntOp.subi (BitVec.setWidth 32 (IntOp.cmpi .sgt (BitVec.ofNat 32 a) 0#32))
          (BitVec.setWidth 32 (IntOp.cmpi .slt (BitVec.ofNat 32 a) 0#32)))
        (Scalar.subi (Scalar.extui (Scalar.cmpi .sgt 18#32 0#32)) (Scalar.extui (Scalar.cmpi .slt 18#32 0#32))))
      (IntOp.cmpi .ne (IntOp.remsi .vector (BitVec.ofNat 32 a) 18#32) 0#32) = 0#1 := by
  rcases Nat.eq_zero_or_pos a with rfl | hpos
  · decide
  · have hx := toNat_small a ha
    have hsg : IntOp.cmpi .sgt (BitVec.ofNat 32 a) 0#32 = 1#1 :=
      (sgt_iff_toNat (by omega) (by decide)).mpr (by rw [hx]; exact hpos)
    have hsl : IntOp.cmpi .slt (BitVec.ofNat 32 a) 0#32 = 0#1 :=
      eq_zero_of_ne_one fun h => absurd ((slt_iff_toNat (by omega) (by decide)).mp h) (Nat.not_lt_zero _)
    rw [hsg, hsl]
    have hsame : IntOp.cmpi .ne (IntOp.subi (BitVec.setWidth 32 1#1) (BitVec.setWidth 32 0#1))
        (Scalar.subi (Scalar.extui (Scalar.cmpi .sgt 18#32 0#32)) (Scalar.extui (Scalar.cmpi .slt 18#32 0#32))) = 0#1 := by
      decide
    rw [hsame]
    exact BitVec.zero_and

/-! ## The membership matrix, entry by entry -/

/-- The row iota at (m, v) is the word of m; -/
private theorem row_word (m : Fin 4608) (v : Fin 256) :
    iota .tc S4608x256 32 [0] Facts₀.iota_S4608x256_d0_w32 (ix2 m v) = BitVec.ofNat 32 m.val :=
  iota_single_apply .tc S4608x256 32 0 _ (ix2 m v)

/-- the column iota, the word of v. -/
private theorem col_word (m : Fin 4608) (v : Fin 256) :
    iota .tc S4608x256 32 [1] Facts₀.iota_S4608x256_d1_w32 (ix2 m v) = BitVec.ofNat 32 v.val :=
  iota_single_apply .tc S4608x256 32 1 _ (ix2 m v)

/-- Entry (m, v) of the membership matrix is set exactly when column m is one of entry v's 18 columns. -/
theorem seg_word (m : Fin 4608) (v : Fin 256) :
    k1_pay5 (ix2 m v) = 1#1 ↔ m.val / 18 = v.val := by
  unfold k1_pay5
  simp only [cmpi, select, subi, andi, divsi, remsi, extui, broadcast]
  rw [row_word m v, col_word m v, no_correction m.val m.isLt, select_zero, divsi_18 m.val m.isLt, cmpi_eq_iff]
  constructor
  · intro h
    have h' := congrArg BitVec.toNat h
    rwa [toNat_small _ (by have := m.isLt; omega), toNat_small _ (by have := v.isLt; omega)] at h'
  · intro h
    rw [h]

/-! ## The product's operand indices

The product contracts the left operand's columns against the right operand's rows: at output (r, v) and
contraction position m the left operand is read at (r, m) and the right one at (m, v). -/

private theorem lhs_axis0 (j : S64x256.Idx) (k : dot_S64x4608_S4608x256_S64x256_1_0_0_1_n_n.contr.Idx) :
    ((dot_S64x4608_S4608x256_S64x256_1_0_0_1_n_n.lhsIdx j k) 0).val = (j 0).val := rfl

private theorem lhs_axis1 (j : S64x256.Idx) (k : dot_S64x4608_S4608x256_S64x256_1_0_0_1_n_n.contr.Idx) :
    ((dot_S64x4608_S4608x256_S64x256_1_0_0_1_n_n.lhsIdx j k) 1).val = (k ⟨0, by decide⟩).val :=
  dot_S64x4608_S4608x256_S64x256_1_0_0_1_n_n.lhsIdx_val_of_single rfl j k

private theorem rhs_axis0 (j : S64x256.Idx) (k : dot_S64x4608_S4608x256_S64x256_1_0_0_1_n_n.contr.Idx) :
    ((dot_S64x4608_S4608x256_S64x256_1_0_0_1_n_n.rhsIdx j k) 0).val = (k ⟨0, by decide⟩).val :=
  dot_S64x4608_S4608x256_S64x256_1_0_0_1_n_n.rhsIdx_val_of_single rfl j k

private theorem rhs_axis1 (j : S64x256.Idx) (k : dot_S64x4608_S4608x256_S64x256_1_0_0_1_n_n.contr.Idx) :
    ((dot_S64x4608_S4608x256_S64x256_1_0_0_1_n_n.rhsIdx j k) 1).val = (j 1).val := rfl

/-- The contraction positions are the 4608 columns of the left operand. -/
private abbrev cols : dot_S64x4608_S4608x256_S64x256_1_0_0_1_n_n.contr.Idx ≃ Fin 4608 :=
  contrEquiv1 dot_S64x4608_S4608x256_S64x256_1_0_0_1_n_n 4608 rfl rfl

private theorem lhs_at (r : Fin 64) (v : Fin 256) (m : Fin 4608) :
    dot_S64x4608_S4608x256_S64x256_1_0_0_1_n_n.lhsIdx (ix2 r v) (cols.symm m) = ix2 r m :=
  Shape.idx_ext₂ (lhs_axis0 _ _)
    ((lhs_axis1 _ _).trans (contrEquiv1_symm_val dot_S64x4608_S4608x256_S64x256_1_0_0_1_n_n 4608 rfl rfl m))

private theorem rhs_at (r : Fin 64) (v : Fin 256) (m : Fin 4608) :
    dot_S64x4608_S4608x256_S64x256_1_0_0_1_n_n.rhsIdx (ix2 r v) (cols.symm m) = ix2 m v :=
  Shape.idx_ext₂
    ((rhs_axis0 _ _).trans (contrEquiv1_symm_val dot_S64x4608_S4608x256_S64x256_1_0_0_1_n_n 4608 rfl rfl m))
    (rhs_axis1 _ _)

/-! ## One summand, and the sum over a segment -/

/-- A term of the product: the left entry where the membership word is set, zero elsewhere. -/
private theorem summand (x : EReal) (m : Fin 4608) (v : Fin 256) :
    x * Scalar.select (k1_pay5 (ix2 m v)) (Ideal.ofBits .f32 0x3F800000#32) (Ideal.ofBits .f32 0x00000000#32)
      = if m.val / 18 = v.val then x else 0 := by
  by_cases h : m.val / 18 = v.val
  · rw [if_pos h, (seg_word m v).mpr h, select_one, Ideal.ofBits_one_f32, mul_one]
  · rw [if_neg h, eq_zero_of_ne_one fun h1 => h ((seg_word m v).mp h1), select_zero, Ideal.ofBits_zero_f32, mul_zero]

/-- A sum over the 4608 columns of terms that vanish off entry v's segment is the sum over the segment's 18
    columns 18 v + d. -/
private theorem sum_segment {M : Type} [AddCommMonoid M] (f : Fin 4608 → M) (v : Fin 256) :
    ∑ m : Fin 4608, (if m.val / 18 = v.val then f m else 0)
      = ∑ d : Fin 18, f (⟨v.val * 18 + d.val, by omega⟩ : Fin 4608) := by
  rw [← Finset.sum_filter]
  symm
  refine Finset.sum_bij (fun d _ => (⟨v.val * 18 + d.val, by omega⟩ : Fin 4608)) ?_ ?_ ?_ ?_
  · intro d _
    rw [Finset.mem_filter]
    exact ⟨Finset.mem_univ _, by show (v.val * 18 + d.val) / 18 = v.val; omega⟩
  · intro d₁ _ d₂ _ h
    have h' := congrArg Fin.val h
    exact Fin.ext (by simpa using h')
  · intro m hm
    have hm' : m.val / 18 = v.val := (Finset.mem_filter.mp hm).2
    exact ⟨⟨m.val % 18, Nat.mod_lt _ (by decide)⟩, Finset.mem_univ _, Fin.ext (by show v.val * 18 + m.val % 18 = m.val; omega)⟩
  · intro d _
    rfl

/-! ## The segment sum -/

/-- The product of `l` with the membership matrix, at (r, v), is the sum of row r of `l` over entry v's 18
    columns: the product into the zero accumulator is the sum over all 4608 columns of the row's entry times
    one or zero, and the terms off the segment vanish. -/
theorem segsum_apply (l : FVec Ideal S64x4608 .f32) (r : Fin 64) (v : Fin 256) : (k1_pay3 (F := Ideal) l k1_pay5 (Scalar.ofBits .f32 0x3F800000#32)) (ValueIdx.ix2 r v) = ∑ d : Fin 18, l (ValueIdx.ix2 r (⟨v.val * 18 + d.val, by omega⟩ : Fin 4608)) := by
  unfold k1_pay3
  simp only [matmul]
  rw [Ideal.matmul_constant_zero_apply, ← Equiv.sum_comp cols.symm]
  simp only [lhs_at, rhs_at, select_apply, broadcast_apply, Ideal.ofBits_def, summand]
  exact sum_segment (fun m => l (ix2 r m)) v

end Cert.KernelIdeal.Hand

end
-- ==== Proof.AccValue.lean ====
/-
  The accumulator of region 1 after the last point of a vocabulary chunk.  Each point adds, at (r, q), the sum
  over its 1280 logit columns of the logit times the indicator "column = path index at q"; the chunk's first point
  starts from zero.  After table chunk k the accumulator is the sum over the columns below 1280 (k + 1), and after
  table chunk 24 over all 32000: a sum with at most one non-zero term, the logit at the path index.
-/
import proofs.«403175_j63316407877909_2_alg».proof.Proof.Blocks
import proofs.«403175_j63316407877909_2_alg».proof.Proof.ValDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.Sem
open Cert.KernelIdeal Cert.KernelIdeal.Gen

open Idealize.ShloMosaic.ValueIdx

variable (V : (c : Dev nD) → (b : Ref sig .tc) → Buf (Elt Ideal) ((c : Thread nD τ).loc b))

/-! ## Words -/

/-- The word of a natural below 2³² equals a word exactly when the natural is the word's value. -/
private theorem ofNat_eq_iff (n : ℕ) (hn : n < 2 ^ 32) (w : BitVec 32) : BitVec.ofNat 32 n = w ↔ n = w.toNat := by
  constructor
  · intro e; rw [← e, BitVec.toNat_ofNat]; exact (Nat.mod_eq_of_lt hn).symm
  · intro e; rw [e]; exact BitVec.ofNat_toNat 32 w |>.trans (by simp)

/-- Comparing the word of a natural below 2³² with a word for equality. -/
private theorem cmpi_eq_ofNat (n : ℕ) (hn : n < 2 ^ 32) (w : BitVec 32) :
    IntOp.cmpi .eq (BitVec.ofNat 32 n) w = if n = w.toNat then 1#1 else 0#1 := by
  unfold IntOp.cmpi
  by_cases h : n = w.toNat
  · rw [if_pos h, (ofNat_eq_iff n hn w).mpr h]; simp
  · rw [if_neg h]
    have : (BitVec.ofNat 32 n == w) = false := by
      rw [beq_eq_false_iff_ne]; exact fun e => h ((ofNat_eq_iff n hn w).mp e)
    simp [this]

/-- The column word the kernel forms, 1280 · k + c over 32-bit words, is the word of that natural. -/
private theorem col_word (k c : ℕ) (hk : k < 25) (hc : c < 1280) :
    IntOp.addi (Scalar.muli (BitVec.ofNat 32 k) 1280#32) (BitVec.ofNat 32 c) = BitVec.ofNat 32 (1280 * k + c) := by
  apply BitVec.eq_of_toNat_eq
  simp only [IntOp.addi, Scalar.muli, IntOp.muli, BitVec.toNat_add, BitVec.toNat_mul, BitVec.toNat_ofNat]
  omega

/-! ## The accumulating payload at an index -/

private theorem one_f32 : Ideal.ofBits .f32 0x3F800000#32 = 1 := by
  simp [Ideal.ofBits, Ideal.ieee, -EReal.coe_mul]; norm_num

private theorem lhsA_0 (j : S64x4608.Idx) (k : dot_S64x1280_S1280x4608_S64x4608_1_0_0_1_n_n.contr.Idx) :
    (dot_S64x1280_S1280x4608_S64x4608_1_0_0_1_n_n.lhsIdx j k 0 : ℕ) = j 0 := by
  simp [DotDims.lhsIdx, dot_S64x1280_S1280x4608_S64x4608_1_0_0_1_n_n]; rfl
private theorem lhsA_1 (j : S64x4608.Idx) (k : dot_S64x1280_S1280x4608_S64x4608_1_0_0_1_n_n.contr.Idx) :
    (dot_S64x1280_S1280x4608_S64x4608_1_0_0_1_n_n.lhsIdx j k 1 : ℕ) = k ⟨0, by decide⟩ := by
  simp [DotDims.lhsIdx, dot_S64x1280_S1280x4608_S64x4608_1_0_0_1_n_n]; rfl
private theorem rhsA_0 (j : S64x4608.Idx) (k : dot_S64x1280_S1280x4608_S64x4608_1_0_0_1_n_n.contr.Idx) :
    (dot_S64x1280_S1280x4608_S64x4608_1_0_0_1_n_n.rhsIdx j k 0 : ℕ) = k ⟨0, by decide⟩ := by
  simp [DotDims.rhsIdx, dot_S64x1280_S1280x4608_S64x4608_1_0_0_1_n_n]; rfl
private theorem rhsA_1 (j : S64x4608.Idx) (k : dot_S64x1280_S1280x4608_S64x4608_1_0_0_1_n_n.contr.Idx) :
    (dot_S64x1280_S1280x4608_S64x4608_1_0_0_1_n_n.rhsIdx j k 1 : ℕ) = j 1 := by
  simp [DotDims.rhsIdx, dot_S64x1280_S1280x4608_S64x4608_1_0_0_1_n_n]; rfl

/-- The 0/1 matrix of a point: entry (c, q) is one exactly when column 1280 · k + c is the path index at q. -/
private def oneHot (i : grid1.Coords) (v7 : Vec Ideal S1x1x4608 .i32) : FVec Ideal S1280x4608 .bf16 :=
  truncf .bf16 (select (cmpi .eq (addi (broadcast S1280x4608 (Scalar.muli (BitVec.ofNat 32 (i 1).val) 1280#32))
      (iota .tc S1280x4608 32 [0] iota_S1280x4608_d0_w32))
      (broadcastTo S1280x4608 (shapeCast S1x4608 v7 shapeCasts_S1x1x4608_S1x4608) broadcasts_S1x4608_S1280x4608))
    (broadcast S1280x4608 (Scalar.ofBits .f32 0x3F800000#32)) (broadcast S1280x4608 (Scalar.ofBits .f32 0x00000000#32))) bitsLt_bf16_f32

private theorem pay2_eq (i : grid1.Coords) (v7 : Vec Ideal S1x1x4608 .i32) (v15 : FVec Ideal S64x1280 .bf16) (v18 : FVec Ideal S64x4608 .f32) :
    k1_pay2 (F := Ideal) i v7 v15 v18
      = addf v18 (matmul dot_S64x1280_S1280x4608_S64x4608_1_0_0_1_n_n none v15 (oneHot i v7) (constant S64x4608 .f32 0x00000000#32)) := by
  unfold k1_pay2 oneHot
  simp only [shapeCast_self]

private theorem oneHot_apply (i : grid1.Coords) (v7 : Vec Ideal S1x1x4608 .i32) (c : Fin 1280) (q : Fin 4608) :
    oneHot i v7 (ix2 c q) = if 1280 * (i 1).val + c.val = (v7 (ix3 (0 : Fin 1) (0 : Fin 1) q)).toNat then (1 : EReal) else 0 := by
  have hk : (i 1).val < 25 := (i 1).isLt
  have e0 : iota .tc S1280x4608 32 [0] iota_S1280x4608_d0_w32 (ix2 c q) = BitVec.ofNat 32 c.val :=
    iota_single_apply .tc S1280x4608 32 0 iota_S1280x4608_d0_w32 (ix2 c q)
  have e1 : broadcastTo S1280x4608 (shapeCast S1x4608 v7 shapeCasts_S1x1x4608_S1x4608) broadcasts_S1x4608_S1280x4608 (ix2 c q)
      = v7 (ix3 (0 : Fin 1) (0 : Fin 1) q) :=
    (broadcastTo_1b_ab_apply _ broadcasts_S1x4608_S1280x4608 c q).trans (shapeCast_1ab_ab_apply v7 shapeCasts_S1x1x4608_S1x4608 (0 : Fin 1) q)
  show Scalar.select (IntOp.cmpi .eq (IntOp.addi (Scalar.muli (BitVec.ofNat 32 (i 1).val) 1280#32)
      (iota .tc S1280x4608 32 [0] iota_S1280x4608_d0_w32 (ix2 c q)))
      (broadcastTo S1280x4608 (shapeCast S1x4608 v7 shapeCasts_S1x1x4608_S1x4608) broadcasts_S1x4608_S1280x4608 (ix2 c q)))
    (Ideal.ofBits .f32 0x3F800000#32) (Ideal.ofBits .f32 0x00000000#32) = _
  rw [e0, e1, col_word _ _ hk c.isLt, cmpi_eq_ofNat _ (by omega), one_f32, Ideal.ofBits_zero_f32]
  by_cases h : 1280 * (i 1).val + c.val = (v7 (ix3 (0 : Fin 1) (0 : Fin 1) q)).toNat
  · rw [if_pos h, if_pos h]; exact select_one _ _
  · rw [if_neg h, if_neg h]; exact select_zero _ _

/-- What a point adds to the accumulator at (r, q): the sum over its 1280 columns of the logit times the indicator. -/
private theorem pay2_apply (i : grid1.Coords) (v7 : Vec Ideal S1x1x4608 .i32) (v15 : FVec Ideal S64x1280 .bf16)
    (v18 : FVec Ideal S64x4608 .f32) (r : Fin 64) (q : Fin 4608) :
    k1_pay2 (F := Ideal) i v7 v15 v18 (ix2 r q)
      = v18 (ix2 r q) + ∑ c : Fin 1280, v15 (ix2 r c)
          * (if 1280 * (i 1).val + c.val = (v7 (ix3 (0 : Fin 1) (0 : Fin 1) q)).toNat then (1 : EReal) else 0) := by
  rw [pay2_eq]
  show v18 (ix2 r q) + FloatOps.matmul dot_S64x1280_S1280x4608_S64x4608_1_0_0_1_n_n none v15 (oneHot i v7)
      (constant S64x4608 .f32 0x00000000#32) (ix2 r q) = _
  rw [Ideal.matmul_constant_zero_apply,
    ← Equiv.sum_comp (contrEquiv1 dot_S64x1280_S1280x4608_S64x4608_1_0_0_1_n_n 1280 rfl rfl).symm]
  refine congrArg (v18 (ix2 r q) + ·) (Finset.sum_congr rfl fun c _ => ?_)
  have hl : dot_S64x1280_S1280x4608_S64x4608_1_0_0_1_n_n.lhsIdx (ix2 r q)
      ((contrEquiv1 dot_S64x1280_S1280x4608_S64x4608_1_0_0_1_n_n 1280 rfl rfl).symm c) = ix2 r c :=
    Shape.idx_ext₂ (lhsA_0 _ _) ((lhsA_1 _ _).trans (contrEquiv1_symm_val _ 1280 rfl rfl c))
  have hr : dot_S64x1280_S1280x4608_S64x4608_1_0_0_1_n_n.rhsIdx (ix2 r q)
      ((contrEquiv1 dot_S64x1280_S1280x4608_S64x4608_1_0_0_1_n_n 1280 rfl rfl).symm c) = ix2 c q :=
    Shape.idx_ext₂ ((rhsA_0 _ _).trans (contrEquiv1_symm_val _ 1280 rfl rfl c)) (rhsA_1 _ _)
  rw [hl, hr, oneHot_apply]

/-- The reset value is zero everywhere. -/
private theorem pay1_apply (j : S64x4608.Idx) : k1_pay1 (F := Ideal) j = 0 := by
  unfold k1_pay1
  simp only [shapeCast_self]
  exact Ideal.ofBits_zero_f32

/-! ## The logit and path-index blocks read off the arrays -/

/-- The logit window's block index at a point is (0, t % 25), the path-index window's (t / 25, 0, 0), and the
    point's table chunk is t % 25. -/
private theorem idx_facts_acc : ∀ t : Fin cfg1.N,
    win1_0.index t (0 : Fin 2) = 0 ∧ win1_0.index t (1 : Fin 2) = t.val % 25
    ∧ win1_1.index t (0 : Fin 3) = t.val / 25 ∧ win1_1.index t (1 : Fin 3) = 0 ∧ win1_1.index t (2 : Fin 3) = 0
    ∧ (grid1.coords t 1).val = t.val % 25 :=
  (by decide +kernel : ∀ t : Fin grid1.N, _)

/-- The logit block of a point, at its literal type. -/
private abbrev lblk (c : Dev nD) (t : Fin cfg1.N) : FVec Ideal S64x1280 .bf16 := iblk1 (F := Ideal) V c 0 t
/-- The path-index block of a point, at its literal type. -/
private abbrev pblk (c : Dev nD) (t : Fin cfg1.N) : Vec Ideal S1x1x4608 .i32 := iblk1 (F := Ideal) V c 1 t

/-- Entry (r, cc) of a point's logit block is column 1280 (t % 25) + cc of row r of the logits. -/
private theorem logit_blk (c : Dev nD) (t : Fin cfg1.N) (r : Fin 64) (cc : Fin 1280) :
    lblk V c t (ix2 r cc) = Cert.Spec.hAt (V c main_v4) r (1280 * (t.val % 25) + cc.val) := by
  obtain ⟨e0, e1, -, -, -, -⟩ := idx_facts_acc t
  have hlt : 1280 * (t.val % 25) + cc.val < 32000 := by have := cc.isLt; omega
  unfold Cert.Spec.hAt
  rw [dif_pos hlt]
  show V c main_v4 (((cfg1.win 0).blk t).view.emb (ix2 r cc)) = V c main_v4 (ix2 r ⟨1280 * (t.val % 25) + cc.val, hlt⟩)
  refine congrArg (V c main_v4) (funext fun a => Fin.ext ?_)
  match a with
  | ⟨0, _⟩ => show win1_0.index t (0 : Fin 2) * 64 + 1 * r.val = r.val; omega
  | ⟨1, _⟩ => show win1_0.index t (1 : Fin 2) * 1280 + 1 * cc.val = 1280 * (t.val % 25) + cc.val; omega

/-- Entry q of a point's path-index block is entry (t / 25, 0, q) of the path indices. -/
private theorem pidx_blk (c : Dev nD) (t : Fin cfg1.N) (i : Fin 125) (hi : i.val = t.val / 25) (q : Fin 4608) :
    pblk V c t (ix3 (0 : Fin 1) (0 : Fin 1) q) = (V c main_v5 : Cert.Spec.SP3.Idx → BitVec 32) (ix3 i (0 : Fin 1) q) := by
  obtain ⟨-, -, e0, e1, e2, -⟩ := idx_facts_acc t
  show V c main_v5 (((cfg1.win 1).blk t).view.emb (ix3 (0 : Fin 1) (0 : Fin 1) q)) = V c main_v5 (ix3 i (0 : Fin 1) q)
  refine congrArg (V c main_v5) (funext fun a => Fin.ext ?_)
  match a with
  | ⟨0, _⟩ => show win1_1.index t (0 : Fin 3) * 1 + 1 * 0 = i.val; omega
  | ⟨1, _⟩ => show win1_1.index t (1 : Fin 3) * 1 + 1 * 0 = 0; omega
  | ⟨2, _⟩ => show win1_1.index t (2 : Fin 3) * 4608 + 1 * q.val = q.val; omega

/-! ## The partial sums -/

/-- Column x's term: the logit there times the indicator "x is the path index w". -/
private def colTerm (h : Cert.Spec.SH.Idx → EReal) (r : Fin 64) (w : ℕ) (x : ℕ) : EReal :=
  Cert.Spec.hAt h r x * (if x = w then (1 : EReal) else 0)

/-- The sum over all 32000 columns has at most one non-zero term: the logit at the path index. -/
private theorem colTerm_sum (h : Cert.Spec.SH.Idx → EReal) (r : Fin 64) (w : ℕ) :
    ∑ x ∈ Finset.range 32000, colTerm h r w x = Cert.Spec.hAt h r w := by
  by_cases hw : w < 32000
  · rw [Finset.sum_eq_single w]
    · unfold colTerm; rw [if_pos rfl, mul_one]
    · intro b _ hb; unfold colTerm; rw [if_neg hb, mul_zero]
    · intro hn; exact absurd (Finset.mem_range.mpr hw) hn
  · rw [Finset.sum_eq_zero]
    · unfold Cert.Spec.hAt; rw [dif_neg hw]
    · intro b hb
      have hb' : b < 32000 := Finset.mem_range.mp hb
      unfold colTerm; rw [if_neg (by omega), mul_zero]

/-- What a point adds at (r, q), as a sum over its 1280 columns of the column terms. -/
private theorem point_sum (c : Dev nD) (t : Fin cfg1.N) (r : Fin 64) (w : ℕ) :
    ∑ cc : Fin 1280, lblk V c t (ix2 r cc) * (if 1280 * (t.val % 25) + cc.val = w then (1 : EReal) else 0)
      = ∑ x ∈ Finset.range 1280, colTerm (V c main_v4) r w (1280 * (t.val % 25) + x) := by
  rw [← Fin.sum_univ_eq_sum_range (fun x => colTerm (V c main_v4) r w (1280 * (t.val % 25) + x)) 1280]
  refine Finset.sum_congr rfl fun cc _ => ?_
  rw [logit_blk V c t r cc]
  rfl

/-- One point's step at an index: the payload over the point's blocks, with the table chunk and the path index named. -/
private theorem step_apply (c : Dev nD) (t : Fin cfg1.N) (i : Fin 125) (hi : i.val = t.val / 25)
    (a : FVec Ideal S64x4608 .f32) (r : Fin 64) (q : Fin 4608) :
    k1_pay2 (F := Ideal) (grid1.coords t) (pblk V c t) (lblk V c t) a (ix2 r q)
      = a (ix2 r q) + ∑ x ∈ Finset.range 1280,
          colTerm (V c main_v4) r ((V c main_v5 : Cert.Spec.SP3.Idx → BitVec 32) (ix3 i (0 : Fin 1) q)).toNat (1280 * (t.val % 25) + x) := by
  obtain ⟨-, -, -, -, -, ek⟩ := idx_facts_acc t
  refine (pay2_apply (grid1.coords t) (pblk V c t) (lblk V c t) a r q).trans ?_
  rw [ek, pidx_blk V c t i hi q, point_sum V c t r _]

/-! ## The accumulator after every point, and after a chunk's last point -/

/-- After point n (vocabulary chunk n / 25, table chunk n % 25) the accumulator at (r, q) is the sum of the column
    terms over the columns below 1280 (n % 25 + 1). -/
private theorem acc1_partial (c : Dev nD) : ∀ (n : ℕ) (hn : n < cfg1.N) (i : Fin 125) (hi : i.val = n / 25) (r : Fin 64) (q : Fin 4608),
    acc1 (F := Ideal) V c n hn (ix2 r q)
      = ∑ x ∈ Finset.range (1280 * (n % 25) + 1280),
          colTerm (V c main_v4) r ((V c main_v5 : Cert.Spec.SP3.Idx → BitVec 32) (ix3 i (0 : Fin 1) q)).toNat x
  | 0, hn, i, hi, r, q => by
    rw [acc1_zero]
    refine (step_apply V c ⟨0, hn⟩ i hi (k1_pay1 (F := Ideal)) r q).trans ?_
    rw [pay1_apply, zero_add, Finset.sum_range_add, show 1280 * (0 % 25) = 0 from rfl, Finset.sum_range_zero, zero_add]
  | n + 1, hn, i, hi, r, q => by
    rw [acc1_succ]
    by_cases h0 : (n + 1) % 25 = 0
    · rw [if_pos h0]
      refine (step_apply V c ⟨n + 1, hn⟩ i hi (k1_pay1 (F := Ideal)) r q).trans ?_
      rw [pay1_apply, zero_add, Finset.sum_range_add]
      show _ = ∑ x ∈ Finset.range (1280 * ((n + 1) % 25)), _ + _
      rw [h0, Nat.mul_zero, Finset.sum_range_zero, zero_add]
    · rw [if_neg h0]
      refine (step_apply V c ⟨n + 1, hn⟩ i hi (acc1 (F := Ideal) V c n (Nat.lt_of_succ_lt hn)) r q).trans ?_
      have e : 1280 * ((n + 1) % 25) = 1280 * (n % 25) + 1280 := by omega
      rw [acc1_partial c n (Nat.lt_of_succ_lt hn) i (by omega) r q, e]
      exact (Finset.sum_range_add _ _ _).symm

/-- After the last point of vocabulary chunk i the accumulator at (r, q) is the logit at the path index (i, 0, q). -/
theorem acc1_final (c : Dev nD) (i : Fin 125) (t : Fin cfg1.N) (ht : t.val = 25 * i.val + 24) (r : Fin 64) (q : Fin 4608) :
    acc1 (F := Ideal) V c t.val t.isLt (ValueIdx.ix2 r q)
      = Cert.Spec.hAt (V c main_v4) r ((V c main_v5) (ValueIdx.ix3 i (0 : Fin 1) q)).toNat := by
  rw [acc1_partial V c t.val t.isLt i (by omega) r q,
    show 1280 * (t.val % 25) + 1280 = 32000 from by omega]
  exact colTerm_sum _ r _

end Cert.KernelIdeal.Hand

end
-- ==== Proof.Value1.lean ====
/-
  Region 1's output array after the region, at the ideal instance.  The accumulator after the points of one
  vocabulary chunk is, entry by entry, the sum over all 32000 logit columns of the logit times the indicator
  "column = path index": the logit at the path index.  At table chunk 24 the point stores, for each of its 256
  output columns, the sum over the 18 path positions of the clipped, signed, shifted logistic's logarithm; the 125
  blocks of 256 columns cover the array.
-/
import proofs.«403175_j63316407877909_2_alg».proof.Proof.Region1
import proofs.«403175_j63316407877909_2_alg».proof.Proof.ValDefs
import proofs.«403175_j63316407877909_2_alg».proof.Proof.SegSum
import proofs.«403175_j63316407877909_2_alg».proof.Proof.AccValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## The printed index maps over the grid -/

/-- The sign, bias and output windows' block indices at a point: row `t / 25` of the path arrays, column block `t / 25` of the output. -/
private theorem idx_facts1 : ∀ t : Fin cfg1.N,
    win1_2.index t (0 : Fin 3) = t.val / 25 ∧ win1_2.index t (1 : Fin 3) = 0 ∧ win1_2.index t (2 : Fin 3) = 0
    ∧ win1_3.index t (0 : Fin 3) = t.val / 25 ∧ win1_3.index t (1 : Fin 3) = 0 ∧ win1_3.index t (2 : Fin 3) = 0
    ∧ win1_4.index t (0 : Fin 2) = 0 ∧ win1_4.index t (1 : Fin 2) = t.val / 25 :=
  (by decide +kernel : ∀ t : Fin grid1.N, _)

/-! ## The sign and bias blocks read off the arrays -/

/-- The sign block at a point is row `t / 25` of the sign array. -/
private theorem sgn_blk (c : Dev nD) (t : Fin cfg1.N) (i : Fin 125) (hi : i.val = t.val / 25) (m : Fin 4608) :
    (iblk1 (F := Ideal) V c 2 t : Vec Ideal S1x1x4608 .f32) (ix3 (0 : Fin 1) (0 : Fin 1) m)
      = (V c main_v6 : Cert.Spec.SP3.Idx → EReal) (ix3 i (0 : Fin 1) m) := by
  obtain ⟨e0, e1, e2, -, -, -, -, -⟩ := idx_facts1 t
  show V c main_v6 (((cfg1.win 2).blk t).view.emb (ix3 (0 : Fin 1) (0 : Fin 1) m)) = V c main_v6 (ix3 i (0 : Fin 1) m)
  refine congrArg (V c main_v6) (funext fun a => Fin.ext ?_)
  match a with
  | ⟨0, _⟩ => show win1_2.index t (0 : Fin 3) * 1 + 1 * 0 = i.val; omega
  | ⟨1, _⟩ => show win1_2.index t (1 : Fin 3) * 1 + 1 * 0 = 0; omega
  | ⟨2, _⟩ => show win1_2.index t (2 : Fin 3) * 4608 + 1 * m.val = m.val; omega

/-- The bias block at a point is row `t / 25` of the bias array. -/
private theorem bias_blk (c : Dev nD) (t : Fin cfg1.N) (i : Fin 125) (hi : i.val = t.val / 25) (m : Fin 4608) :
    (iblk1 (F := Ideal) V c 3 t : Vec Ideal S1x1x4608 .f32) (ix3 (0 : Fin 1) (0 : Fin 1) m)
      = (V c main_v7 : Cert.Spec.SP3.Idx → EReal) (ix3 i (0 : Fin 1) m) := by
  obtain ⟨-, -, -, e0, e1, e2, -, -⟩ := idx_facts1 t
  show V c main_v7 (((cfg1.win 3).blk t).view.emb (ix3 (0 : Fin 1) (0 : Fin 1) m)) = V c main_v7 (ix3 i (0 : Fin 1) m)
  refine congrArg (V c main_v7) (funext fun a => Fin.ext ?_)
  match a with
  | ⟨0, _⟩ => show win1_3.index t (0 : Fin 3) * 1 + 1 * 0 = i.val; omega
  | ⟨1, _⟩ => show win1_3.index t (1 : Fin 3) * 1 + 1 * 0 = 0; omega
  | ⟨2, _⟩ => show win1_3.index t (2 : Fin 3) * 4608 + 1 * m.val = m.val; omega

/-! ## The clipped logarithm at an index -/

/-- One row of 4608 entries, laid out [1, 1, 4608], read at column `m` of every one of the 64 rows it is spread over. -/
private theorem row_spread (x : Vec Ideal S1x1x4608 .f32) (r : Fin 64) (m : Fin 4608) :
    broadcastTo S64x4608 (shapeCast S1x4608 x shapeCasts_S1x1x4608_S1x4608) broadcasts_S1x4608_S64x4608 (ix2 r m)
      = x (ix3 (0 : Fin 1) (0 : Fin 1) m) :=
  (broadcastTo_1b_ab_apply _ broadcasts_S1x4608_S64x4608 r m).trans
    (shapeCast_1ab_ab_apply x shapeCasts_S1x1x4608_S1x4608 (0 : Fin 1) m)

/-- Entry (r, m) of the point's logarithm block: the logistic of the accumulator, times the sign, plus the bias, clipped, its logarithm. -/
private theorem pay4_apply (a : Vec Ideal S64x4608 .f32) (sg bi : Vec Ideal S1x1x4608 .f32) (r : Fin 64) (m : Fin 4608) :
    k1_pay4 (F := Ideal) a sg bi (ix2 r m)
      = Ideal.log (min Cert.Spec.hi (max Cert.Spec.lo
          (Ideal.logistic (a (ix2 r m)) * sg (ix3 (0 : Fin 1) (0 : Fin 1) m) + bi (ix3 (0 : Fin 1) (0 : Fin 1) m)))) := by
  show Ideal.log (min (Ideal.ofBits .f32 0x3F800000#32) (max (Ideal.ofBits .f32 0x3089705F#32)
      (Ideal.logistic (a (ix2 r m))
          * broadcastTo S64x4608 (shapeCast S1x4608 sg shapeCasts_S1x1x4608_S1x4608) broadcasts_S1x4608_S64x4608 (ix2 r m)
        + broadcastTo S64x4608 (shapeCast S1x4608 bi shapeCasts_S1x1x4608_S1x4608) broadcasts_S1x4608_S64x4608 (ix2 r m)))) = _
  rw [row_spread sg r m, row_spread bi r m]
  rfl

/-! ## The stored block at an index -/

/-- Path position `d` of output column 256 i + v sits in row `i` of the path arrays at entry 18 v + d. -/
private theorem pos3_eq (i : Fin 125) (v : Fin 256) (n : Fin 32000) (hn : n.val = 256 * i.val + v.val) (d : Fin 18) :
    Cert.Spec.pos3 n d = ix3 i (0 : Fin 1) (⟨v.val * 18 + d.val, by omega⟩ : Fin 4608) := by
  have e0 : (⟨n.val / 256, by omega⟩ : Fin 125) = i := Fin.ext (by show n.val / 256 = i.val; omega)
  have e2 : (⟨(n.val % 256) * 18 + d.val, by omega⟩ : Fin 4608) = ⟨v.val * 18 + d.val, by omega⟩ :=
    Fin.ext (by show (n.val % 256) * 18 + d.val = v.val * 18 + d.val; omega)
  show ix3 (⟨n.val / 256, _⟩ : Fin 125) (0 : Fin 1) (⟨(n.val % 256) * 18 + d.val, _⟩ : Fin 4608) = _
  rw [e0, e2]

/-- What the last point of vocabulary chunk `i` stores at (r, v): the sum over the 18 path positions of output
    column 256 i + v of the path terms. -/
private theorem fin1_apply (c : Dev nD) (i : Fin 125) (t : Fin cfg1.N) (ht : t.val = 25 * i.val + 24) (r : Fin 64) (v : Fin 256)
    (n : Fin 32000) (hn : n.val = 256 * i.val + v.val) :
    fin1 (F := Ideal) V c t (ix2 r v)
      = ∑ d : Fin 18, Cert.Spec.term1 (V c main_v4) (V c main_v5) (V c main_v6) (V c main_v7) r n d := by
  have hi : i.val = t.val / 25 := by omega
  unfold fin1
  refine (segsum_apply (k1_pay4 (F := Ideal) (acc1 V c t.val t.isLt) (iblk1 V c 2 t) (iblk1 V c 3 t)) r v).trans ?_
  refine Finset.sum_congr rfl fun d _ => ?_
  refine (pay4_apply (acc1 V c t.val t.isLt) (iblk1 V c 2 t) (iblk1 V c 3 t) r ⟨v.val * 18 + d.val, by omega⟩).trans ?_
  rw [acc1_final V c i t ht r _, sgn_blk V c t i hi _, bias_blk V c t i hi _]
  unfold Cert.Spec.term1
  rw [pos3_eq i v n hn d]

/-- The closed form at an index whose coordinates are named. -/
private theorem out1_at (h : Cert.Spec.SH.Idx → EReal) (idx : Cert.Spec.SP3.Idx → BitVec 32) (sg bi : Cert.Spec.SP3.Idx → EReal)
    (j : Cert.Spec.SH.Idx) (r : Fin 64) (n : Fin 32000) (hr : (j 0).val = r.val) (hn : (j 1).val = n.val) :
    Cert.Spec.out1 h idx sg bi j = ∑ d : Fin 18, Cert.Spec.term1 h idx sg bi r n d := by
  have e0 : (⟨(j 0).val, idx2_lt0 j⟩ : Fin 64) = r := Fin.ext hr
  have e1 : (⟨(j 1).val, idx2_lt1 j⟩ : Fin 32000) = n := Fin.ext hn
  show ∑ d : Fin 18, Cert.Spec.term1 h idx sg bi ⟨(j 0).val, idx2_lt0 j⟩ ⟨(j 1).val, idx2_lt1 j⟩ d = _
  rw [e0, e1]

/-! ## From the blocks to the array -/

/-- What a writing point writes back is its block of the closed form. -/
private theorem flushed_eq (c : Dev nD) (t : Fin cfg1.N) (hf : (cfg1.win 4).flush t = true) :
    (dat1 (F := Ideal) V c).flushed 4 t
      = ((cfg1.win 4).blk t).view.read (Elt Ideal)
          (Cert.Spec.out1 (V c main_v4) (V c main_v5) (V c main_v6) (V c main_v7)) := by
  have h24 : t.val % 25 = 24 := (flush1_4 t).mp hf
  have hN : cfg1.N = 3125 := N_1
  have htl : t.val < 3125 := by have := t.isLt; omega
  obtain ⟨-, -, -, -, -, -, e0, e1⟩ := idx_facts1 t
  show (cfg1.win 4).cut (grid1.coords t) ((dat1 V c).after 4 t) = _
  rw [after1_4]
  funext y
  obtain ⟨r, v, rfl⟩ : ∃ (r : Fin 64) (v : Fin 256), y = ix2 r v := ⟨y 0, y 1, eq_ix2 (n0 := 64) (n1 := 256) y⟩
  show fin1 V c t (ix2 r v)
    = Cert.Spec.out1 (V c main_v4) (V c main_v5) (V c main_v6) (V c main_v7) (((cfg1.win 4).blk t).view.emb (ix2 r v))
  rw [fin1_apply V c ⟨t.val / 25, by omega⟩ t (by show t.val = 25 * (t.val / 25) + 24; omega) r v
    ⟨256 * (t.val / 25) + v.val, by omega⟩ rfl]
  symm
  refine out1_at _ _ _ _ _ r _ ?_ ?_
  · show win1_4.index t (0 : Fin 2) * 64 + 1 * r.val = r.val; omega
  · show win1_4.index t (1 : Fin 2) * 256 + 1 * v.val = 256 * (t.val / 25) + v.val; omega

/-- An index of the output array is in a point's block iff each coordinate is in the block's range. -/
private theorem mem_out_blk (t : Fin cfg1.N) (j : S64x32000.Idx) :
    j ∈ ((cfg1.win 4).blk t).view.set
      ↔ ∀ a : Fin 2, win1_4.index t a * S64x256.size a ≤ (j a).val ∧ (j a).val < win1_4.index t a * S64x256.size a + S64x256.size a := by
  show j ∈ ((View.whole main_v8).slice (win1_4.rect t)).set ↔ _
  rw [View.set_slice_whole, Rect.mem_set_unit]
  exact Iff.rfl

/-- Column `n` of the output is written by the last point of vocabulary chunk `n / 256`. -/
private theorem out_cover (j : S64x32000.Idx) :
    ∃ t : Fin cfg1.N, (cfg1.win 4).flush t = true ∧ j ∈ ((cfg1.win 4).blk t).view.set := by
  have hN : cfg1.N = 3125 := N_1
  have h0 : (j 0).val < 64 := (j 0).isLt
  have h1 : (j 1).val < 32000 := (j 1).isLt
  have ht : 25 * ((j 1).val / 256) + 24 < cfg1.N := by rw [hN]; omega
  refine ⟨⟨25 * ((j 1).val / 256) + 24, ht⟩,
    (flush1_4 _).mpr (by show (25 * ((j 1).val / 256) + 24) % 25 = 24; omega), ?_⟩
  obtain ⟨-, -, -, -, -, -, e0, e1⟩ := idx_facts1 ⟨25 * ((j 1).val / 256) + 24, ht⟩
  have e1' : win1_4.index ⟨25 * ((j 1).val / 256) + 24, ht⟩ (1 : Fin 2) = (25 * ((j 1).val / 256) + 24) / 25 := e1
  rw [mem_out_blk]
  intro a
  match a with
  | ⟨0, _⟩ =>
    show win1_4.index ⟨25 * ((j 1).val / 256) + 24, ht⟩ (0 : Fin 2) * 64 ≤ (j 0).val
      ∧ (j 0).val < win1_4.index ⟨25 * ((j 1).val / 256) + 24, ht⟩ (0 : Fin 2) * 64 + 64
    rw [e0]; omega
  | ⟨1, _⟩ =>
    show win1_4.index ⟨25 * ((j 1).val / 256) + 24, ht⟩ (1 : Fin 2) * 256 ≤ (j 1).val
      ∧ (j 1).val < win1_4.index ⟨25 * ((j 1).val / 256) + 24, ht⟩ (1 : Fin 2) * 256 + 256
    rw [e1']; omega

/-- After region 1 its output array holds `out1` of the four input arrays as the region found them. -/
theorem final1 (c : Dev nD) :
    (dat1 (F := Ideal) V c).arrAt 4 cfg1.N
      = Cert.Spec.out1 (V c main_v4) (V c main_v5) (V c main_v6) (V c main_v7) := by
  exact (dat1 (F := Ideal) V c).arrAt_eq_of_cover 4
    (Cert.Spec.out1 (V c main_v4) (V c main_v5) (V c main_v6) (V c main_v7))
    (fun t hf => flushed_eq V c t hf) (fun j => out_cover j)

end Cert.KernelIdeal.Hand

end
-- ==== Proof.KernelValue.lean ====
/-
  The kernel program's result at the ideal instance is the specification `G` of the arguments, where the path
  indices are inside the weight table: the host stretches around the two regions (reshape and rounding of the
  activations, padding of the weight table by a zero row, reshapes of the three path arrays, the final reshape)
  read at an index, joined with what the two regions leave.
-/
import proofs.«403175_j63316407877909_2_alg».proof.Proof.Vals
import proofs.«403175_j63316407877909_2_alg».proof.Proof.Value0
import proofs.«403175_j63316407877909_2_alg».proof.Proof.Value1
import Idealize.ShloMosaic.Lib.StableHlo.Run
import Idealize.ShloMosaic.Lib.ValueLayout
import Idealize.ShloMosaic.Lib.KernelVsHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The activations region 0 finds: the argument laid out as [64, 512]; the change of format is the identity. -/
private theorem act_eq (c : Dev nD) :
    @Eq (FVec Ideal S64x512 .bf16) (V3 (F := Ideal) m c main_v1)
      (truncf .bf16 (shapeCast S64x512 (m ((c : Thread nD τ).loc main_arg0)) shapeCasts_S4x16x512_S64x512) bitsLt_bf16_f32) := by
  show StableHlo.after hostOps0_2 (StableHlo.after hostOps0_1 (StableHlo.after hostOps0 (fun b => m (c, b)))) (Proc.devRef .tc main_v1) = _
  after_results
  rfl

/-- Row 16 b + t of the activations region 0 finds is row (b, t) of the argument. -/
private theorem act_apply (c : Dev nD) (b : Fin 4) (t : Fin 16) (e : Fin 512) (r : Fin 64) (hr : r.val = 16 * b.val + t.val) :
    @Eq EReal (V3 (F := Ideal) m c main_v1 (ix2 r e)) (m ((c : Thread nD τ).loc main_arg0) (ix3 b t e)) := by
  rw [act_eq, truncf_apply]
  refine shapeCast_apply (s := S4x16x512) (t := S64x512) _ _ _ _ ?_
  show ((S4x16x512).rowMajor (ix3 b t e)).val = ((S64x512).rowMajor (ix2 r e)).val
  rw [Shape.rowMajor_val_three, Shape.rowMajor_val_two]
  show (b.val * 16 + t.val) * 512 + e.val = r.val * 512 + e.val
  omega

/-- The weight table region 0 finds: the argument padded below by one row of the converted integer zero. -/
private theorem wt_eq (c : Dev nD) :
    @Eq (FVec Ideal S32000x512 .bf16) (V3 (F := Ideal) m c main_v3)
      (truncf .bf16 (pad S32000x512 ![0, 0] ![1, 0] ![0, 0] (m ((c : Thread nD τ).loc main_arg1))
        (sitofp (F := Ideal) .f32 (constantI S_ 32 0#32)) pads_S31999x512_S32000x512_010_000 h_S_) bitsLt_bf16_f32) := by
  show StableHlo.after hostOps0_2 (StableHlo.after hostOps0_1 (StableHlo.after hostOps0 (fun b => m (c, b)))) (Proc.devRef .tc main_v3) = _
  after_results
  rfl

/-- A row of the padded table below the added one is the argument's row. -/
private theorem wt_apply (c : Dev nD) (k : Fin 32000) (e : Fin 512) (hk : k.val < 31999) :
    @Eq EReal (V3 (F := Ideal) m c main_v3 (ix2 k e)) (m ((c : Thread nD τ).loc main_arg1) (ix2 (⟨k.val, hk⟩ : Fin 31999) e)) := by
  rw [wt_eq, truncf_apply]
  refine pad_apply_of_inside (s := S31999x512) (t := S32000x512) _ _ _ _ _ _ _ _ _ ?_
  intro a
  match a with
  | ⟨0, _⟩ => show k.val = 0 + k.val * (0 + 1); omega
  | ⟨1, _⟩ => show e.val = 0 + e.val * (0 + 1); omega

/-- An argument of the program reaches region 0's exit as launched: no host stretch before it and no window of region 0 writes it. -/
private theorem W4_arg2 (c : Dev nD) :
    W4 (F := Ideal) m c (Proc.devRef .tc main_arg2) = m ((c : Thread nD τ).loc main_arg2) := by
  rw [W4_of_ne m c main_arg2 (by decide)]
  show StableHlo.after hostOps0_2 (StableHlo.after hostOps0_1 (StableHlo.after hostOps0 (fun b => m (c, b)))) (Proc.devRef .tc main_arg2) = _
  after_results
private theorem W4_arg3 (c : Dev nD) :
    W4 (F := Ideal) m c (Proc.devRef .tc main_arg3) = m ((c : Thread nD τ).loc main_arg3) := by
  rw [W4_of_ne m c main_arg3 (by decide)]
  show StableHlo.after hostOps0_2 (StableHlo.after hostOps0_1 (StableHlo.after hostOps0 (fun b => m (c, b)))) (Proc.devRef .tc main_arg3) = _
  after_results
private theorem W4_arg4 (c : Dev nD) :
    W4 (F := Ideal) m c (Proc.devRef .tc main_arg4) = m ((c : Thread nD τ).loc main_arg4) := by
  rw [W4_of_ne m c main_arg4 (by decide)]
  show StableHlo.after hostOps0_2 (StableHlo.after hostOps0_1 (StableHlo.after hostOps0 (fun b => m (c, b)))) (Proc.devRef .tc main_arg4) = _
  after_results

/-- The three path arrays region 1 finds: the arguments laid out as [125, 1, 4608]. -/
private theorem idx_eq (c : Dev nD) :
    @Eq (IVec S125x1x4608 32) (V5 (F := Ideal) m c main_v5)
      (shapeCast S125x1x4608 (m ((c : Thread nD τ).loc main_arg2)) shapeCasts_S576000_S125x1x4608) := by
  show StableHlo.after hostOps1 (W4 m c) (Proc.devRef .tc main_v5) = _
  after_results
  rw [W4_arg2]
  rfl
private theorem sgn_eq (c : Dev nD) :
    @Eq (FVec Ideal S125x1x4608 .f32) (V5 (F := Ideal) m c main_v6)
      (shapeCast S125x1x4608 (m ((c : Thread nD τ).loc main_arg3)) shapeCasts_S576000_S125x1x4608) := by
  show StableHlo.after hostOps1 (W4 m c) (Proc.devRef .tc main_v6) = _
  after_results
  rw [W4_arg3]
  rfl
private theorem bias_eq (c : Dev nD) :
    @Eq (FVec Ideal S125x1x4608 .f32) (V5 (F := Ideal) m c main_v7)
      (shapeCast S125x1x4608 (m ((c : Thread nD τ).loc main_arg4)) shapeCasts_S576000_S125x1x4608) := by
  show StableHlo.after hostOps1 (W4 m c) (Proc.devRef .tc main_v7) = _
  after_results
  rw [W4_arg4]
  rfl

/-- In the [125, 1, 4608] layout path position `d` of vocabulary entry `v` sits at flat position
    4608 (v / 256) + (v % 256) · 18 + d = 18 v + d. -/
private theorem path_cast_apply {α : Type} (x : S576000.Idx → α) (v : Fin 32000) (d : Fin 18) :
    shapeCast S125x1x4608 x shapeCasts_S576000_S125x1x4608 (Cert.Spec.pos3 v d) = x (ix1 (Cert.Spec.pos v d)) := by
  refine shapeCast_apply (s := S576000) (t := S125x1x4608) _ _ _ _ ?_
  show (S576000.rowMajor (ix1 (Cert.Spec.pos v d))).val = (S125x1x4608.rowMajor (Cert.Spec.pos3 v d)).val
  rw [Shape.rowMajor_val_one, Shape.rowMajor_val_three]
  show v.val * 18 + d.val = ((v.val / 256) * 1 + 0) * 4608 + ((v.val % 256) * 18 + d.val)
  omega

/-- Region 1 finds in its first window what region 0 left: the logits of the activations and the padded table. -/
private theorem logits_eq (c : Dev nD) :
    @Eq (Cert.Spec.SH.Idx → EReal) (V5 (F := Ideal) m c main_v4)
      (Cert.Spec.logits0 (V3 (F := Ideal) m c main_v1) (V3 (F := Ideal) m c main_v3)) := by
  show StableHlo.after hostOps1 (W4 m c) (Proc.devRef .tc main_v4) = _
  after_results
  exact (W4_arr m c 2).trans (final0 (V3 m) c)

/-- Region 1 leaves `out1` of what it found. -/
private theorem out_eq (c : Dev nD) :
    @Eq (Cert.Spec.SH.Idx → EReal) (W6 (F := Ideal) m c (Proc.devRef .tc main_v8))
      (Cert.Spec.out1 (V5 (F := Ideal) m c main_v4) (V5 (F := Ideal) m c main_v5) (V5 (F := Ideal) m c main_v6)
        (V5 (F := Ideal) m c main_v7)) :=
  (W6_arr m c 4).trans (final1 (V5 m) c)

/-- The result buffer: region 1's output laid out as [4, 16, 32000]. -/
private theorem res_eq (c : Dev nD) :
    @Eq (FVec Ideal S4x16x32000 .f32) (W7 (F := Ideal) m c (Proc.devRef .tc main_v9))
      (shapeCast S4x16x32000 (W6 (F := Ideal) m c (Proc.devRef .tc main_v8)) shapeCasts_S64x32000_S4x16x32000) := by
  show StableHlo.after hostOps2 (W6 m c) (Proc.devRef .tc main_v9) = _
  after_results
  rfl

/-- Entry (b, t, v) of the [4, 16, 32000] layout is entry (16 b + t, v) of the [64, 32000] array. -/
private theorem res_cast_apply {α : Type} (x : S64x32000.Idx → α) (b : Fin 4) (t : Fin 16) (v : Fin 32000) (r : Fin 64)
    (hr : r.val = 16 * b.val + t.val) :
    shapeCast S4x16x32000 x shapeCasts_S64x32000_S4x16x32000 (ix3 b t v) = x (ix2 r v) := by
  refine shapeCast_apply (s := S64x32000) (t := S4x16x32000) _ _ _ _ ?_
  show (S64x32000.rowMajor (ix2 r v)).val = (S4x16x32000.rowMajor (ix3 b t v)).val
  rw [Shape.rowMajor_val_two, Shape.rowMajor_val_three]
  show r.val * 32000 + v.val = (b.val * 16 + t.val) * 32000 + v.val
  omega

/-- A column of the logits read at a row, the column being one of the table's 32000. -/
private theorem hAt_logits0 (x : Cert.Spec.SX.Idx → EReal) (w : Cert.Spec.SWp.Idx → EReal) (r : Fin 64) (k : ℕ) (hk : k < 32000) :
    Cert.Spec.hAt (Cert.Spec.logits0 x w) r k = ∑ e : Fin 512, x (ix2 r e) * w (ix2 (⟨k, hk⟩ : Fin 32000) e) := by
  unfold Cert.Spec.hAt
  rw [dif_pos hk]
  rfl

/-- Region 1's output at an entry is the sum of the 18 path terms. -/
private theorem out1_apply (h : Cert.Spec.SH.Idx → EReal) (idx : Cert.Spec.SP3.Idx → BitVec 32) (sg bi : Cert.Spec.SP3.Idx → EReal)
    (r : Fin 64) (v : Fin 32000) :
    Cert.Spec.out1 h idx sg bi (ix2 r v) = ∑ d : Fin 18, Cert.Spec.term1 h idx sg bi r v d := rfl

/-- Row 16 b + t of the logits at a column below the added row: the inner product of the argument's row (b, t) with the
    weight table's row, since the padded table agrees with the table there. -/
private theorem hAt_eq (c : Dev nD) (b : Fin 4) (t : Fin 16) (r : Fin 64) (hr : r.val = 16 * b.val + t.val) (k : ℕ) (hk : k < 31999) :
    Cert.Spec.hAt (Cert.Spec.logits0 (V3 (F := Ideal) m c main_v1) (V3 (F := Ideal) m c main_v3)) r k
      = Cert.Spec.logitAt (m ((c : Thread nD τ).loc main_arg0)) (m ((c : Thread nD τ).loc main_arg1)) b t k := by
  have hk' : k < 32000 := by omega
  rw [hAt_logits0 _ _ r k hk']
  unfold Cert.Spec.logitAt
  rw [dif_pos hk]
  unfold Cert.Spec.logit
  refine Finset.sum_congr rfl fun e _ => ?_
  rw [act_apply m c b t e r hr, wt_apply m c ⟨k, hk'⟩ e hk]

/-- One path term from what region 1 finds is the specification's term at position 18 v + d. -/
private theorem term_eq (c : Dev nD) (h : Cert.Spec.InRange (m ((c : Thread nD τ).loc main_arg2)))
    (b : Fin 4) (t : Fin 16) (r : Fin 64) (hr : r.val = 16 * b.val + t.val) (v : Fin 32000) (d : Fin 18) :
    Cert.Spec.term1 (V5 (F := Ideal) m c main_v4) (V5 (F := Ideal) m c main_v5) (V5 (F := Ideal) m c main_v6)
        (V5 (F := Ideal) m c main_v7) r v d
      = Cert.Spec.term (m ((c : Thread nD τ).loc main_arg0)) (m ((c : Thread nD τ).loc main_arg1))
          (m ((c : Thread nD τ).loc main_arg2)) (m ((c : Thread nD τ).loc main_arg3)) (m ((c : Thread nD τ).loc main_arg4))
          b t (Cert.Spec.pos v d) := by
  unfold Cert.Spec.term1 Cert.Spec.term
  rw [idx_eq, sgn_eq, bias_eq, path_cast_apply, path_cast_apply, path_cast_apply, logits_eq,
    hAt_eq m c b t r hr _ (h _)]

/-- The result buffer at the return is `G` of the five arguments. -/
theorem kernel_value (c : Dev nD) (h : Cert.Spec.InRange (m ((c : Thread nD τ).loc main_arg2))) :
    W7 (F := Ideal) m c (Proc.devRef .tc main_v9)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) := by
  show @Eq (Cert.Spec.SOut.Idx → EReal) _ _
  funext j
  obtain ⟨b, t, v, rfl⟩ : ∃ (b : Fin 4) (t : Fin 16) (v : Fin 32000), j = ix3 b t v := ⟨j 0, j 1, j 2, eq_ix3 j⟩
  have hr : ((⟨16 * b.val + t.val, by omega⟩ : Fin 64)).val = 16 * b.val + t.val := rfl
  rw [res_eq, res_cast_apply _ b t v _ hr, out_eq, out1_apply]
  exact Finset.sum_congr rfl fun d _ => term_eq m c h b t _ hr v d

end Cert.KernelIdeal.Hand

end
-- ==== Proof.PreDecode.lean ====
/-
  The precondition's last conjunct read back: where the printed predicate is all ones, every path index word is,
  as a signed number, at least 0 and below 31999; so its value as a natural number is below 31999.
-/
import proofs.«403175_j63316407877909_2_alg».proof.Defs
import proofs.«403175_j63316407877909_2_alg».proof.Proof.Gen.Pre_finite_inputs
import proofs.«403175_j63316407877909_2_alg».proof.Proof.Gen.KernelIdeal
import proofs.«403175_j63316407877909_2_alg».proof.Proof.Spec
import Idealize.ShloMosaic.Lib.ReduceAll
import Idealize.ShloMosaic.Lib.StableHlo.Predicate

noncomputable section

namespace Cert.KernelIdeal.Hand

open Idealize.ShloMosaic Idealize.ShloMosaic.TcCoe Idealize.SL.Sem Cert.KernelIdeal

/-- The rank-0 shape has exactly one index: the empty tuple. -/
private instance subsingleton_scalar_idx : Subsingleton Cert.Pre_finite_inputs.S_.Idx :=
  ⟨fun a b => funext fun d => d.elim0⟩

/-- A 32-bit word that, read as a signed number, is at least 0 and below 31999 is below 31999 as a natural number:
    a word whose signed value is nonnegative has its top bit clear, so its signed and unsigned values agree. -/
private theorem toNat_lt_of_signed (w : BitVec 32) (h0 : IntOp.cmpi .sge w 0#32 = 1#1)
    (h1 : IntOp.cmpi .slt w 31999#32 = 1#1) : w.toNat < 31999 := by
  rw [IntOp.cmpi_sge, show (0#32 : BitVec 32).toInt = 0 from by decide] at h0
  rw [IntOp.cmpi_slt, show (31999#32 : BitVec 32).toInt = 31999 from by decide] at h1
  have c := BitVec.toInt_eq_toNat_cond w
  split at c <;> omega

/-- The printed predicate, all ones, puts every path index inside the weight table. -/
theorem inRange_of_fn {F : FTy → Type} [FloatOps F] (a0 : FVec F Cert.Pre_finite_inputs.S4x16x512 .f32) (a1 : FVec F Cert.Pre_finite_inputs.S31999x512 .f32)
    (a2 : IVec Cert.Pre_finite_inputs.S576000 32) (a3 a4 : FVec F Cert.Pre_finite_inputs.S576000 .f32)
    (h : Cert.Pre_finite_inputs.fn (F := F) a0 a1 a2 a3 a4 = fun _ => 1#1) : Cert.Spec.InRange a2 := by
  intro p
  -- the predicate's one entry is the conjunction of the four finiteness tests and the range test
  have h0 := congrFun h ValueIdx.ix0
  dsimp only [Cert.Pre_finite_inputs.fn, Cert.Pre_finite_inputs.fn_part1] at h0
  -- its last conjunct: the conjunction over all 576000 positions of "0 ≤ index" and "index < 31999"
  have hall := (IntOp.andi_eq_one.1 h0).2
  -- so both comparisons hold at position p
  have hp := Host.reduce_andi_all _ _ _ _ _ hall (ValueIdx.ix1 p)
  obtain ⟨hge, hlt⟩ := IntOp.andi_eq_one.1 hp
  exact toNat_lt_of_signed (a2 (ValueIdx.ix1 p)) hge hlt

/-- Under the kernel program's precondition the path indices are in range on every device. -/
theorem inRange_of_pre (m : (ℓ : Loc nD τ sig) → Buf (Elt Ideal) ℓ) (h : Cert.Pre_KernelIdeal m) (c : Dev nD) :
    Cert.Spec.InRange (m ((c.tc : Thread nD τ).loc main_arg2)) :=
  inRange_of_fn _ _ _ _ _ (h c)

end Cert.KernelIdeal.Hand

end
-- ==== Proof.RefRun.lean ====
/-
  The reference program's run, operation by operation.

  @main is a straight line of tensor operations once its three outlined functions are put in their calls' places:
  the logits (a contraction of the activations with the weight table), their logistic (negate, exponential, one
  plus, one over), the take along the last axis (the index normalised, tested against the table's extent, gathered,
  and masked by the test), the sign and the bias spread over the rows, the regrouping of the 576000 path positions
  as 32000 entries of 18, the clamp between the two bounds, the logarithm, and the sum over the 18.  The run of such
  a line ends with every buffer at the composition of the operations' functions applied to the arguments' launch
  contents; that composition at the result buffer is the function refOut below.
-/
import proofs.«403175_j63316407877909_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The operations -/

/-- @main's operations in order, the called functions' in their calls' places: nine of @main (the contraction and
    the logistic), the take's six up to its inner call, that call's select, the take's other nineteen, nine of @main
    (sign, bias, regrouping and the two bounds), the clamp's six, and @main's last three (logarithm, zero, sum). -/
abbrev ops : List (HloOp τ sig (Elt F)) :=
  [ binary main_arg0 main_arg1 main_v0 ((fun l r => Host.dotGeneral dot_S4x16x512_S31999x512_S4x16x31999_2_1_01_0_n_n none l r) : (⟨S4x16x512, .f32⟩ : BufTy).Contents (Elt F) → (⟨S31999x512, .f32⟩ : BufTy).Contents (Elt F) → (⟨S4x16x31999, .f32⟩ : BufTy).Contents (Elt F)),
    unary main_v0 main_v1 (Host.negf : (⟨S4x16x31999, .f32⟩ : BufTy).Contents (Elt F) → (⟨S4x16x31999, .f32⟩ : BufTy).Contents (Elt F)),
    unary main_v1 main_v2 (Host.exp : (⟨S4x16x31999, .f32⟩ : BufTy).Contents (Elt F) → (⟨S4x16x31999, .f32⟩ : BufTy).Contents (Elt F)),
    nullary main_cst (constant S_ .f32 0x3F800000#32),
    unary main_cst main_v3 (broadcastInDim S4x16x31999 ![] bcast_S_S4x16x31999 : (⟨S_, .f32⟩ : BufTy).Contents (Elt F) → (⟨S4x16x31999, .f32⟩ : BufTy).Contents (Elt F)),
    binary main_v3 main_v2 main_v4 (addf : (⟨S4x16x31999, .f32⟩ : BufTy).Contents (Elt F) → (⟨S4x16x31999, .f32⟩ : BufTy).Contents (Elt F) → (⟨S4x16x31999, .f32⟩ : BufTy).Contents (Elt F)),
    nullary main_cst_0 (constant S_ .f32 0x3F800000#32),
    unary main_cst_0 main_v5 (broadcastInDim S4x16x31999 ![] bcast_S_S4x16x31999 : (⟨S_, .f32⟩ : BufTy).Contents (Elt F) → (⟨S4x16x31999, .f32⟩ : BufTy).Contents (Elt F)),
    binary main_v5 main_v4 main_v6 (Host.divf : (⟨S4x16x31999, .f32⟩ : BufTy).Contents (Elt F) → (⟨S4x16x31999, .f32⟩ : BufTy).Contents (Elt F) → (⟨S4x16x31999, .f32⟩ : BufTy).Contents (Elt F)),
    TRef.nullary main_call0.c (constantI S_ 32 0#32),
    TRef.unary main_call0.c main_call0.v0 (broadcastInDim S576000 ![] bcast_S_S576000),
    TRef.binary (.of main_arg2) main_call0.v0 main_call0.v1 (cmpi .slt),
    TRef.nullary main_call0.c_0 (constantI S_ 32 31999#32),
    TRef.unary main_call0.c_0 main_call0.v2 (broadcastInDim S576000 ![] bcast_S_S576000),
    TRef.binary (.of main_arg2) main_call0.v2 main_call0.v3 addi,
    TRef.ternary main_call0.v1 main_call0.v3 (.of main_arg2) main_call0.call0.v0 select,
    TRef.unary main_call0.call0.v0 main_call0.v5 (broadcastInDim S576000x1 ![0] bcast_S576000_S576000x1_0),
    TRef.nullary main_call0.c_1 (constantI S1 32 31998#32),
    TRef.nullary main_call0.c_2 (constantI S_ 32 0#32),
    TRef.unary main_call0.c_2 main_call0.v6 (broadcastInDim S576000x1 ![] bcast_S_S576000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S576000x1 ![0, 1] bcast_S1x1_S576000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S576000x1_S576000_d1 h_S_),
    TRef.binary (.of main_v6) main_call0.v5 main_call0.v13 (fun x i => Host.gather gather_S4x16x31999_S576000x1_S4x16x576000_01_2_n_n_2_1_4161 x i),
    TRef.unary main_call0.v12 main_call0.v14 (broadcastInDim S4x16x576000 ![2] bcast_S576000_S4x16x576000_2),
    TRef.nullary main_call0.cst (constant S_ .f32 0x7FC00000#32),
    TRef.unary main_call0.cst main_call0.v15 (broadcastInDim S4x16x576000 ![] bcast_S_S4x16x576000),
    TRef.ternary main_call0.v14 main_call0.v13 main_call0.v15 main_call0.v16 select,
    unary main_arg3 main_v8 (broadcastInDim S1x1x576000 ![2] bcast_S576000_S1x1x576000_2 : (⟨S576000, .f32⟩ : BufTy).Contents (Elt F) → (⟨S1x1x576000, .f32⟩ : BufTy).Contents (Elt F)),
    unary main_v8 main_v9 (broadcastInDim S4x16x576000 ![0, 1, 2] bcast_S1x1x576000_S4x16x576000_0_1_2 : (⟨S1x1x576000, .f32⟩ : BufTy).Contents (Elt F) → (⟨S4x16x576000, .f32⟩ : BufTy).Contents (Elt F)),
    binary main_v7 main_v9 main_v10 (mulf : (⟨S4x16x576000, .f32⟩ : BufTy).Contents (Elt F) → (⟨S4x16x576000, .f32⟩ : BufTy).Contents (Elt F) → (⟨S4x16x576000, .f32⟩ : BufTy).Contents (Elt F)),
    unary main_arg4 main_v11 (broadcastInDim S1x1x576000 ![2] bcast_S576000_S1x1x576000_2 : (⟨S576000, .f32⟩ : BufTy).Contents (Elt F) → (⟨S1x1x576000, .f32⟩ : BufTy).Contents (Elt F)),
    unary main_v11 main_v12 (broadcastInDim S4x16x576000 ![0, 1, 2] bcast_S1x1x576000_S4x16x576000_0_1_2 : (⟨S1x1x576000, .f32⟩ : BufTy).Contents (Elt F) → (⟨S4x16x576000, .f32⟩ : BufTy).Contents (Elt F)),
    binary main_v10 main_v12 main_v13 (addf : (⟨S4x16x576000, .f32⟩ : BufTy).Contents (Elt F) → (⟨S4x16x576000, .f32⟩ : BufTy).Contents (Elt F) → (⟨S4x16x576000, .f32⟩ : BufTy).Contents (Elt F)),
    reshape main_v13 main_v14 rfl shapeCasts_S4x16x576000_S4x16x32000x18,
    nullary main_cst_1 (constant S_ .f32 0x3089705F#32),
    nullary main_cst_2 (constant S_ .f32 0x3F800000#32),
    TRef.unary (.of main_cst_1) main_call1.v0 id,
    TRef.unary main_call1.v0 main_call1.v1 (broadcastInDim S4x16x32000x18 ![] bcast_S_S4x16x32000x18),
    TRef.binary main_call1.v1 (.of main_v14) main_call1.v2 maximumf,
    TRef.unary (.of main_cst_2) main_call1.v3 id,
    TRef.unary main_call1.v3 main_call1.v4 (broadcastInDim S4x16x32000x18 ![] bcast_S_S4x16x32000x18),
    TRef.binary main_call1.v4 main_call1.v2 main_call1.v5 minimumf,
    unary main_v15 main_v16 (Host.log : (⟨S4x16x32000x18, .f32⟩ : BufTy).Contents (Elt F) → (⟨S4x16x32000x18, .f32⟩ : BufTy).Contents (Elt F)),
    nullary main_cst_3 (constant S_ .f32 0x00000000#32),
    binary main_v16 main_cst_3 main_v17 ((fun x v => Host.reduceAdd x v reducesTo_S4x16x32000x18_S4x16x32000_d3 h_S_) : (⟨S4x16x32000x18, .f32⟩ : BufTy).Contents (Elt F) → (⟨S_, .f32⟩ : BufTy).Contents (Elt F) → (⟨S4x16x32000, .f32⟩ : BufTy).Contents (Elt F)) ]

-- fifty-three binds re-associated: the rewrite under the chain recurses once per statement
set_option maxRecDepth 1024 in
/-- @main is that straight line: the three functions' definitions unfolded at their calls, both sides are one chain of
    steps once sequencing is reassociated. -/
theorem main_eq (c : Dev nD) : main (F := F) c = seq ops := by
  simp only [main, fn_take.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., nullary_bufs_sub .., unary_bufs_sub .., binary_bufs_sub ..,
    nullary_bufs_sub .., unary_bufs_sub .., binary_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    unary_bufs_sub .., unary_bufs_sub .., binary_bufs_sub .., unary_bufs_sub .., unary_bufs_sub .., binary_bufs_sub ..,
    reshape_bufs_sub .., nullary_bufs_sub .., nullary_bufs_sub ..,
    unary_bufs_sub .., unary_bufs_sub .., binary_bufs_sub .., unary_bufs_sub .., unary_bufs_sub .., binary_bufs_sub ..,
    unary_bufs_sub .., nullary_bufs_sub .., binary_bufs_sub ..⟩

/-! ## The result as one function of the arguments, stage by stage -/

/-- The logistic of the logits: one over one plus the exponential of minus the contraction of the activations with
    the weight table, at every (row, inner node). -/
def refProb (a0 : FVec F S4x16x512 .f32) (a1 : FVec F S31999x512 .f32) : FVec F S4x16x31999 .f32 :=
  Host.divf (F := F) (broadcastInDim S4x16x31999 ![] bcast_S_S4x16x31999 (constant (F := F) S_ .f32 0x3F800000#32))
    (addf (F := F) (broadcastInDim S4x16x31999 ![] bcast_S_S4x16x31999 (constant (F := F) S_ .f32 0x3F800000#32))
      (Host.exp (F := F) (Host.negf (F := F)
        (Host.dotGeneral (F := F) dot_S4x16x512_S31999x512_S4x16x31999_2_1_01_0_n_n none a0 a1))))

/-- The take's normalised index: a negative index (as a signed word) counts from the table's end. -/
def refIdx (a2 : IVec S576000 32) : IVec S576000 32 :=
  select (cmpi .slt a2 (broadcastInDim S576000 ![] bcast_S_S576000 (constantI S_ 32 0#32)))
    (addi a2 (broadcastInDim S576000 ![] bcast_S_S576000 (constantI S_ 32 31999#32))) a2

/-- The same as a column of one-entry index vectors, the form the gather reads. -/
def refIdxCol (a2 : IVec S576000 32) : IVec S576000x1 32 :=
  broadcastInDim S576000x1 ![0] bcast_S576000_S576000x1_0 (refIdx a2)

/-- The take's range test per path position: the index lies between 0 and 31998 (signed). -/
def refMask (a2 : IVec S576000 32) : IVec S576000 1 :=
  Host.reduce IntOp.andi
    (andi (cmpi .sge (refIdxCol a2) (broadcastInDim S576000x1 ![] bcast_S_S576000x1 (constantI S_ 32 0#32)))
      (cmpi .sle (refIdxCol a2)
        (broadcastInDim S576000x1 ![0, 1] bcast_S1x1_S576000x1_0_1
          (broadcastInDim S1x1 ![1] bcast_S1_S1x1_1 (constantI S1 32 31998#32)))))
    (constantI S_ 1 1#1) reducesTo_S576000x1_S576000_d1 h_S_

/-- The take along the last axis: the gathered column where the index is in range, the fill value elsewhere. -/
def refTake (p : FVec F S4x16x31999 .f32) (a2 : IVec S576000 32) : FVec F S4x16x576000 .f32 :=
  select (broadcastInDim S4x16x576000 ![2] bcast_S576000_S4x16x576000_2 (refMask a2))
    (Host.gather gather_S4x16x31999_S576000x1_S4x16x576000_01_2_n_n_2_1_4161 p (refIdxCol a2))
    (broadcastInDim S4x16x576000 ![] bcast_S_S4x16x576000 (constant (F := F) S_ .f32 0x7FC00000#32))

/-- Times the sign, plus the bias, each spread over the rows. -/
def refPath (t : FVec F S4x16x576000 .f32) (a3 a4 : FVec F S576000 .f32) : FVec F S4x16x576000 .f32 :=
  addf (F := F)
    (mulf (F := F) t
      (broadcastInDim S4x16x576000 ![0, 1, 2] bcast_S1x1x576000_S4x16x576000_0_1_2
        (broadcastInDim S1x1x576000 ![2] bcast_S576000_S1x1x576000_2 a3)))
    (broadcastInDim S4x16x576000 ![0, 1, 2] bcast_S1x1x576000_S4x16x576000_0_1_2
      (broadcastInDim S1x1x576000 ![2] bcast_S576000_S1x1x576000_2 a4))

/-- The clamp: the larger of the lower bound and the value, then the smaller of the upper bound and that. -/
def refClip (x : FVec F S4x16x32000x18 .f32) : FVec F S4x16x32000x18 .f32 :=
  minimumf (F := F)
    (broadcastInDim S4x16x32000x18 ![] bcast_S_S4x16x32000x18 (id (constant (F := F) S_ .f32 0x3F800000#32)))
    (maximumf (F := F)
      (broadcastInDim S4x16x32000x18 ![] bcast_S_S4x16x32000x18 (id (constant (F := F) S_ .f32 0x3089705F#32))) x)

/-- The reference's result as one function of its five arguments. -/
def refOut (a0 : FVec F S4x16x512 .f32) (a1 : FVec F S31999x512 .f32) (a2 : IVec S576000 32)
    (a3 a4 : FVec F S576000 .f32) : FVec F S4x16x32000 .f32 :=
  Host.reduceAdd (F := F)
    (Host.log (F := F)
      (refClip (shapeCast S4x16x32000x18 (refPath (refTake (refProb a0 a1) a2) a3 a4)
        shapeCasts_S4x16x576000_S4x16x32000x18)))
    (constant (F := F) S_ .f32 0x00000000#32) reducesTo_S4x16x32000x18_S4x16x32000_d3 h_S_

/-! ## The run -/

attribute [local irreducible] Host.reduce Host.gather in
set_option maxRecDepth 8192 in
/-- The result buffer after the line holds refOut of the arguments' contents. -/
theorem out_eq (V : Valuation τ sig (Elt F)) :
    after ops V (main_v17 : DevRef τ sig)
      = refOut (F := F) (V (main_arg0 : DevRef τ sig)) (V (main_arg1 : DevRef τ sig)) (V (main_arg2 : DevRef τ sig))
          (V (main_arg3 : DevRef τ sig)) (V (main_arg4 : DevRef τ sig)) := by
  after_results_simp
  rfl

/-- No operation of the line writes an argument's buffer: each holds afterwards what it held before. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of @main
    terminates with the result buffer at refOut of the five arguments' launch contents, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = refOut (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.Hand

end
-- ==== Proof.RefValue.lean ====
/-
  The reference's result, read index by index at the ideal values, is the specification's function where the path
  indices lie inside the weight table.

  Stage by stage: the contraction read at (b, t, n) is the inner product of activation row (b, t) with weight row n;
  one over one plus the exponential of its negation is the logistic; a path index below 31999 is not negative as a
  signed word, so the take keeps it, its range test passes, the gather reads that column and the masked select keeps
  the gathered value; the two spreads read the sign and the bias of the position; position 18 v + d of the flat axis
  is entry (v, d) of the regrouped one; the clamp's two bounds are the specification's words; and the sum over the
  last axis is zero plus the sum over d.
-/
import proofs.«403175_j63316407877909_2_alg».proof.Proof.RefRun
import proofs.«403175_j63316407877909_2_alg».proof.Proof.Spec
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws
import Idealize.ShloMosaic.PureOps.Reduce

noncomputable section

namespace Cert.ReferenceIdeal.Hand

open Cert.ReferenceIdeal Cert.ReferenceIdeal.Gen Idealize.ShloMosaic Idealize.ShloMosaic.ValueIdx
open Idealize.ShloMosaic.StableHlo.Predicate (slt_iff_toNat sge_iff_toNat sle_iff_toNat toInt_eq_toNat_of_lt)

/-! ## The contraction at an index -/

/-- The contraction's dimension numbers: activations' axis 2 against the table's axis 1, no batch axis. -/
abbrev dotD : DotDims S4x16x512 S31999x512 S4x16x31999 := dot_S4x16x512_S31999x512_S4x16x31999_2_1_01_0_n_n

/-- The left operand's index keeps the result's first two coordinates and takes the contraction's on its last axis. -/
theorem dot_lhs_0 (i : S4x16x31999.Idx) (q : dotD.contr.Idx) : (dotD.lhsIdx i q 0).val = (i 0).val := by
  unfold DotDims.lhsIdx
  rw [dif_neg (show ¬(0 : Fin S4x16x512.rank) ∈ dotD.lhsBatch by decide),
    dif_pos (show (0 : Fin S4x16x512.rank) ∈ dotD.lhsNonContracting by decide)]
  rfl
theorem dot_lhs_1 (i : S4x16x31999.Idx) (q : dotD.contr.Idx) : (dotD.lhsIdx i q 1).val = (i 1).val := by
  unfold DotDims.lhsIdx
  rw [dif_neg (show ¬(1 : Fin S4x16x512.rank) ∈ dotD.lhsBatch by decide),
    dif_pos (show (1 : Fin S4x16x512.rank) ∈ dotD.lhsNonContracting by decide)]
  rfl
theorem dot_lhs_2 (i : S4x16x31999.Idx) (q : dotD.contr.Idx) : (dotD.lhsIdx i q 2).val = (q ⟨0, by decide⟩).val :=
  dotD.lhsIdx_val_of_single rfl i q

/-- The right operand's index takes the result's last coordinate on its first axis and the contraction's on its second. -/
theorem dot_rhs_0 (i : S4x16x31999.Idx) (q : dotD.contr.Idx) : (dotD.rhsIdx i q 0).val = (i 2).val := by
  unfold DotDims.rhsIdx
  rw [dif_neg (show ¬(0 : Fin S31999x512.rank) ∈ dotD.rhsBatch by decide),
    dif_pos (show (0 : Fin S31999x512.rank) ∈ dotD.rhsNonContracting by decide)]
  rfl
theorem dot_rhs_1 (i : S4x16x31999.Idx) (q : dotD.contr.Idx) : (dotD.rhsIdx i q 1).val = (q ⟨0, by decide⟩).val :=
  dotD.rhsIdx_val_of_single rfl i q

/-- The contraction at (b, t, n) is the inner product of activation row (b, t) with weight row n. -/
theorem dot_read (a0 : FVec Ideal S4x16x512 .f32) (a1 : FVec Ideal S31999x512 .f32) (b : Fin 4) (t : Fin 16)
    (n : Fin 31999) :
    Host.dotGeneral (F := Ideal) dotD none a0 a1 (ix3 b t n) = Cert.Spec.logit a0 a1 b t n := by
  unfold Cert.Spec.logit
  show FloatOps.dotGeneral dotD none .single a0 a1 (ix3 b t n) = _
  rw [Ideal.dotGeneral_apply, ← Equiv.sum_comp (contrEquiv1 dotD 512 rfl rfl).symm]
  refine Finset.sum_congr rfl fun k _ => ?_
  have hk := contrEquiv1_symm_val dotD 512 rfl rfl k
  have el : dotD.lhsIdx (ix3 b t n) ((contrEquiv1 dotD 512 rfl rfl).symm k) = ix3 b t k :=
    funext fun a => Fin.ext (by
      match a with
      | ⟨0, _⟩ => exact dot_lhs_0 _ _
      | ⟨1, _⟩ => exact dot_lhs_1 _ _
      | ⟨2, _⟩ => exact (dot_lhs_2 _ _).trans hk)
  have er : dotD.rhsIdx (ix3 b t n) ((contrEquiv1 dotD 512 rfl rfl).symm k) = ix2 n k :=
    funext fun a => Fin.ext (by
      match a with
      | ⟨0, _⟩ => exact dot_rhs_0 _ _
      | ⟨1, _⟩ => exact (dot_rhs_1 _ _).trans hk)
  rw [el, er]

/-- One over one plus the exponential of the negated logit is its logistic. -/
theorem prob_read (a0 : FVec Ideal S4x16x512 .f32) (a1 : FVec Ideal S31999x512 .f32) (b : Fin 4) (t : Fin 16)
    (n : Fin 31999) :
    refProb (F := Ideal) a0 a1 (ix3 b t n) = Ideal.logistic (Cert.Spec.logit a0 a1 b t n) := by
  show Ideal.div (Ideal.ofBits .f32 0x3F800000#32)
      (Ideal.ofBits .f32 0x3F800000#32 + Ideal.exp (-(Host.dotGeneral (F := Ideal) dotD none a0 a1 (ix3 b t n)))) = _
  rw [dot_read, Ideal.ofBits_one_f32]
  rfl

/-! ## The take's index and its range test, where the path index is inside the table -/

/-- A word below 31999 is not negative as a signed word: the take's normalisation keeps it. -/
theorem idx_read (a2 : IVec S576000 32) (p : Fin 576000) (hp : (a2 (ix1 p)).toNat < 31999) :
    refIdx a2 (ix1 p) = a2 (ix1 p) := by
  show Scalar.select (IntOp.cmpi .slt (a2 (ix1 p)) 0#32) (IntOp.addi (a2 (ix1 p)) 31999#32) (a2 (ix1 p)) = _
  have hc : IntOp.cmpi .slt (a2 (ix1 p)) 0#32 = 0#1 :=
    eq_zero_of_ne_one fun h1 =>
      absurd ((slt_iff_toNat (a := a2 (ix1 p)) (b := 0#32) (by omega) (by decide)).mp h1) (Nat.not_lt_zero _)
  rw [hc, select_zero]

/-- The column form reads the normalised index of its row. -/
theorem idxCol_read (a2 : IVec S576000 32) (p : Fin 576000) (q : Fin 1) :
    refIdxCol a2 (ix2 p q) = refIdx a2 (ix1 p) :=
  broadcastInDim_apply _ _ _ _ (ix1 p) fun a => by
    match a with
    | ⟨0, _⟩ => rfl

/-- The range test passes at every position: 0 ≤ index ≤ 31998 as signed words. -/
theorem mask_arg_read (a2 : IVec S576000 32) (h : Cert.Spec.InRange a2) (i : S576000x1.Idx) :
    andi (cmpi .sge (refIdxCol a2) (broadcastInDim S576000x1 ![] bcast_S_S576000x1 (constantI S_ 32 0#32)))
      (cmpi .sle (refIdxCol a2)
        (broadcastInDim S576000x1 ![0, 1] bcast_S1x1_S576000x1_0_1
          (broadcastInDim S1x1 ![1] bcast_S1_S1x1_1 (constantI S1 32 31998#32)))) i = 1#1 := by
  obtain ⟨p, q, rfl⟩ : ∃ (p : Fin 576000) (q : Fin 1), i = ix2 p q := ⟨i 0, i 1, eq_ix2 i⟩
  show IntOp.andi (IntOp.cmpi .sge (refIdxCol a2 (ix2 p q)) 0#32) (IntOp.cmpi .sle (refIdxCol a2 (ix2 p q)) 31998#32) = 1#1
  have hp := h p
  rw [idxCol_read, idx_read a2 p hp]
  have h1 : IntOp.cmpi .sge (a2 (ix1 p)) 0#32 = 1#1 :=
    (sge_iff_toNat (a := a2 (ix1 p)) (b := 0#32) (by omega) (by decide)).mpr (Nat.zero_le _)
  have h2 : IntOp.cmpi .sle (a2 (ix1 p)) 31998#32 = 1#1 :=
    (sle_iff_toNat (a := a2 (ix1 p)) (b := 31998#32) (by omega) (by decide)).mpr (by
      show (a2 (ix1 p)).toNat ≤ 31998
      omega)
  rw [h1, h2]
  rfl

/-- A fold of the bitwise and from 1 over elements that are all 1 is 1. -/
theorem fold_andi_one {ι : Type} [DecidableEq ι] (s : Finset ι) (f : ι → BitVec 1) (hf : ∀ i ∈ s, f i = 1#1) :
    s.fold IntOp.andi 1#1 f = 1#1 := by
  induction s using Finset.induction_on with
  | empty => rfl
  | insert a s ha ih =>
    rw [Finset.fold_insert ha, hf a (Finset.mem_insert_self _ _), ih fun i hi => hf i (Finset.mem_insert_of_mem hi)]
    rfl

theorem red_col : S576000x1.Reduces [1] S576000 := by decide

/-- So the reduced test is 1 at every position. -/
theorem mask_read (a2 : IVec S576000 32) (h : Cert.Spec.InRange a2) (j : S576000.Idx) : refMask a2 j = 1#1 := by
  unfold refMask
  rw [Host.reduce_eq_fold_single IntOp.andi _ _ reducesTo_S576000x1_S576000_d1 red_col h_S_ j]
  exact fold_andi_one _ _ fun k _ => mask_arg_read a2 h _

/-! ## The gather at an index -/

/-- The take's dimension numbers: the table's last axis is indexed and collapsed, its first two are carried over. -/
abbrev gatherD : GatherDims S4x16x31999 S576000x1 S4x16x576000 :=
  gather_S4x16x31999_S576000x1_S4x16x576000_01_2_n_n_2_1_4161

theorem gather_ax0 (idx : IVec S576000x1 32) (b : Fin 4) (t : Fin 16) (p : Fin 576000) :
    (gatherD.operandIdx (ix3 b t p) idx 0).val = b.val := by
  show gatherD.start (ix3 b t p) idx 0 + gatherD.batchCoord (ix3 b t p) 0 + gatherD.offCoord (ix3 b t p) 0 = b.val
  have hs : gatherD.start (ix3 b t p) idx 0 = 0 := by
    unfold GatherDims.start
    rw [dif_neg (show ¬(0 : Fin S4x16x31999.rank) ∈ gatherD.startIndexMap by decide)]
  have ho : gatherD.offCoord (ix3 b t p) 0 = b.val := by
    unfold GatherDims.offCoord
    rw [dif_pos (show (0 : Fin S4x16x31999.rank) ∈ gatherD.sKept by decide)]
    rfl
  rw [hs, gatherD.batchCoord_eq_zero _ _ (by decide), ho, Nat.add_zero, Nat.zero_add]

theorem gather_ax1 (idx : IVec S576000x1 32) (b : Fin 4) (t : Fin 16) (p : Fin 576000) :
    (gatherD.operandIdx (ix3 b t p) idx 1).val = t.val := by
  show gatherD.start (ix3 b t p) idx 1 + gatherD.batchCoord (ix3 b t p) 1 + gatherD.offCoord (ix3 b t p) 1 = t.val
  have hs : gatherD.start (ix3 b t p) idx 1 = 0 := by
    unfold GatherDims.start
    rw [dif_neg (show ¬(1 : Fin S4x16x31999.rank) ∈ gatherD.startIndexMap by decide)]
  have ho : gatherD.offCoord (ix3 b t p) 1 = t.val := by
    unfold GatherDims.offCoord
    rw [dif_pos (show (1 : Fin S4x16x31999.rank) ∈ gatherD.sKept by decide)]
    rfl
  rw [hs, gatherD.batchCoord_eq_zero _ _ (by decide), ho, Nat.add_zero, Nat.zero_add]

theorem gather_ax2 (idx : IVec S576000x1 32) (b : Fin 4) (t : Fin 16) (p : Fin 576000) :
    (gatherD.operandIdx (ix3 b t p) idx 2).val = min (idx (ix2 p 0)).toInt.toNat 31998 := by
  show gatherD.start (ix3 b t p) idx 2 + gatherD.batchCoord (ix3 b t p) 2 + gatherD.offCoord (ix3 b t p) 2 = _
  rw [gatherD.batchCoord_eq_zero _ _ (by decide),
    gatherD.offCoord_eq_zero _ _ (show ¬(2 : Fin S4x16x31999.rank) ∈ gatherD.sKept by decide)]
  simp only [Nat.add_zero]
  unfold GatherDims.start
  rw [dif_pos (show (2 : Fin S4x16x31999.rank) ∈ gatherD.startIndexMap by decide)]
  have hsi : gatherD.siIdx (ix3 b t p) ⟨List.idxOf (2 : Fin S4x16x31999.rank) gatherD.startIndexMap,
      List.idxOf_lt_length_iff.2 (show (2 : Fin S4x16x31999.rank) ∈ gatherD.startIndexMap by decide)⟩ = ix2 p 0 := by
    funext c; refine Fin.ext ?_
    match c with
    | ⟨0, _⟩ => rfl
    | ⟨1, _⟩ => rfl
  rw [hsi]
  rfl

/-- The gather at (b, t, p) reads the table at (b, t, the start index of p read signed and clamped into the table). -/
theorem gather_read {α : Type} (x : S4x16x31999.Idx → α) (idx : IVec S576000x1 32) (b : Fin 4) (t : Fin 16)
    (p : Fin 576000) :
    Host.gather gatherD x idx (ix3 b t p)
      = x (ix3 b t ⟨min (idx (ix2 p 0)).toInt.toNat 31998, by omega⟩) := by
  unfold Host.gather
  refine congrArg x (funext fun a => Fin.ext ?_)
  match a with
  | ⟨0, _⟩ => exact gather_ax0 idx b t p
  | ⟨1, _⟩ => exact gather_ax1 idx b t p
  | ⟨2, _⟩ => exact gather_ax2 idx b t p

/-- The test spread over the rows is 1 everywhere too. -/
theorem maskRows_read (a2 : IVec S576000 32) (h : Cert.Spec.InRange a2) (i : S4x16x576000.Idx) :
    broadcastInDim S4x16x576000 ![2] bcast_S576000_S4x16x576000_2 (refMask a2) i = 1#1 := by
  unfold broadcastInDim
  exact mask_read a2 h _

attribute [local irreducible] Host.reduce Host.gather in
/-- The take at an index is the select, on the spread test, between the gathered value and the fill value. -/
theorem take_unfold {F : FTy → Type} [FloatOps F] (P : FVec F S4x16x31999 .f32) (a2 : IVec S576000 32)
    (i : S4x16x576000.Idx) :
    refTake (F := F) P a2 i
      = Scalar.select (broadcastInDim S4x16x576000 ![2] bcast_S576000_S4x16x576000_2 (refMask a2) i)
          (Host.gather gatherD P (refIdxCol a2) i)
          (broadcastInDim S4x16x576000 ![] bcast_S_S4x16x576000 (constant (F := F) S_ .f32 0x7FC00000#32) i) := rfl

/-- The take at (b, t, p), where the path index is inside the table: the table's entry at that index. -/
theorem take_read (P : FVec Ideal S4x16x31999 .f32) (a2 : IVec S576000 32) (h : Cert.Spec.InRange a2) (b : Fin 4)
    (t : Fin 16) (p : Fin 576000) :
    refTake (F := Ideal) P a2 (ix3 b t p) = P (ix3 b t ⟨(a2 (ix1 p)).toNat, h p⟩) := by
  rw [take_unfold, maskRows_read a2 h, select_one, gather_read]
  have hp := h p
  have hw : refIdxCol a2 (ix2 p 0) = a2 (ix1 p) := (idxCol_read a2 p 0).trans (idx_read a2 p hp)
  refine congrArg P (congrArg (ix3 b t) (Fin.ext ?_))
  show min (refIdxCol a2 (ix2 p 0)).toInt.toNat 31998 = (a2 (ix1 p)).toNat
  rw [hw, toInt_eq_toNat_of_lt (by omega), Int.toNat_natCast]
  omega

/-! ## Sign and bias, the regrouping, the clamp, the logarithm, the sum -/

/-- A vector over the path positions, spread over the rows, reads its entry at the position. -/
theorem rows_read {α : Type} (x : S576000.Idx → α) (b : Fin 4) (t : Fin 16) (p : Fin 576000) :
    broadcastInDim S4x16x576000 ![0, 1, 2] bcast_S1x1x576000_S4x16x576000_0_1_2
      (broadcastInDim S1x1x576000 ![2] bcast_S576000_S1x1x576000_2 x) (ix3 b t p) = x (ix1 p) := by
  have h1 : broadcastInDim S4x16x576000 ![0, 1, 2] bcast_S1x1x576000_S4x16x576000_0_1_2
        (broadcastInDim S1x1x576000 ![2] bcast_S576000_S1x1x576000_2 x) (ix3 b t p)
      = broadcastInDim S1x1x576000 ![2] bcast_S576000_S1x1x576000_2 x (ix3 (0 : Fin 1) (0 : Fin 1) p) :=
    broadcastInDim_apply _ _ _ _ (ix3 (0 : Fin 1) (0 : Fin 1) p) fun a => by
      match a with
      | ⟨0, _⟩ => rfl
      | ⟨1, _⟩ => rfl
      | ⟨2, _⟩ => rfl
  have h2 : broadcastInDim S1x1x576000 ![2] bcast_S576000_S1x1x576000_2 x (ix3 (0 : Fin 1) (0 : Fin 1) p) = x (ix1 p) :=
    broadcastInDim_apply _ _ _ _ (ix1 p) fun a => by
      match a with
      | ⟨0, _⟩ => rfl
  exact h1.trans h2

/-- Times the sign plus the bias, at (b, t, p). -/
theorem path_read (T : FVec Ideal S4x16x576000 .f32) (a3 a4 : FVec Ideal S576000 .f32) (b : Fin 4) (t : Fin 16)
    (p : Fin 576000) :
    refPath (F := Ideal) T a3 a4 (ix3 b t p) = T (ix3 b t p) * a3 (ix1 p) + a4 (ix1 p) := by
  show T (ix3 b t p)
        * broadcastInDim S4x16x576000 ![0, 1, 2] bcast_S1x1x576000_S4x16x576000_0_1_2
            (broadcastInDim S1x1x576000 ![2] bcast_S576000_S1x1x576000_2 a3) (ix3 b t p)
      + broadcastInDim S4x16x576000 ![0, 1, 2] bcast_S1x1x576000_S4x16x576000_0_1_2
          (broadcastInDim S1x1x576000 ![2] bcast_S576000_S1x1x576000_2 a4) (ix3 b t p) = _
  rw [rows_read, rows_read]

/-- Entry (v, d) of the regrouped array is position 18 v + d of the flat one: the two have the same row-major place. -/
theorem regroup_read {α : Type} (Y : S4x16x576000.Idx → α) (b : Fin 4) (t : Fin 16) (v : Fin 32000) (d : Fin 18) :
    shapeCast S4x16x32000x18 Y shapeCasts_S4x16x576000_S4x16x32000x18 (ix4 b t v d)
      = Y (ix3 b t (Cert.Spec.pos v d)) := by
  refine shapeCast_apply Y _ (ix4 b t v d) (ix3 b t (Cert.Spec.pos v d)) ?_
  rw [Shape.rowMajor_val_three, Shape.rowMajor_val_four]
  show (b.val * 16 + t.val) * 576000 + (v.val * 18 + d.val) = ((b.val * 16 + t.val) * 32000 + v.val) * 18 + d.val
  omega

/-- The clamp at an index: the smaller of the upper bound and the larger of the lower bound and the value; the bounds
    are the specification's two words. -/
theorem clip_read (y : FVec Ideal S4x16x32000x18 .f32) (i : S4x16x32000x18.Idx) :
    refClip (F := Ideal) y i = min Cert.Spec.hi (max Cert.Spec.lo (y i)) := by
  unfold Cert.Spec.hi Cert.Spec.lo
  rfl

theorem red_d : S4x16x32000x18.Reduces [3] S4x16x32000 := by decide

/-- The index over (b, t, v) with d put on the summed axis is (b, t, v, d). -/
theorem lift_d (b : Fin 4) (t : Fin 16) (v : Fin 32000) (d : Fin 18) : red_d.lift (ix3 b t v) d = ix4 b t v d := by
  funext c; refine Fin.ext ?_
  match c with
  | ⟨0, _⟩ => rfl
  | ⟨1, _⟩ => rfl
  | ⟨2, _⟩ => rfl
  | ⟨3, _⟩ => rfl

/-- The logarithm at an index. -/
theorem log_read (x : FVec Ideal S4x16x32000x18 .f32) (i : S4x16x32000x18.Idx) :
    Host.log (F := Ideal) x i = Ideal.log (x i) := rfl

/-- The sum over the last axis from the zero word, at (b, t, v): the sum over d of the entries (b, t, v, d). -/
theorem sum_read (x : FVec Ideal S4x16x32000x18 .f32) (b : Fin 4) (t : Fin 16) (v : Fin 32000) :
    Host.reduceAdd (F := Ideal) x (constant (F := Ideal) S_ .f32 0x00000000#32)
        reducesTo_S4x16x32000x18_S4x16x32000_d3 h_S_ (ix3 b t v)
      = ∑ d : Fin 18, x (ix4 b t v d) := by
  rw [hostReduceAdd_apply, Ideal.hostReduceAdd_single _ red_d,
    show constant (F := Ideal) S_ .f32 0x00000000#32 (Shape.Idx.first h_S_) = (0 : EReal) from Ideal.ofBits_zero_f32,
    zero_add]
  exact Finset.sum_congr rfl fun (d : Fin 18) _ => by rw [lift_d b t v d]

/-- The result at (b, t, v): the sum over d of the logarithm of the clamped signed probability at position 18 v + d. -/
theorem out_read (a0 : FVec Ideal S4x16x512 .f32) (a1 : FVec Ideal S31999x512 .f32) (a2 : IVec S576000 32)
    (a3 a4 : FVec Ideal S576000 .f32) (b : Fin 4) (t : Fin 16) (v : Fin 32000) :
    refOut (F := Ideal) a0 a1 a2 a3 a4 (ix3 b t v)
      = ∑ d : Fin 18, Ideal.log (min Cert.Spec.hi (max Cert.Spec.lo
          (refPath (F := Ideal) (refTake (F := Ideal) (refProb (F := Ideal) a0 a1) a2) a3 a4
            (ix3 b t (Cert.Spec.pos v d))))) := by
  unfold refOut
  rw [sum_read]
  refine Finset.sum_congr rfl fun d _ => ?_
  rw [log_read, clip_read, regroup_read]

/-! ## The reference is the specification -/

/-- At the ideal values, where every path index is inside the weight table, the reference's result is the
    specification's function of the five arguments. -/
theorem refOut_eq_G (a0 : FVec Ideal S4x16x512 .f32) (a1 : FVec Ideal S31999x512 .f32) (a2 : IVec S576000 32)
    (a3 a4 : FVec Ideal S576000 .f32) (h : Cert.Spec.InRange a2) :
    refOut (F := Ideal) a0 a1 a2 a3 a4 = Cert.Spec.G a0 a1 a2 a3 a4 := by
  funext j
  obtain ⟨b, t, v, rfl⟩ : ∃ (b : Fin 4) (t : Fin 16) (v : Fin 32000), j = ix3 b t v := ⟨j 0, j 1, j 2, eq_ix3 j⟩
  rw [out_read]
  show _ = Cert.Spec.val a0 a1 a2 a3 a4 b t v
  unfold Cert.Spec.val Cert.Spec.term
  refine Finset.sum_congr rfl fun d _ => ?_
  rw [path_read, take_read _ a2 h, prob_read]
  unfold Cert.Spec.logitAt
  rw [dif_pos (h (Cert.Spec.pos v d))]

end Cert.ReferenceIdeal.Hand

end
-- ==== Proof.lean ====
/-
  The certificate's five claims.

  Both printed kernel programs run as seven segments (three host stretches, the linear region, a host stretch, the
  gather region, a host stretch); their run ends with every unscoped buffer at a named fold of the launch memory, from
  which the argument arrays are read back unchanged: the two kernel frames.  The reference is a straight line of host
  operations; its run names its result as one pure function of the arguments, and its frame is that run with the
  result dropped.  The idealization rewrote nothing, so `preserves` is trivial.
  For the value claim both results are the specification `Cert.Spec.G` of the arguments — for every row, vocabulary
  entry and path position, the logarithm of the clipped, signed and shifted logistic of the row's inner product with
  the weight row the path index names, summed over the 18 positions — as soon as the path indices lie inside the weight
  table, which is the precondition's last conjunct.
-/
import proofs.«403175_j63316407877909_2_alg».proof.Defs
import proofs.«403175_j63316407877909_2_alg».proof.Proof.Gen.Kernel
import proofs.«403175_j63316407877909_2_alg».proof.Proof.Gen.Kernel.Skeleton
import proofs.«403175_j63316407877909_2_alg».proof.Proof.Gen.Kernel.Launch
import proofs.«403175_j63316407877909_2_alg».proof.Proof.Gen.Kernel.Regions
import proofs.«403175_j63316407877909_2_alg».proof.Proof.Gen.Kernel.Points
import proofs.«403175_j63316407877909_2_alg».proof.Proof.Gen.KernelIdeal
import proofs.«403175_j63316407877909_2_alg».proof.Proof.Gen.KernelIdeal.Skeleton
import proofs.«403175_j63316407877909_2_alg».proof.Proof.Gen.KernelIdeal.Launch
import proofs.«403175_j63316407877909_2_alg».proof.Proof.Gen.KernelIdeal.Regions
import proofs.«403175_j63316407877909_2_alg».proof.Proof.Gen.KernelIdeal.Points
import proofs.«403175_j63316407877909_2_alg».proof.Proof.Gen.ReferenceIdeal
import proofs.«403175_j63316407877909_2_alg».proof.Proof.Gen.Pre_finite_inputs
import proofs.«403175_j63316407877909_2_alg».proof.Proof.Run
import proofs.«403175_j63316407877909_2_alg».proof.Proof.KernelBits.Run
import proofs.«403175_j63316407877909_2_alg».proof.Proof.KernelValue
import proofs.«403175_j63316407877909_2_alg».proof.Proof.PreDecode
import proofs.«403175_j63316407877909_2_alg».proof.Proof.RefRun
import proofs.«403175_j63316407877909_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ =>
  (θ_run Cert.Kernel.defs _ _).mono (fun r h c =>
    ⟨(h c _ (Cert.Kernel.Hand.mem_uc Cert.Kernel.main_arg0 (by decide))).trans (Cert.Kernel.Hand.W7_main_arg0 m c),
      (h c _ (Cert.Kernel.Hand.mem_uc Cert.Kernel.main_arg1 (by decide))).trans (Cert.Kernel.Hand.W7_main_arg1 m c),
      (h c _ (Cert.Kernel.Hand.mem_uc Cert.Kernel.main_arg2 (by decide))).trans (Cert.Kernel.Hand.W7_main_arg2 m c),
      (h c _ (Cert.Kernel.Hand.mem_uc Cert.Kernel.main_arg3 (by decide))).trans (Cert.Kernel.Hand.W7_main_arg3 m c),
      (h c _ (Cert.Kernel.Hand.mem_uc Cert.Kernel.main_arg4 (by decide))).trans (Cert.Kernel.Hand.W7_main_arg4 m c)⟩)
    (Cert.Kernel.Hand.run_all (F := Bits) m ρ)

/-- The idealized kernel program runs and leaves its arguments as launched. -/
theorem frame_kernelIdeal : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c)⟩)
    (Cert.KernelIdeal.Hand.run_all (F := Ideal) m ρ)

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Hand.ref_run (F := Ideal) m ρ)

/-- The idealization rewrote no operation. -/
theorem preserves : Cert.preserves_Kernel_KernelIdeal := trivial

/-- From memories agreeing on the arguments both programs end with the specification's array: the kernel's result
    buffer read off its run's last boundary, the reference's off its run's term, the path indices in range by the
    precondition on both sides (the memories agree on them). -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_,
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c)⟩)
      (Cert.KernelIdeal.Hand.run_all (F := Ideal) m ρ)
    exact (h c _ (Cert.KernelIdeal.Hand.mem_uc Cert.KernelIdeal.main_v9 (by decide))).trans
      (Cert.KernelIdeal.Hand.kernel_value m c (Cert.KernelIdeal.Hand.inRange_of_pre m hpre c))
  · refine (θ_run Cert.ReferenceIdeal.defs _ _).mono (fun r h c => ⟨(h c).1.trans ?_, (h c).2⟩)
      (Cert.ReferenceIdeal.Hand.ref_run (F := Ideal) m' ρ')
    rw [(hagree c).1, (hagree c).2.1, (hagree c).2.2.1, (hagree c).2.2.2.1, (hagree c).2.2.2.2]
    exact Cert.ReferenceIdeal.Hand.refOut_eq_G _ _ _ _ _ (Cert.KernelIdeal.Hand.inRange_of_pre m hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
